-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part7 {F : FTy → Type} [FloatOps F] (main_arg15 : FVec F S128 .f32) (main_arg22 : FVec F S128 .f32) (main_v113 : IVec S_ 1) (main_v118 : IVec S_ 1) : IVec S_ 1 :=
  let main_v119 : IVec S_ 1 := andi main_v113 main_v118
  let main_cst_47 : FVec F S_ .f32 := constant S_ .f32 0x3727C5AC#32
  let main_v120 : FVec F S128 .f32 := broadcastInDim S128 ![] bcast_S_S128 main_cst_47
  let main_v121 : FVec F S128 .f32 := addf main_arg15 main_v120
  let main_cst_48 : FVec F S_ .f32 := constant S_ .f32 0x00000000#32
  let main_v122 : FVec F S128 .f32 := broadcastInDim S128 ![] bcast_S_S128 main_cst_48
  let main_v123 : IVec S128 1 := cmpf .ogt main_v121 main_v122
  let main_c_49 : IVec S_ 1 := constantI S_ 1 1#1
  let main_v124 : IVec S_ 1 := (fun x v => Host.reduce IntOp.andi x v reducesTo_S128_S_d0 h_S_) main_v123 main_c_49
  let main_v125 : IVec S_ 1 := andi main_v119 main_v124
  let main_cst_50 : FVec F S_ .f32 := constant S_ .f32 0x3727C5AC#32
  let main_v126 : FVec F S128 .f32 := broadcastInDim S128 ![] bcast_S_S128 main_cst_50
  let main_v127 : FVec F S128 .f32 := addf main_arg22 main_v126
  let main_cst_51 : FVec F S_ .f32 := constant S_ .f32 0x00000000#32
  let main_v128 : FVec F S128 .f32 := broadcastInDim S128 ![] bcast_S_S128 main_cst_51
  let main_v129 : IVec S128 1 := cmpf .ogt main_v127 main_v128
  let main_c_52 : IVec S_ 1 := constantI S_ 1 1#1
  let main_v130 : IVec S_ 1 := (fun x v => Host.reduce IntOp.andi x v reducesTo_S128_S_d0 h_S_) main_v129 main_c_52
  let main_v131 : IVec S_ 1 := andi main_v125 main_v130
  main_v131

def fn_part6 {F : FTy → Type} [FloatOps F] (main_arg8 : FVec F S128 .f32) (main_arg15 : FVec F S128 .f32) (main_arg21 : FVec F S128 .f32) (main_arg22 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_cst_44 : FVec F S_ .f32 := constant S_ .f32 0x3727C5AC#32
  let main_v114 : FVec F S128 .f32 := broadcastInDim S128 ![] bcast_S_S128 main_cst_44
  let main_v115 : FVec F S128 .f32 := addf main_arg8 main_v114
  let main_cst_45 : FVec F S_ .f32 := constant S_ .f32 0x00000000#32
  let main_v116 : FVec F S128 .f32 := broadcastInDim S128 ![] bcast_S_S128 main_cst_45
  let main_v117 : IVec S128 1 := cmpf .ogt main_v115 main_v116
  let main_c_46 : IVec S_ 1 := constantI S_ 1 1#1
  let main_v118 : IVec S_ 1 := (fun x v => Host.reduce IntOp.andi x v reducesTo_S128_S_d0 h_S_) main_v117 main_c_46
  fn_part7 (F := F) main_arg15 main_arg22 main_v113 main_v118

def fn_part5 {F : FTy → Type} [FloatOps F] (main_arg8 : FVec F S128 .f32) (main_arg15 : FVec F S128 .f32) (main_arg18 : FVec F S128 .f32) (main_arg19 : FVec F S128 .f32) (main_arg20 : FVec F S128 .f32) (main_arg21 : FVec F S128 .f32) (main_arg22 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg8 main_arg15 main_arg21 main_arg22 main_v98 main_v101 main_c_39

def fn_part4 {F : FTy → Type} [FloatOps F] (main_arg8 : FVec F S128 .f32) (main_arg14 : FVec F S128 .f32) (main_arg15 : FVec F S128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg8 main_arg15 main_arg18 main_arg19 main_arg20 main_arg21 main_arg22 main_v83 main_v84 main_cst_32

def fn_part3 {F : FTy → Type} [FloatOps F] (main_arg8 : FVec F S128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg8 main_arg14 main_arg15 main_arg16 main_arg17 main_arg18 main_arg19 main_arg20 main_arg21 main_arg22 main_v63 main_v67

def fn_part2 {F : FTy → Type} [FloatOps F] (main_arg7 : FVec F S128 .f32) (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg8 main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S10000x128 .f32) (main_arg1 : FVec F S10000x10000 .f32) (main_arg2 : FVec F S128x128 .f32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S128x256 : Shape := ⟨2, ![128, 256]⟩
abbrev S256 : Shape := ⟨1, ![256]⟩
abbrev S1x256 : Shape := ⟨2, ![1, 256]⟩
abbrev S10000x256 : Shape := ⟨2, ![10000, 256]⟩
abbrev S1000x128 : Shape := ⟨2, ![1000, 128]⟩
abbrev S1000x256 : Shape := ⟨2, ![1000, 256]⟩
abbrev S400x10000 : Shape := ⟨2, ![400, 10000]⟩
abbrev S400x128 : Shape := ⟨2, ![400, 128]⟩
abbrev S400x256 : Shape := ⟨2, ![400, 256]⟩
abbrev S1x128 : Shape := ⟨2, ![1, 128]⟩
abbrev S10000x384 : Shape := ⟨2, ![10000, 384]⟩

abbrev nBuf : Space → Nat
  | .hbm => 61
  | .vmem => 28
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128x128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S128x256, .f32⟩
  | .hbm, ⟨48, _⟩ => ⟨S128x256, .f32⟩
  | .hbm, ⟨49, _⟩ => ⟨S256, .f32⟩
  | .hbm, ⟨50, _⟩ => ⟨S1x256, .f32⟩
  | .hbm, ⟨51, _⟩ => ⟨S256, .f32⟩
  | .hbm, ⟨52, _⟩ => ⟨S1x256, .f32⟩
  | .hbm, ⟨53, _⟩ => ⟨S10000x256, .f32⟩
  | .hbm, ⟨54, _⟩ => ⟨S10000x256, .f32⟩
  | .hbm, ⟨55, _⟩ => ⟨S10000x128, .f32⟩
  | .hbm, ⟨56, _⟩ => ⟨S1x128, .f32⟩
  | .hbm, ⟨57, _⟩ => ⟨S1x128, .f32⟩
  | .hbm, ⟨58, _⟩ => ⟨S10000x128, .f32⟩
  | .hbm, ⟨59, _⟩ => ⟨S10000x128, .f32⟩
  | .hbm, ⟨60, _⟩ => ⟨S10000x384, .f32⟩
  | .local _ .vmem, ⟨0, _⟩ => ⟨S1000x128, .f32⟩
  | .local _ .vmem, ⟨1, _⟩ => ⟨S1000x128, .f32⟩
  | .local _ .vmem, ⟨2, _⟩ => ⟨S128x256, .f32⟩
  | .local _ .vmem, ⟨3, _⟩ => ⟨S1000x256, .f32⟩
  | .local _ .vmem, ⟨4, _⟩ => ⟨S1000x256, .f32⟩
  | .local _ .vmem, ⟨5, _⟩ => ⟨S400x10000, .f32⟩
  | .local _ .vmem, ⟨6, _⟩ => ⟨S400x10000, .f32⟩
  | .local _ .vmem, ⟨7, _⟩ => ⟨S10000x256, .f32⟩
  | .local _ .vmem, ⟨8, _⟩ => ⟨S400x128, .f32⟩
  | .local _ .vmem, ⟨9, _⟩ => ⟨S400x128, .f32⟩
  | .local _ .vmem, ⟨10, _⟩ => ⟨S128x256, .f32⟩
  | .local _ .vmem, ⟨11, _⟩ => ⟨S128x128, .f32⟩
  | .local _ .vmem, ⟨12, _⟩ => ⟨S1x256, .f32⟩
  | .local _ .vmem, ⟨13, _⟩ => ⟨S1x256, .f32⟩
  | .local _ .vmem, ⟨14, _⟩ => ⟨S400x256, .f32⟩
  | .local _ .vmem, ⟨15, _⟩ => ⟨S400x256, .f32⟩
  | .local _ .vmem, ⟨16, _⟩ => ⟨S400x128, .f32⟩
  | .local _ .vmem, ⟨17, _⟩ => ⟨S400x128, .f32⟩
  | .local _ .vmem, ⟨18, _⟩ => ⟨S400x10000, .f32⟩
  | .local _ .vmem, ⟨19, _⟩ => ⟨S400x10000, .f32⟩
  | .local _ .vmem, ⟨20, _⟩ => ⟨S10000x128, .f32⟩
  | .local _ .vmem, ⟨21, _⟩ => ⟨S400x256, .f32⟩
  | .local _ .vmem, ⟨22, _⟩ => ⟨S400x256, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S400x128, .f32⟩
  | .local _ .vmem, ⟨27, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28_0 : Ref sig .tc := ⟨.hbm, 54, rfl⟩
abbrev main_v28_1 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S400x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S400x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S128 : S_.BroadcastsInDim S128 (![] : Fin 0 → Fin S128.rank)
  concatenates_S128x128_S128x128_S128x256_d1 : Shape.Concatenates [S128x128, S128x128] S128x256 1
  concatenates_S128_S128_S256_d0 : Shape.Concatenates [S128, S128] S256 0
  bcast_S256_S1x256_1 : S256.BroadcastsInDim S1x256 (![1] : Fin 1 → Fin S1x256.rank)
  inb_S1000x128_S1000x128_0_0 : ∀ a, (![0, 0] : Fin 2 → Nat) a + S1000x128.size a ≤ S1000x128.size a
  h_S1000x128 : 0 < S1000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1000x256_S1000x256_0_0 : ∀ a, (![0, 0] : Fin 2 → Nat) a + S1000x256.size a ≤ S1000x256.size a
  h_S1000x256 : 0 < S1000x256.numel
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S400x128_S400x128_0_0 : ∀ a, (![0, 0] : Fin 2 → Nat) a + S400x128.size a ≤ S400x128.size a
  h_S400x128 : 0 < S400x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x256_S400x256_0_0 : ∀ a, (![0, 0] : Fin 2 → Nat) a + S400x256.size a ≤ S400x256.size a
  h_S400x256 : 0 < S400x256.numel
  slices_S400x256_o0_128_S400x128 : S400x256.Slices ![0, 128] S400x128
  inb_S128x128_S128x128_0_0 : ∀ a, (![0, 0] : Fin 2 → Nat) a + S128x128.size a ≤ S128x128.size a
  h_S128x128 : 0 < S128x128.numel
  bcast_S128_S1x128_1 : S128.BroadcastsInDim S1x128 (![1] : Fin 1 → Fin S1x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S400x256_S400x256 : S400x256.ShapeCasts S400x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  slices_S10000x256_S10000x128_0_0 : S10000x256.Slices ![0, 0] S10000x128
  concatenates_S10000x128_S10000x128_S10000x128_S10000x384_d1 : Shape.Concatenates [S10000x128, S10000x128, S10000x128] S10000x384 1
  dot_S1000x128_S128x256_S1000x256_1_0_0_1_n_n_wf : DotDims.WF S1000x128 S128x256 S1000x256 [1] [0] [0] [1] [] []
  dot_S400x10000_S10000x256_S400x256_1_0_0_1_n_n_wf : DotDims.WF S400x10000 S10000x256 S400x256 [1] [0] [0] [1] [] []
  dot_S400x128_S128x256_S400x256_1_0_0_1_n_n_wf : DotDims.WF S400x128 S128x256 S400x256 [1] [0] [0] [1] [] []
  dot_S400x128_S128x128_S400x128_1_0_0_1_n_n_wf : DotDims.WF S400x128 S128x128 S400x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .f32 = 32 ∨ (Rect.block (s := S10000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x256.size a ≤ S10000x256.size a
  hwx1_7 : ∀ i : grid1.Coords, EltTy.bits .f32 = 32 ∨ (Rect.block (s := S10000x256) S400x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x128.size a ≤ S10000x128.size a
  hwx1_8 : ∀ i : grid1.Coords, EltTy.bits .f32 = 32 ∨ (Rect.block (s := S10000x128) S400x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x256.size a ≤ S10000x256.size a
  hwx2_2 : ∀ i : grid2.Coords, EltTy.bits .f32 = 32 ∨ (Rect.block (s := S10000x256) S400x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x128.size a ≤ S10000x128.size a
  hwx2_6 : ∀ i : grid2.Coords, EltTy.bits .f32 = 32 ∨ (Rect.block (s := S10000x128) S400x128.size (cc2_transform_6 i) (hinb2_6 i)).WholeWords (EltTy.packing .f32)

variable [Facts₀]

def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28_0) S400x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v28_1) S400x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28_0) S400x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S400x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000x256 : Shape := ⟨2, ![10000, 256]⟩
abbrev S10000x384 : Shape := ⟨2, ![10000, 384]⟩

abbrev nBuf : Space → Nat
  | .hbm => 103
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128x128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S1x128, .f32⟩
  | .hbm, ⟨28, _⟩ => ⟨S10000x128, .f32⟩
  | .hbm, ⟨29, _⟩ => ⟨S10000x128, .f32⟩
  | .hbm, ⟨30, _⟩ => ⟨S1x128, .f32⟩
  | .hbm, ⟨31, _⟩ => ⟨S10000x128, .f32⟩
  | .hbm, ⟨32, _⟩ => ⟨S10000x128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S1x128, .f32⟩
  | .hbm, ⟨44, _⟩ => ⟨S10000x128, .f32⟩
  | .hbm, ⟨45, _⟩ => ⟨S10000x128, .f32⟩
  | .hbm, ⟨46, _⟩ => ⟨S_, .f32⟩
  | .hbm, ⟨47, _⟩ => ⟨S10000x128, .f32⟩
  | .hbm, ⟨48, _⟩ => ⟨S10000x128, .f32⟩
  | .hbm, ⟨49, _⟩ => ⟨S10000x256, .f32⟩
  | .hbm, ⟨50, _⟩ => ⟨S10000x128, .f32⟩
  | .hbm, ⟨51, _⟩ => ⟨S10000x128, .f32⟩
  | .hbm, ⟨52, _⟩ => ⟨S10000x128, .f32⟩
  | .hbm, ⟨53, _⟩ => ⟨S10000x128, .f32⟩
  | .hbm, ⟨54, _⟩ => ⟨S1x128, .f32⟩
  | .hbm, ⟨55, _⟩ => ⟨S10000x128, .f32⟩
  | .hbm, ⟨56, _⟩ => ⟨S10000x128, .f32⟩
  | .hbm, ⟨57, _⟩ => ⟨S1x128, .f32⟩
  | .hbm, ⟨58, _⟩ => ⟨S10000x128, .f32⟩
  | .hbm, ⟨59, _⟩ => ⟨S10000x128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S10000x128, .f32⟩
  | .hbm, ⟨66, _⟩ => ⟨S10000x128, .f32⟩
  | .hbm, ⟨67, _⟩ => ⟨S1x128, .f32⟩
  | .hbm, ⟨68, _⟩ => ⟨S10000x128, .f32⟩
  | .hbm, ⟨69, _⟩ => ⟨S10000x128, .f32⟩
  | .hbm, ⟨70, _⟩ => ⟨S1x128, .f32⟩
  | .hbm, ⟨71, _⟩ => ⟨S10000x128, .f32⟩
  | .hbm, ⟨72, _⟩ => ⟨S10000x128, .f32⟩
  | .hbm, ⟨73, _⟩ => ⟨S_, .f32⟩
  | .hbm, ⟨74, _⟩ => ⟨S10000x128, .f32⟩
  | .hbm, ⟨75, _⟩ => ⟨S10000x128, .f32⟩
  | .hbm, ⟨76, _⟩ => ⟨S10000x128, .f32⟩
  | .hbm, ⟨77, _⟩ => ⟨S10000x128, .f32⟩
  | .hbm, ⟨78, _⟩ => ⟨S10000x128, .f32⟩
  | .hbm, ⟨79, _⟩ => ⟨S10000x128, .f32⟩
  | .hbm, ⟨80, _⟩ => ⟨S1x128, .f32⟩
  | .hbm, ⟨81, _⟩ => ⟨S10000x128, .f32⟩
  | .hbm, ⟨82, _⟩ => ⟨S10000x128, .f32⟩
  | .hbm, ⟨83, _⟩ => ⟨S1x128, .f32⟩
  | .hbm, ⟨84, _⟩ => ⟨S10000x128, .f32⟩
  | .hbm, ⟨85, _⟩ => ⟨S10000x128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S10000x128, .f32⟩
  | .hbm, ⟨92, _⟩ => ⟨S10000x128, .f32⟩
  | .hbm, ⟨93, _⟩ => ⟨S1x128, .f32⟩
  | .hbm, ⟨94, _⟩ => ⟨S10000x128, .f32⟩
  | .hbm, ⟨95, _⟩ => ⟨S10000x128, .f32⟩
  | .hbm, ⟨96, _⟩ => ⟨S1x128, .f32⟩
  | .hbm, ⟨97, _⟩ => ⟨S10000x128, .f32⟩
  | .hbm, ⟨98, _⟩ => ⟨S10000x128, .f32⟩
  | .hbm, ⟨99, _⟩ => ⟨S_, .f32⟩
  | .hbm, ⟨100, _⟩ => ⟨S10000x128, .f32⟩
  | .hbm, ⟨101, _⟩ => ⟨S10000x128, .f32⟩
  | .hbm, ⟨102, _⟩ => ⟨S10000x384, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call0_cst : Ref sig .tc := ⟨.hbm, 46, rfl⟩
abbrev main_call0_v0 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_cst : Ref sig .tc := ⟨.hbm, 73, rfl⟩
abbrev main_call1_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_1 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call2_cst : Ref sig .tc := ⟨.hbm, 99, rfl⟩
abbrev main_call2_v0 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S128 : S_.BroadcastsInDim S128 (![] : Fin 0 → Fin S128.rank)
  bcast_S_S10000x128 : S_.BroadcastsInDim S10000x128 (![] : Fin 0 → Fin S10000x128.rank)
  concatenates_S10000x128_S10000x128_S10000x256_d1 : Shape.Concatenates [S10000x128, S10000x128] S10000x256 1
  concatenates_S10000x256_S10000x128_S10000x384_d1 : Shape.Concatenates [S10000x256, S10000x128] S10000x384 1
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Region0.lean ====
import proofs.«175746_g1967095022037_cont_8to1_1256_3_alg».proof.Proof.Gen.Kernel.Launch
import proofs.«175746_g1967095022037_cont_8to1_1256_3_alg».proof.Proof.Gen.Kernel.Skeleton
import proofs.«175746_g1967095022037_cont_8to1_1256_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Kernel region 0 (the program's first kernel call, body cc0__sup_body): the frame half

At ANY float instance and at a parameter V, the TensorCore's buffer contents when the region is entered:
each window's block at a grid point, the body's triple on whole staging buffers, the pipeline's proof data and
the body obligation at every point.

The region has three windows. Window 0 walks the row blocks [1000,128] of its array, one per grid point, and is
fetched at every point. Window 1 is one whole array [128,256] at a constant block index, fetched at the first
point only. Window 2 is the output, the row blocks [1000,256], written back at every point. The body reads both
input buffers whole and overwrites the output buffer whole with one payload of the two reads (a matrix product),
so what it leaves in the output buffer is that payload of the two input blocks, and nothing of the buffer's
earlier contents survives. -/

-- the windows' block shapes are reached through the configuration's definitions, one structural step at a time
set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- window w's block at point t, read off its array as the region finds it -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    V's and whose body leaves the block in place: the window is uncut, never idle, and fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: its block
    index is constant, so at an unfetched point the block kept from the point before is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The zero offsets of a rank-2 access, as the constant function. -/
theorem off2_zero : (![0, 0] : Fin 2 → ℕ) = fun _ => 0 := funext fun a => by fin_cases a <;> rfl

/-- A load through the whole-shape rectangle at zero offsets reads the buffer's contents. -/
theorem readAt_whole0 {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  View.ld_unit_zero h inb (v.read (Elt F) f)

/-- One store through the whole-shape rectangle at zero offsets covers the buffer, so the buffer then reads the
    stored value, whatever it held. -/
theorem read_writes_whole0 {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h inb w]

/-! ## The body's triple -/

set_option maxHeartbeats 1000000 in
/-- The kernel body on whole staging memrefs, the inputs' at read contents x0, x1 and the output's at anything,
    runs to the continuation holding the inputs' as they were and the output's at the payload of x0 and x1: each
    load goes through the whole-shape rectangle at zero offsets and reads the contents; the one store goes through
    the same rectangle of the output buffer, covers it, and leaves its payload. -/
theorem sound_kernel0 (c : Dev nD) (E : Set ℕ) (i : grid0.Coords)
    (arg1 : Memref sig .tc .vmem S1000x128 .f32) (harg1 : arg1.IsWhole)
    (arg2 : Memref sig .tc .vmem S128x256 .f32) (harg2 : arg2.IsWhole)
    (arg3 : Memref sig .tc .vmem S1000x256 .f32) (harg3 : arg3.IsWhole)
    (x0 : Vec F S1000x128 .f32) (x1 : Vec F S128x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__sup_body i arg1 harg1 arg2 harg2 arg3 harg3) K := by
  simp only [cc0__sup_body_eq_skeleton]; unfold cc0__sup_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_writes_whole0 arg3.view f2 off2_zero, readAt_whole0 arg1.view f0 off2_zero, readAt_whole0 arg2.view f1 off2_zero]

/-! ## The pipeline's proof data -/

/-- The proof data of the region's pipeline on core c: the arrays as the region finds them; after the body at
    point t each input's buffer at its block and the output's at the payload of the two input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Rgn

end
-- ==== Proof.K.Region1.lean ====
import proofs.«175746_g1967095022037_cont_8to1_1256_3_alg».proof.Proof.Gen.Kernel.Launch
import proofs.«175746_g1967095022037_cont_8to1_1256_3_alg».proof.Proof.Gen.Kernel.Skeleton
import proofs.«175746_g1967095022037_cont_8to1_1256_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- the shapes' long axes: structural looks at a rectangle recurse once per coordinate
set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Kernel region 1: the second pipelined call, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rank-2 zero offsets, as the constant function. -/
theorem zeros2 : (![0, 0] : Fin 2 → Nat) = fun _ => 0 := funext fun a => by fin_cases a <;> rfl

/-- A load through the whole-shape rectangle at zero offsets reads the buffer's contents. -/
theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb (v.read (Elt F) f)

/-- One store through the whole-shape rectangle at zero offsets leaves the buffer reading the stored value. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h inb w]

set_option maxHeartbeats 1000000 in
/-- The body on whole staging memrefs, the seven inputs' at read contents `x0 … x6` and the two outputs' at anything,
    runs to the continuation holding the inputs' as they were, the first output's at the first payload of the inputs'
    and the second output's at the second payload: each output buffer is stored once, whole, so what it reads
    afterwards is that store's value, and each load is of a whole buffer, so it reads the buffer's contents. -/
theorem sound_kernel1 (c : Dev nD) (E : Set ℕ) (i : grid1.Coords) (arg1 : Memref sig .tc .vmem S400x10000 .f32) (harg1 : arg1.IsWhole) (arg2 : Memref sig .tc .vmem S10000x256 .f32) (harg2 : arg2.IsWhole) (arg3 : Memref sig .tc .vmem S400x128 .f32) (harg3 : arg3.IsWhole) (arg4 : Memref sig .tc .vmem S128x256 .f32) (harg4 : arg4.IsWhole) (arg5 : Memref sig .tc .vmem S128x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S400x256 .f32) (harg8 : arg8.IsWhole) (arg9 : Memref sig .tc .vmem S400x128 .f32) (harg9 : arg9.IsWhole)
    (x0 : Vec F S400x10000 .f32) (x1 : Vec F S10000x256 .f32) (x2 : Vec F S400x128 .f32) (x3 : Vec F S128x256 .f32) (x4 : Vec F S128x128 .f32) (x5 : Vec F S1x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay1 x0 x1 x2 x3 x5 x6) ∗ owns (c : Thread nD τ) arg9 fullShare (k1_pay2 x0 x1 x2 x3 x5 x6 x4)) -∗ K ⟨⟩))
      ⊢ wp frame (wpE (defs₀ (F := F)) Variants.none c none) E (cc1__pass1_body i arg1 harg1 arg2 harg2 arg3 harg3 arg4 harg4 arg5 harg5 arg6 harg6 arg7 harg7 arg8 harg8 arg9 harg9) K := by
  simp only [cc1__pass1_body_eq_skeleton]; unfold cc1__pass1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_whole arg8.view f7 zeros2, readAt_whole arg1.view f0 zeros2, readAt_whole arg2.view f1 zeros2, readAt_whole arg3.view f2 zeros2, readAt_whole arg4.view f3 zeros2, readAt_whole arg6.view f5 zeros2, readAt_whole arg7.view f6 zeros2]
  iexists _; isplitr
  swap; · iexact H8
  ipureintro
  rw [read_writes_whole arg9.view f8 zeros2, readAt_whole arg1.view f0 zeros2, readAt_whole arg2.view f1 zeros2, readAt_whole arg3.view f2 zeros2, readAt_whole arg4.view f3 zeros2, readAt_whole arg6.view f5 zeros2, readAt_whole arg7.view f6 zeros2, readAt_whole arg5.view f4 zeros2]

/-! ## The pipeline's proof data -/

/-- The proof data of this pipeline on core `c`: the arrays as the region finds them; after the body at point `t`
    each input's buffer at its block, the first output's at the first payload of the input blocks and the second
    output's at the second payload; the invariant the scoped rest and the generator register, untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay1 (iblk1 V c 0 t) (iblk1 V c 1 t) (iblk1 V c 2 t) (iblk1 V c 3 t) (iblk1 V c 5 t) (iblk1 V c 6 t)
    | ⟨8, _⟩ => k1_pay2 (iblk1 V c 0 t) (iblk1 V c 1 t) (iblk1 V c 2 t) (iblk1 V c 3 t) (iblk1 V c 5 t) (iblk1 V c 6 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = k1_pay1 (iblk1 V c 0 t) (iblk1 V c 1 t) (iblk1 V c 2 t) (iblk1 V c 3 t) (iblk1 V c 5 t) (iblk1 V c 6 t) := by dsimp only [dat1]
theorem after1_8 (c : Dev nD) (t : Fin cfg1.N) : (dat1 V c).after 8 t = k1_pay2 (iblk1 V c 0 t) (iblk1 V c 1 t) (iblk1 V c 2 t) (iblk1 V c 3 t) (iblk1 V c 5 t) (iblk1 V c 6 t) (iblk1 V c 4 t) := by dsimp only [dat1]

/-- Each input's current staging buffer holds its block at every point, fetched there or not: a window whose block
    index never moves is fetched once, and the body leaves it in place, so it still holds that block. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Rgn

end
-- ==== Proof.K.Region2.lean ====
import proofs.«175746_g1967095022037_cont_8to1_1256_3_alg».proof.Proof.Gen.Kernel.Launch
import proofs.«175746_g1967095022037_cont_8to1_1256_3_alg».proof.Proof.Gen.Kernel.Skeleton
import proofs.«175746_g1967095022037_cont_8to1_1256_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Kernel region 2 (the second aggregation pass), its frame half, at any float instance

Region 2 runs a 25-point grid. At point `i` its body reads a [400,10000] row block of the adjacency operand, the
whole [10000,128] feature array, a [400,256] row block of the previous pass's output, a [128,128] weight and two
[1,128] rows (scale and shift), and writes one [400,128] row block: the rectified affine image of
`A_blk · H + (right half of the row block) · W`. Here: each window's block as the region finds it, the body's
triple (every staging buffer loaded whole, the output buffer stored whole, so the output buffer ends at the payload of
the loaded contents), the pipeline's proof data and the body obligation at a generic point. -/

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- window w's block at point t, read off its array as the region finds it -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there at every point, for any proof data whose
    array is `V`'s and whose body leaves the block in place: unfetched, the block index has not moved; the window
    is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched at the first point only (a constant block index), for any proof data whose
    array is `V`'s and whose body leaves the block in place: unfetched, the block index has not moved; the window
    is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there at every point, for any proof data whose
    array is `V`'s and whose body leaves the block in place: unfetched, the block index has not moved; the window
    is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched at the first point only (a constant block index), for any proof data whose
    array is `V`'s and whose body leaves the block in place: unfetched, the block index has not moved; the window
    is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched at the first point only (a constant block index), for any proof data whose
    array is `V`'s and whose body leaves the block in place: unfetched, the block index has not moved; the window
    is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched at the first point only (a constant block index), for any proof data whose
    array is `V`'s and whose body leaves the block in place: unfetched, the block index has not moved; the window
    is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole-buffer rectangle at offsets [0,0] -/

/-- The offsets [0,0] are the zero offsets. -/
theorem zeros_r2 : (![0, 0] : Fin 2 → Nat) = fun _ => 0 := funext fun a => by fin_cases a <;> rfl

/-- A load through the whole-shape rectangle at zero offsets reads what the buffer reads. -/
theorem readAt_whole2 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb (v.read (Elt F) f)

/-- After one store through the whole-shape rectangle at zero offsets the buffer reads the stored value: the one piece
    covers every index, and the canon of one covering piece is its payload. -/
theorem read_writes_whole2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h inb w]

/-! ## The body's triple -/

set_option maxHeartbeats 1000000 in
/-- The kernel body on whole staging memrefs, the six inputs' at read contents `x0 … x5` and the output's at
    anything, runs to the continuation holding the inputs' as they were and the output's at the payload of the inputs'
    contents: each load through the whole-buffer rectangle reads the buffer, and the one store through it covers the
    output buffer, so what is read back is what was stored. -/
theorem sound_kernel2 (c : Dev nD) (E : Set ℕ) (i : grid2.Coords)
    (arg1 : Memref sig .tc .vmem S400x10000 .f32) (harg1 : arg1.IsWhole)
    (arg2 : Memref sig .tc .vmem S10000x128 .f32) (harg2 : arg2.IsWhole)
    (arg3 : Memref sig .tc .vmem S400x256 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S400x128 .f32) (harg7 : arg7.IsWhole)
    (x0 : Vec F S400x10000 .f32) (x1 : Vec F S10000x128 .f32) (x2 : Vec F S400x256 .f32) (x3 : Vec F S128x128 .f32) (x4 : Vec F S1x128 .f32) (x5 : Vec F S1x128 .f32)
    (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (k2_pay1 x0 x1 x2 x3 x4 x5)) -∗ K ⟨⟩))
      ⊢ wp frame (wpE (defs₀ (F := F)) Variants.none c none) E (cc2__pass2_body i arg1 harg1 arg2 harg2 arg3 harg3 arg4 harg4 arg5 harg5 arg6 harg6 arg7 harg7) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [read_writes_whole2 arg7.view f6 zeros_r2, readAt_whole2 arg1.view f0 zeros_r2, readAt_whole2 arg2.view f1 zeros_r2,
    readAt_whole2 arg3.view f2 zeros_r2, readAt_whole2 arg4.view f3 zeros_r2, readAt_whole2 arg5.view f4 zeros_r2,
    readAt_whole2 arg6.view f5 zeros_r2]

/-! ## The pipeline's proof data -/

/-- The proof data of the region's pipeline on core `c`: the arrays as the region finds them; after the body at
    point `t` each input's buffer at its block and the output's at the payload of the six input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay1 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = k2_pay1 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Rgn

end
-- ==== Proof.K.Run.lean ====
/-
  The kernel program's run, from the launch to the return, at any float instance.

  @main is six items: the host operations that fold each layer's bias and batch norm into a scale and a shift and put
  the weights side by side; the region that multiplies the features by the joined weights; the region that aggregates
  over the adjacency, normalises, clamps, and prepares the second layer's product; two host broadcasts; the region of
  the second layer; the host slice and the final joining of columns.  Between two items the core holds every unscoped
  buffer whole, at contents that are a fold from the launch memory: a host stretch applies its operations, a region
  replaces its output arrays by what its write-backs leave (`arrAt … N` of its proof data) and keeps every other buffer.
  The run ends with every unscoped buffer at the last contents, from which both the unchanged arguments and the
  result array are read.
-/
import proofs.«175746_g1967095022037_cont_8to1_1256_3_alg».proof.Proof.Gen.Kernel.Regions
import proofs.«175746_g1967095022037_cont_8to1_1256_3_alg».proof.Proof.K.Region0
import proofs.«175746_g1967095022037_cont_8to1_1256_3_alg».proof.Proof.K.Region1
import proofs.«175746_g1967095022037_cont_8to1_1256_3_alg».proof.Proof.K.Region2

set_option maxRecDepth 16384

noncomputable section

namespace Cert.Kernel.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references. -/
abbrev atTc (W : Dev nD → Valuation τ sig (Elt F)) : (c : Dev nD) → (b : Ref sig .tc) → Buf (Elt F) ((c : Thread nD τ).loc b) :=
  fun c b => W c b

/-! ## What the regions leave, item by item -/

/-- The joined products `X W` of both first layers, as the first region's write-backs leave them. -/
def o27 (c : Dev nD) : Buf (Elt F) ((c : Thread nD τ).loc main_v27) := (dat0 (atTc (V1 m)) c).arrAt 2 cfg0.N
/-- The regions' outputs so far: only the first region's. -/
def outsA : Outs (F := F) := fun _ r c => if h : r = main_v27 then h ▸ o27 m c else V0 m c r
/-- Both first layers' activations side by side, as the second region leaves them, -/
def o280 (c : Dev nD) : Buf (Elt F) ((c : Thread nD τ).loc main_v28_0) := (dat1 (atTc (V2 m (outsA m))) c).arrAt 7 cfg1.N
/-- and the second layer's product `Y W` beside them. -/
def o281 (c : Dev nD) : Buf (Elt F) ((c : Thread nD τ).loc main_v28_1) := (dat1 (atTc (V2 m (outsA m))) c).arrAt 8 cfg1.N
/-- The regions' outputs after the second region. -/
def outsB : Outs (F := F) := fun j r c =>
  if h : r = main_v28_0 then h ▸ o280 m c else if h : r = main_v28_1 then h ▸ o281 m c else outsA m j r c
/-- The second layer's activation, as the third region leaves it. -/
def o31 (c : Dev nD) : Buf (Elt F) ((c : Thread nD τ).loc main_v31) := (dat2 (atTc (V4 m (outsB m))) c).arrAt 6 cfg2.N
/-- What every region leaves. -/
def outs : Outs (F := F) := fun j r c => if h : r = main_v31 then h ▸ o31 m c else outsB m j r c

theorem outsA_27 (j : ℕ) (c : Dev nD) : outsA m j main_v27 c = o27 m c := by
  unfold outsA; rw [dif_pos rfl]
theorem outsB_27 (j : ℕ) (c : Dev nD) : outsB m j main_v27 c = o27 m c := by
  unfold outsB; rw [dif_neg (by decide), dif_neg (by decide)]; exact outsA_27 m j c
theorem outs_27 (j : ℕ) (c : Dev nD) : outs m j main_v27 c = o27 m c := by
  unfold outs; rw [dif_neg (by decide)]; exact outsB_27 m j c
theorem outsB_280 (j : ℕ) (c : Dev nD) : outsB m j main_v28_0 c = o280 m c := by
  unfold outsB; rw [dif_pos rfl]
theorem outsB_281 (j : ℕ) (c : Dev nD) : outsB m j main_v28_1 c = o281 m c := by
  unfold outsB; rw [dif_neg (by decide), dif_pos rfl]
theorem outs_280 (j : ℕ) (c : Dev nD) : outs m j main_v28_0 c = o280 m c := by
  unfold outs; rw [dif_neg (by decide)]; exact outsB_280 m j c
theorem outs_281 (j : ℕ) (c : Dev nD) : outs m j main_v28_1 c = o281 m c := by
  unfold outs; rw [dif_neg (by decide)]; exact outsB_281 m j c
theorem outs_31 (j : ℕ) (c : Dev nD) : outs m j main_v31 c = o31 m c := by
  unfold outs; rw [dif_pos rfl]

/-- The contents before the second region do not depend on what later regions leave. -/
theorem V2_outs : V2 m (outs m) = V2 m (outsA m) := by
  funext c
  exact congrArg (Function.update (V1 m c) (Proc.devRef .tc main_v27)) ((outs_27 m 2 c).trans (outsA_27 m 2 c).symm)
theorem V2_outsB : V2 m (outsB m) = V2 m (outsA m) := by
  funext c
  exact congrArg (Function.update (V1 m c) (Proc.devRef .tc main_v27)) ((outsB_27 m 2 c).trans (outsA_27 m 2 c).symm)
/-- Nor do the contents before the third. -/
theorem V4_outs : V4 m (outs m) = V4 m (outsB m) := by
  funext c
  show StableHlo.after hostOps2 (Function.update (Function.update (V2 m (outs m) c) _ (outs m 3 main_v28_0 c)) _ (outs m 3 main_v28_1 c))
    = StableHlo.after hostOps2 (Function.update (Function.update (V2 m (outsB m) c) _ (outsB m 3 main_v28_0 c)) _ (outsB m 3 main_v28_1 c))
  rw [outs_280, outs_281, outsB_280, outsB_281, V2_outs, V2_outsB]

/-- What the first region leaves in the joined products, over its own entry contents. -/
theorem outs_27_eq (c : Dev nD) : outs m 2 main_v27 c = (dat0 (atTc (V1 m)) c).arrAt 2 cfg0.N := outs_27 m 2 c
/-- What the second region leaves, over its own entry contents, -/
theorem outs_280_eq (c : Dev nD) : outs m 3 main_v28_0 c = (dat1 (atTc (V2 m (outs m))) c).arrAt 7 cfg1.N := by
  rw [outs_280, V2_outs]; rfl
theorem outs_281_eq (c : Dev nD) : outs m 3 main_v28_1 c = (dat1 (atTc (V2 m (outs m))) c).arrAt 8 cfg1.N := by
  rw [outs_281, V2_outs]; rfl
/-- and the third. -/
theorem outs_31_eq (c : Dev nD) : outs m 5 main_v31 c = (dat2 (atTc (V4 m (outs m))) c).arrAt 6 cfg2.N := by
  rw [outs_31, V4_outs]; rfl

/-! ## The proof data family and the thread state -/

/-- Every region's proof data, each at its own entry contents. -/
def pdats : (p : Fin 3) → (c : Dev nD) → Dat τ (Elt F) Unit ℕ (UR sig nD τ) ℕ (Pipeline.pin (pcfgs (F := F)) adm p) c
  | ⟨0, _⟩ => fun c => dat0 (atTc (V1 m)) c
  | ⟨1, _⟩ => fun c => dat1 (atTc (V2 m (outs m))) c
  | ⟨2, _⟩ => fun c => dat2 (atTc (V4 m (outs m))) c

/-- No core owes another anything: no pair has a level. -/
abbrev Lz : GSem nD τ sig → Finset Unit := fun _ => ∅
abbrev lvz : GSem nD τ sig → Unit → ℕ := fun _ _ => 0

/-- What rides beside the buffers through every item: the generator register at some state, and nothing owed. -/
abbrev Rst (c : Dev nD) : sProp 𝕄 := iprop((∃ r, prngReg c r) ∗ ∃ W, owes (c : Thread nD τ) (0 : CellTallies nD τ sig Unit) W)

/-! ## Each region's arrays at its exit -/

/-- At the first region's exit each of its arrays holds what the write-backs leave: an input window's array is as
    entered, the output's is the joined products. -/
theorem left0 (c : Dev nD) (w : Fin cfg0.W) : (pdats m 0 c).arrAt w cfg0.N = atTc (V2 m (outs m)) c (Pipeline.arrRef spec0 w) := by
  match w with
  | ⟨0, _⟩ => exact ((dat0 (atTc (V1 m)) c).arrAt_in 0 rfl _).trans ((A_eq0 _ c 0).trans (V2_of m (outs m) c main_arg0 (by decide)).symm)
  | ⟨1, _⟩ => exact ((dat0 (atTc (V1 m)) c).arrAt_in 1 rfl _).trans ((A_eq0 _ c 1).trans (V2_of m (outs m) c main_v21 (by decide)).symm)
  | ⟨2, _⟩ =>
    refine (outs_27_eq m c).symm.trans ?_
    show outs m 2 main_v27 c = Function.update (V1 m c) (Proc.devRef .tc main_v27) (outs m 2 main_v27 c) (Proc.devRef .tc main_v27)
    rw [Function.update_self]
/-- Every other buffer is as entered. -/
theorem rest0 (c : Dev nD) : ∀ b, b ∉ Finset.univ.image (Pipeline.arrRef spec0) → atTc (V2 m (outs m)) c b = atTc (V1 m) c b :=
  fun b hb => V2_of m (outs m) c b (by
    intro h; rw [List.mem_singleton] at h; subst h
    exact hb (Finset.mem_image.mpr ⟨2, Finset.mem_univ _, rfl⟩))

set_option maxHeartbeats 2000000 in
theorem left1 (c : Dev nD) (w : Fin cfg1.W) : (pdats m 1 c).arrAt w cfg1.N = atTc (V3 m (outs m)) c (Pipeline.arrRef spec1 w) := by
  match w with
  | ⟨0, _⟩ => exact ((dat1 (atTc (V2 m (outs m))) c).arrAt_in 0 rfl _).trans ((A_eq1 _ c 0).trans (V3_of m (outs m) c main_arg1 (by decide)).symm)
  | ⟨1, _⟩ => exact ((dat1 (atTc (V2 m (outs m))) c).arrAt_in 1 rfl _).trans ((A_eq1 _ c 1).trans (V3_of m (outs m) c main_v27 (by decide)).symm)
  | ⟨2, _⟩ => exact ((dat1 (atTc (V2 m (outs m))) c).arrAt_in 2 rfl _).trans ((A_eq1 _ c 2).trans (V3_of m (outs m) c main_arg0 (by decide)).symm)
  | ⟨3, _⟩ => exact ((dat1 (atTc (V2 m (outs m))) c).arrAt_in 3 rfl _).trans ((A_eq1 _ c 3).trans (V3_of m (outs m) c main_v22 (by decide)).symm)
  | ⟨4, _⟩ => exact ((dat1 (atTc (V2 m (outs m))) c).arrAt_in 4 rfl _).trans ((A_eq1 _ c 4).trans (V3_of m (outs m) c main_arg16 (by decide)).symm)
  | ⟨5, _⟩ => exact ((dat1 (atTc (V2 m (outs m))) c).arrAt_in 5 rfl _).trans ((A_eq1 _ c 5).trans (V3_of m (outs m) c main_v24 (by decide)).symm)
  | ⟨6, _⟩ => exact ((dat1 (atTc (V2 m (outs m))) c).arrAt_in 6 rfl _).trans ((A_eq1 _ c 6).trans (V3_of m (outs m) c main_v26 (by decide)).symm)
  | ⟨7, _⟩ =>
    refine (outs_280_eq m c).symm.trans ?_
    show outs m 3 main_v28_0 c = Function.update (Function.update (V2 m (outs m) c) (Proc.devRef .tc main_v28_0) (outs m 3 main_v28_0 c)) (Proc.devRef .tc main_v28_1) (outs m 3 main_v28_1 c) (Proc.devRef .tc main_v28_0)
    rw [Function.update_of_ne (StableHlo.devRef_ne_of_ne (by decide)), Function.update_self]
  | ⟨8, _⟩ =>
    refine (outs_281_eq m c).symm.trans ?_
    show outs m 3 main_v28_1 c = Function.update (Function.update (V2 m (outs m) c) (Proc.devRef .tc main_v28_0) (outs m 3 main_v28_0 c)) (Proc.devRef .tc main_v28_1) (outs m 3 main_v28_1 c) (Proc.devRef .tc main_v28_1)
    rw [Function.update_self]
theorem rest1 (c : Dev nD) : ∀ b, b ∉ Finset.univ.image (Pipeline.arrRef spec1) → atTc (V3 m (outs m)) c b = atTc (V2 m (outs m)) c b :=
  fun b hb => V3_of m (outs m) c b (by
    intro h; rw [List.mem_cons, List.mem_singleton] at h
    rcases h with h | h <;> subst h
    · exact hb (Finset.mem_image.mpr ⟨7, Finset.mem_univ _, rfl⟩)
    · exact hb (Finset.mem_image.mpr ⟨8, Finset.mem_univ _, rfl⟩))

set_option maxHeartbeats 2000000 in
theorem left2 (c : Dev nD) (w : Fin cfg2.W) : (pdats m 2 c).arrAt w cfg2.N = atTc (V5 m (outs m)) c (Pipeline.arrRef spec2 w) := by
  match w with
  | ⟨0, _⟩ => exact ((dat2 (atTc (V4 m (outs m))) c).arrAt_in 0 rfl _).trans ((A_eq2 _ c 0).trans (V5_of m (outs m) c main_arg1 (by decide)).symm)
  | ⟨1, _⟩ => exact ((dat2 (atTc (V4 m (outs m))) c).arrAt_in 1 rfl _).trans ((A_eq2 _ c 1).trans (V5_of m (outs m) c main_v28_1 (by decide)).symm)
  | ⟨2, _⟩ => exact ((dat2 (atTc (V4 m (outs m))) c).arrAt_in 2 rfl _).trans ((A_eq2 _ c 2).trans (V5_of m (outs m) c main_v28_0 (by decide)).symm)
  | ⟨3, _⟩ => exact ((dat2 (atTc (V4 m (outs m))) c).arrAt_in 3 rfl _).trans ((A_eq2 _ c 3).trans (V5_of m (outs m) c main_arg17 (by decide)).symm)
  | ⟨4, _⟩ => exact ((dat2 (atTc (V4 m (outs m))) c).arrAt_in 4 rfl _).trans ((A_eq2 _ c 4).trans (V5_of m (outs m) c main_v29 (by decide)).symm)
  | ⟨5, _⟩ => exact ((dat2 (atTc (V4 m (outs m))) c).arrAt_in 5 rfl _).trans ((A_eq2 _ c 5).trans (V5_of m (outs m) c main_v30 (by decide)).symm)
  | ⟨6, _⟩ =>
    refine (outs_31_eq m c).symm.trans ?_
    show outs m 5 main_v31 c = Function.update (V4 m (outs m) c) (Proc.devRef .tc main_v31) (outs m 5 main_v31 c) (Proc.devRef .tc main_v31)
    rw [Function.update_self]
theorem rest2 (c : Dev nD) : ∀ b, b ∉ Finset.univ.image (Pipeline.arrRef spec2) → atTc (V5 m (outs m)) c b = atTc (V4 m (outs m)) c b :=
  fun b hb => V5_of m (outs m) c b (by
    intro h; rw [List.mem_singleton] at h; subst h
    exact hb (Finset.mem_image.mpr ⟨6, Finset.mem_univ _, rfl⟩))

/-! ## The regions as segments -/

-- a library entailment stated over the pinned configuration meets the printed one only when unification may unfold
-- plain definitions inside a metavariable's type
set_option backward.isDefEq.respectTransparency.types false in
/-- Region 0 as a segment. It is entered with every unscoped buffer of the core at `V1 m` and left with them at
    `V2 m (outs m)`: its windows' arrays are taken out of the unscoped buffers at entry and put back, at what the write-backs
    leave, at exit; the generator register goes into the invariant and comes back; nothing is owed and the kernel has
    no semaphore of its own. -/
def reg0 : RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (atTc (V1 m)) c).loose
  hwaits := Pipeline.hwaits_of_owed_zero _ _ _ _ Lz lvz 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V1 m) c) (atTc (V2 m (outs m)) c) ((pdats m 0 c).arrAt · cfg0.N) (left0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library entailment stated over the pinned configuration meets the printed one only when unification may unfold
-- plain definitions inside a metavariable's type
set_option backward.isDefEq.respectTransparency.types false in
/-- Region 1 as a segment. It is entered with every unscoped buffer of the core at `V2 m (outs m)` and left with them at
    `V3 m (outs m)`: its windows' arrays are taken out of the unscoped buffers at entry and put back, at what the write-backs
    leave, at exit; the generator register goes into the invariant and comes back; nothing is owed and the kernel has
    no semaphore of its own. -/
def reg1 : RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (atTc (V2 m (outs m))) c).loose
  hwaits := Pipeline.hwaits_of_owed_zero _ _ _ _ Lz lvz 1 fun _ _ => rfl
  pre c := iprop(StableHlo.held (c : Thread nD τ) (Pipeline.ucRefs τ sig) (V2 m (outs m) c) ∗ Rst c)
  post c := iprop(StableHlo.held (c : Thread nD τ) (Pipeline.ucRefs τ sig) (V3 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (atTc (V2 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V2 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V2 m (outs m)) c) (atTc (V3 m (outs m)) c) ((pdats m 1 c).arrAt · cfg1.N) (left1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library entailment stated over the pinned configuration meets the printed one only when unification may unfold
-- plain definitions inside a metavariable's type
set_option backward.isDefEq.respectTransparency.types false in
/-- Region 2 as a segment. It is entered with every unscoped buffer of the core at `V4 m (outs m)` and left with them at
    `V5 m (outs m)`: its windows' arrays are taken out of the unscoped buffers at entry and put back, at what the write-backs
    leave, at exit; the generator register goes into the invariant and comes back; nothing is owed and the kernel has
    no semaphore of its own. -/
def reg2 : RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (atTc (V4 m (outs m))) c).loose
  hwaits := Pipeline.hwaits_of_owed_zero _ _ _ _ Lz lvz 2 fun _ _ => rfl
  pre c := iprop(StableHlo.held (c : Thread nD τ) (Pipeline.ucRefs τ sig) (V4 m (outs m) c) ∗ Rst c)
  post c := iprop(StableHlo.held (c : Thread nD τ) (Pipeline.ucRefs τ sig) (V5 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (atTc (V4 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V4 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V4 m (outs m)) c) (atTc (V5 m (outs m)) c) ((pdats m 2 c).arrAt · cfg2.N) (left2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN. From any memory with zero counters every weakly fair execution of @main terminates, nothing faulting, and
    in every final state each unscoped buffer of each core holds the last contents of the fold. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V6 m (outs m) c b) := by
  refine Pipeline.θ_run_regions_kit_dev (pcfgs (F := F)) adm (pdats m) () cellOf_inj emb₁ defs₀ Variants.none Lz lvz m ρ main
    (segs m (outs m) Variants.none Lz lvz (fun _ c => Rst c) () (pdats m) (reg0 m) (reg1 m) (reg2 m))
    (fun c Q => by
      rewrite [main_chain c, Seg.run_eq_chain,
        show (segs m (outs m) Variants.none Lz lvz (fun _ c => Rst c) () (pdats m) (reg0 m) (reg1 m) (reg2 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V6 m (outs m) c))
    (hch := fun c => ⟨.rfl, .rfl, .rfl, .rfl, .rfl, .rfl, sep_mono .rfl (by iintro ⟨-, H⟩; iexact H)⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m (outs m) c b)
    (hfin := fun c s' => by
      iintro ⟨Hh, HSI⟩
      unfold StableHlo.held
      imodintro
      iapply (pointsTo_read_all (Pipeline.ucRefs τ sig) (fun b => (((c : Thread nD τ)).1, b)) (V6 m (outs m) c) s')
      isplitl [Hh] <;> iassumption)
    (hQ := fun _ h => h)

end Cert.Kernel.Rgn

end
-- ==== Proof.KI.Region0.lean ====
import proofs.«175746_g1967095022037_cont_8to1_1256_3_alg».proof.Proof.Gen.KernelIdeal.Launch
import proofs.«175746_g1967095022037_cont_8to1_1256_3_alg».proof.Proof.Gen.KernelIdeal.Skeleton
import proofs.«175746_g1967095022037_cont_8to1_1256_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Kernel region 0 (the program's first kernel call, body cc0__sup_body): the frame half

At ANY float instance and at a parameter V, the TensorCore's buffer contents when the region is entered:
each window's block at a grid point, the body's triple on whole staging buffers, the pipeline's proof data and
the body obligation at every point.

The region has three windows. Window 0 walks the row blocks [1000,128] of its array, one per grid point, and is
fetched at every point. Window 1 is one whole array [128,256] at a constant block index, fetched at the first
point only. Window 2 is the output, the row blocks [1000,256], written back at every point. The body reads both
input buffers whole and overwrites the output buffer whole with one payload of the two reads (a matrix product),
so what it leaves in the output buffer is that payload of the two input blocks, and nothing of the buffer's
earlier contents survives. -/

-- the windows' block shapes are reached through the configuration's definitions, one structural step at a time
set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- window w's block at point t, read off its array as the region finds it -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    V's and whose body leaves the block in place: the window is uncut, never idle, and fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: its block
    index is constant, so at an unfetched point the block kept from the point before is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The zero offsets of a rank-2 access, as the constant function. -/
theorem off2_zero : (![0, 0] : Fin 2 → ℕ) = fun _ => 0 := funext fun a => by fin_cases a <;> rfl

/-- A load through the whole-shape rectangle at zero offsets reads the buffer's contents. -/
theorem readAt_whole0 {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  View.ld_unit_zero h inb (v.read (Elt F) f)

/-- One store through the whole-shape rectangle at zero offsets covers the buffer, so the buffer then reads the
    stored value, whatever it held. -/
theorem read_writes_whole0 {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h inb w]

/-! ## The body's triple -/

set_option maxHeartbeats 1000000 in
/-- The kernel body on whole staging memrefs, the inputs' at read contents x0, x1 and the output's at anything,
    runs to the continuation holding the inputs' as they were and the output's at the payload of x0 and x1: each
    load goes through the whole-shape rectangle at zero offsets and reads the contents; the one store goes through
    the same rectangle of the output buffer, covers it, and leaves its payload. -/
theorem sound_kernel0 (c : Dev nD) (E : Set ℕ) (i : grid0.Coords)
    (arg1 : Memref sig .tc .vmem S1000x128 .f32) (harg1 : arg1.IsWhole)
    (arg2 : Memref sig .tc .vmem S128x256 .f32) (harg2 : arg2.IsWhole)
    (arg3 : Memref sig .tc .vmem S1000x256 .f32) (harg3 : arg3.IsWhole)
    (x0 : Vec F S1000x128 .f32) (x1 : Vec F S128x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__sup_body i arg1 harg1 arg2 harg2 arg3 harg3) K := by
  simp only [cc0__sup_body_eq_skeleton]; unfold cc0__sup_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_writes_whole0 arg3.view f2 off2_zero, readAt_whole0 arg1.view f0 off2_zero, readAt_whole0 arg2.view f1 off2_zero]

/-! ## The pipeline's proof data -/

/-- The proof data of the region's pipeline on core c: the arrays as the region finds them; after the body at
    point t each input's buffer at its block and the output's at the payload of the two input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Rgn

end
-- ==== Proof.KI.Region1.lean ====
import proofs.«175746_g1967095022037_cont_8to1_1256_3_alg».proof.Proof.Gen.KernelIdeal.Launch
import proofs.«175746_g1967095022037_cont_8to1_1256_3_alg».proof.Proof.Gen.KernelIdeal.Skeleton
import proofs.«175746_g1967095022037_cont_8to1_1256_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- the shapes' long axes: structural looks at a rectangle recurse once per coordinate
set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Kernel region 1: the second pipelined call, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rank-2 zero offsets, as the constant function. -/
theorem zeros2 : (![0, 0] : Fin 2 → Nat) = fun _ => 0 := funext fun a => by fin_cases a <;> rfl

/-- A load through the whole-shape rectangle at zero offsets reads the buffer's contents. -/
theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb (v.read (Elt F) f)

/-- One store through the whole-shape rectangle at zero offsets leaves the buffer reading the stored value. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h inb w]

set_option maxHeartbeats 1000000 in
/-- The body on whole staging memrefs, the seven inputs' at read contents `x0 … x6` and the two outputs' at anything,
    runs to the continuation holding the inputs' as they were, the first output's at the first payload of the inputs'
    and the second output's at the second payload: each output buffer is stored once, whole, so what it reads
    afterwards is that store's value, and each load is of a whole buffer, so it reads the buffer's contents. -/
theorem sound_kernel1 (c : Dev nD) (E : Set ℕ) (i : grid1.Coords) (arg1 : Memref sig .tc .vmem S400x10000 .f32) (harg1 : arg1.IsWhole) (arg2 : Memref sig .tc .vmem S10000x256 .f32) (harg2 : arg2.IsWhole) (arg3 : Memref sig .tc .vmem S400x128 .f32) (harg3 : arg3.IsWhole) (arg4 : Memref sig .tc .vmem S128x256 .f32) (harg4 : arg4.IsWhole) (arg5 : Memref sig .tc .vmem S128x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S400x256 .f32) (harg8 : arg8.IsWhole) (arg9 : Memref sig .tc .vmem S400x128 .f32) (harg9 : arg9.IsWhole)
    (x0 : Vec F S400x10000 .f32) (x1 : Vec F S10000x256 .f32) (x2 : Vec F S400x128 .f32) (x3 : Vec F S128x256 .f32) (x4 : Vec F S128x128 .f32) (x5 : Vec F S1x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay1 x0 x1 x2 x3 x5 x6) ∗ owns (c : Thread nD τ) arg9 fullShare (k1_pay2 x0 x1 x2 x3 x5 x6 x4)) -∗ K ⟨⟩))
      ⊢ wp frame (wpE (defs₀ (F := F)) Variants.none c none) E (cc1__pass1_body i arg1 harg1 arg2 harg2 arg3 harg3 arg4 harg4 arg5 harg5 arg6 harg6 arg7 harg7 arg8 harg8 arg9 harg9) K := by
  simp only [cc1__pass1_body_eq_skeleton]; unfold cc1__pass1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_whole arg8.view f7 zeros2, readAt_whole arg1.view f0 zeros2, readAt_whole arg2.view f1 zeros2, readAt_whole arg3.view f2 zeros2, readAt_whole arg4.view f3 zeros2, readAt_whole arg6.view f5 zeros2, readAt_whole arg7.view f6 zeros2]
  iexists _; isplitr
  swap; · iexact H8
  ipureintro
  rw [read_writes_whole arg9.view f8 zeros2, readAt_whole arg1.view f0 zeros2, readAt_whole arg2.view f1 zeros2, readAt_whole arg3.view f2 zeros2, readAt_whole arg4.view f3 zeros2, readAt_whole arg6.view f5 zeros2, readAt_whole arg7.view f6 zeros2, readAt_whole arg5.view f4 zeros2]

/-! ## The pipeline's proof data -/

/-- The proof data of this pipeline on core `c`: the arrays as the region finds them; after the body at point `t`
    each input's buffer at its block, the first output's at the first payload of the input blocks and the second
    output's at the second payload; the invariant the scoped rest and the generator register, untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay1 (iblk1 V c 0 t) (iblk1 V c 1 t) (iblk1 V c 2 t) (iblk1 V c 3 t) (iblk1 V c 5 t) (iblk1 V c 6 t)
    | ⟨8, _⟩ => k1_pay2 (iblk1 V c 0 t) (iblk1 V c 1 t) (iblk1 V c 2 t) (iblk1 V c 3 t) (iblk1 V c 5 t) (iblk1 V c 6 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = k1_pay1 (iblk1 V c 0 t) (iblk1 V c 1 t) (iblk1 V c 2 t) (iblk1 V c 3 t) (iblk1 V c 5 t) (iblk1 V c 6 t) := by dsimp only [dat1]
theorem after1_8 (c : Dev nD) (t : Fin cfg1.N) : (dat1 V c).after 8 t = k1_pay2 (iblk1 V c 0 t) (iblk1 V c 1 t) (iblk1 V c 2 t) (iblk1 V c 3 t) (iblk1 V c 5 t) (iblk1 V c 6 t) (iblk1 V c 4 t) := by dsimp only [dat1]

/-- Each input's current staging buffer holds its block at every point, fetched there or not: a window whose block
    index never moves is fetched once, and the body leaves it in place, so it still holds that block. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Rgn

end
-- ==== Proof.KI.Region2.lean ====
import proofs.«175746_g1967095022037_cont_8to1_1256_3_alg».proof.Proof.Gen.KernelIdeal.Launch
import proofs.«175746_g1967095022037_cont_8to1_1256_3_alg».proof.Proof.Gen.KernelIdeal.Skeleton
import proofs.«175746_g1967095022037_cont_8to1_1256_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Kernel region 2 (the second aggregation pass), its frame half, at any float instance

Region 2 runs a 25-point grid. At point `i` its body reads a [400,10000] row block of the adjacency operand, the
whole [10000,128] feature array, a [400,256] row block of the previous pass's output, a [128,128] weight and two
[1,128] rows (scale and shift), and writes one [400,128] row block: the rectified affine image of
`A_blk · H + (right half of the row block) · W`. Here: each window's block as the region finds it, the body's
triple (every staging buffer loaded whole, the output buffer stored whole, so the output buffer ends at the payload of
the loaded contents), the pipeline's proof data and the body obligation at a generic point. -/

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- window w's block at point t, read off its array as the region finds it -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there at every point, for any proof data whose
    array is `V`'s and whose body leaves the block in place: unfetched, the block index has not moved; the window
    is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched at the first point only (a constant block index), for any proof data whose
    array is `V`'s and whose body leaves the block in place: unfetched, the block index has not moved; the window
    is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there at every point, for any proof data whose
    array is `V`'s and whose body leaves the block in place: unfetched, the block index has not moved; the window
    is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched at the first point only (a constant block index), for any proof data whose
    array is `V`'s and whose body leaves the block in place: unfetched, the block index has not moved; the window
    is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched at the first point only (a constant block index), for any proof data whose
    array is `V`'s and whose body leaves the block in place: unfetched, the block index has not moved; the window
    is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched at the first point only (a constant block index), for any proof data whose
    array is `V`'s and whose body leaves the block in place: unfetched, the block index has not moved; the window
    is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole-buffer rectangle at offsets [0,0] -/

/-- The offsets [0,0] are the zero offsets. -/
theorem zeros_r2 : (![0, 0] : Fin 2 → Nat) = fun _ => 0 := funext fun a => by fin_cases a <;> rfl

/-- A load through the whole-shape rectangle at zero offsets reads what the buffer reads. -/
theorem readAt_whole2 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb (v.read (Elt F) f)

/-- After one store through the whole-shape rectangle at zero offsets the buffer reads the stored value: the one piece
    covers every index, and the canon of one covering piece is its payload. -/
theorem read_writes_whole2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h inb w]

/-! ## The body's triple -/

set_option maxHeartbeats 1000000 in
/-- The kernel body on whole staging memrefs, the six inputs' at read contents `x0 … x5` and the output's at
    anything, runs to the continuation holding the inputs' as they were and the output's at the payload of the inputs'
    contents: each load through the whole-buffer rectangle reads the buffer, and the one store through it covers the
    output buffer, so what is read back is what was stored. -/
theorem sound_kernel2 (c : Dev nD) (E : Set ℕ) (i : grid2.Coords)
    (arg1 : Memref sig .tc .vmem S400x10000 .f32) (harg1 : arg1.IsWhole)
    (arg2 : Memref sig .tc .vmem S10000x128 .f32) (harg2 : arg2.IsWhole)
    (arg3 : Memref sig .tc .vmem S400x256 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S400x128 .f32) (harg7 : arg7.IsWhole)
    (x0 : Vec F S400x10000 .f32) (x1 : Vec F S10000x128 .f32) (x2 : Vec F S400x256 .f32) (x3 : Vec F S128x128 .f32) (x4 : Vec F S1x128 .f32) (x5 : Vec F S1x128 .f32)
    (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (k2_pay1 x0 x1 x2 x3 x4 x5)) -∗ K ⟨⟩))
      ⊢ wp frame (wpE (defs₀ (F := F)) Variants.none c none) E (cc2__pass2_body i arg1 harg1 arg2 harg2 arg3 harg3 arg4 harg4 arg5 harg5 arg6 harg6 arg7 harg7) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [read_writes_whole2 arg7.view f6 zeros_r2, readAt_whole2 arg1.view f0 zeros_r2, readAt_whole2 arg2.view f1 zeros_r2,
    readAt_whole2 arg3.view f2 zeros_r2, readAt_whole2 arg4.view f3 zeros_r2, readAt_whole2 arg5.view f4 zeros_r2,
    readAt_whole2 arg6.view f5 zeros_r2]

/-! ## The pipeline's proof data -/

/-- The proof data of the region's pipeline on core `c`: the arrays as the region finds them; after the body at
    point `t` each input's buffer at its block and the output's at the payload of the six input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay1 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = k2_pay1 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Rgn

end
-- ==== Proof.KI.Run.lean ====
/-
  The kernel program's run, from the launch to the return, at any float instance.

  @main is six items: the host operations that fold each layer's bias and batch norm into a scale and a shift and put
  the weights side by side; the region that multiplies the features by the joined weights; the region that aggregates
  over the adjacency, normalises, clamps, and prepares the second layer's product; two host broadcasts; the region of
  the second layer; the host slice and the final joining of columns.  Between two items the core holds every unscoped
  buffer whole, at contents that are a fold from the launch memory: a host stretch applies its operations, a region
  replaces its output arrays by what its write-backs leave (`arrAt … N` of its proof data) and keeps every other buffer.
  The run ends with every unscoped buffer at the last contents, from which both the unchanged arguments and the
  result array are read.
-/
import proofs.«175746_g1967095022037_cont_8to1_1256_3_alg».proof.Proof.Gen.KernelIdeal.Regions
import proofs.«175746_g1967095022037_cont_8to1_1256_3_alg».proof.Proof.KI.Region0
import proofs.«175746_g1967095022037_cont_8to1_1256_3_alg».proof.Proof.KI.Region1
import proofs.«175746_g1967095022037_cont_8to1_1256_3_alg».proof.Proof.KI.Region2

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references. -/
abbrev atTc (W : Dev nD → Valuation τ sig (Elt F)) : (c : Dev nD) → (b : Ref sig .tc) → Buf (Elt F) ((c : Thread nD τ).loc b) :=
  fun c b => W c b

/-! ## What the regions leave, item by item -/

/-- The joined products `X W` of both first layers, as the first region's write-backs leave them. -/
def o27 (c : Dev nD) : Buf (Elt F) ((c : Thread nD τ).loc main_v27) := (dat0 (atTc (V1 m)) c).arrAt 2 cfg0.N
/-- The regions' outputs so far: only the first region's. -/
def outsA : Outs (F := F) := fun _ r c => if h : r = main_v27 then h ▸ o27 m c else V0 m c r
/-- Both first layers' activations side by side, as the second region leaves them, -/
def o280 (c : Dev nD) : Buf (Elt F) ((c : Thread nD τ).loc main_v28_0) := (dat1 (atTc (V2 m (outsA m))) c).arrAt 7 cfg1.N
/-- and the second layer's product `Y W` beside them. -/
def o281 (c : Dev nD) : Buf (Elt F) ((c : Thread nD τ).loc main_v28_1) := (dat1 (atTc (V2 m (outsA m))) c).arrAt 8 cfg1.N
/-- The regions' outputs after the second region. -/
def outsB : Outs (F := F) := fun j r c =>
  if h : r = main_v28_0 then h ▸ o280 m c else if h : r = main_v28_1 then h ▸ o281 m c else outsA m j r c
/-- The second layer's activation, as the third region leaves it. -/
def o31 (c : Dev nD) : Buf (Elt F) ((c : Thread nD τ).loc main_v31) := (dat2 (atTc (V4 m (outsB m))) c).arrAt 6 cfg2.N
/-- What every region leaves. -/
def outs : Outs (F := F) := fun j r c => if h : r = main_v31 then h ▸ o31 m c else outsB m j r c

theorem outsA_27 (j : ℕ) (c : Dev nD) : outsA m j main_v27 c = o27 m c := by
  unfold outsA; rw [dif_pos rfl]
theorem outsB_27 (j : ℕ) (c : Dev nD) : outsB m j main_v27 c = o27 m c := by
  unfold outsB; rw [dif_neg (by decide), dif_neg (by decide)]; exact outsA_27 m j c
theorem outs_27 (j : ℕ) (c : Dev nD) : outs m j main_v27 c = o27 m c := by
  unfold outs; rw [dif_neg (by decide)]; exact outsB_27 m j c
theorem outsB_280 (j : ℕ) (c : Dev nD) : outsB m j main_v28_0 c = o280 m c := by
  unfold outsB; rw [dif_pos rfl]
theorem outsB_281 (j : ℕ) (c : Dev nD) : outsB m j main_v28_1 c = o281 m c := by
  unfold outsB; rw [dif_neg (by decide), dif_pos rfl]
theorem outs_280 (j : ℕ) (c : Dev nD) : outs m j main_v28_0 c = o280 m c := by
  unfold outs; rw [dif_neg (by decide)]; exact outsB_280 m j c
theorem outs_281 (j : ℕ) (c : Dev nD) : outs m j main_v28_1 c = o281 m c := by
  unfold outs; rw [dif_neg (by decide)]; exact outsB_281 m j c
theorem outs_31 (j : ℕ) (c : Dev nD) : outs m j main_v31 c = o31 m c := by
  unfold outs; rw [dif_pos rfl]

/-- The contents before the second region do not depend on what later regions leave. -/
theorem V2_outs : V2 m (outs m) = V2 m (outsA m) := by
  funext c
  exact congrArg (Function.update (V1 m c) (Proc.devRef .tc main_v27)) ((outs_27 m 2 c).trans (outsA_27 m 2 c).symm)
theorem V2_outsB : V2 m (outsB m) = V2 m (outsA m) := by
  funext c
  exact congrArg (Function.update (V1 m c) (Proc.devRef .tc main_v27)) ((outsB_27 m 2 c).trans (outsA_27 m 2 c).symm)
/-- Nor do the contents before the third. -/
theorem V4_outs : V4 m (outs m) = V4 m (outsB m) := by
  funext c
  show StableHlo.after hostOps2 (Function.update (Function.update (V2 m (outs m) c) _ (outs m 3 main_v28_0 c)) _ (outs m 3 main_v28_1 c))
    = StableHlo.after hostOps2 (Function.update (Function.update (V2 m (outsB m) c) _ (outsB m 3 main_v28_0 c)) _ (outsB m 3 main_v28_1 c))
  rw [outs_280, outs_281, outsB_280, outsB_281, V2_outs, V2_outsB]

/-- What the first region leaves in the joined products, over its own entry contents. -/
theorem outs_27_eq (c : Dev nD) : outs m 2 main_v27 c = (dat0 (atTc (V1 m)) c).arrAt 2 cfg0.N := outs_27 m 2 c
/-- What the second region leaves, over its own entry contents, -/
theorem outs_280_eq (c : Dev nD) : outs m 3 main_v28_0 c = (dat1 (atTc (V2 m (outs m))) c).arrAt 7 cfg1.N := by
  rw [outs_280, V2_outs]; rfl
theorem outs_281_eq (c : Dev nD) : outs m 3 main_v28_1 c = (dat1 (atTc (V2 m (outs m))) c).arrAt 8 cfg1.N := by
  rw [outs_281, V2_outs]; rfl
/-- and the third. -/
theorem outs_31_eq (c : Dev nD) : outs m 5 main_v31 c = (dat2 (atTc (V4 m (outs m))) c).arrAt 6 cfg2.N := by
  rw [outs_31, V4_outs]; rfl

/-! ## The proof data family and the thread state -/

/-- Every region's proof data, each at its own entry contents. -/
def pdats : (p : Fin 3) → (c : Dev nD) → Dat τ (Elt F) Unit ℕ (UR sig nD τ) ℕ (Pipeline.pin (pcfgs (F := F)) adm p) c
  | ⟨0, _⟩ => fun c => dat0 (atTc (V1 m)) c
  | ⟨1, _⟩ => fun c => dat1 (atTc (V2 m (outs m))) c
  | ⟨2, _⟩ => fun c => dat2 (atTc (V4 m (outs m))) c

/-- No core owes another anything: no pair has a level. -/
abbrev Lz : GSem nD τ sig → Finset Unit := fun _ => ∅
abbrev lvz : GSem nD τ sig → Unit → ℕ := fun _ _ => 0

/-- What rides beside the buffers through every item: the generator register at some state, and nothing owed. -/
abbrev Rst (c : Dev nD) : sProp 𝕄 := iprop((∃ r, prngReg c r) ∗ ∃ W, owes (c : Thread nD τ) (0 : CellTallies nD τ sig Unit) W)

/-! ## Each region's arrays at its exit -/

/-- At the first region's exit each of its arrays holds what the write-backs leave: an input window's array is as
    entered, the output's is the joined products. -/
theorem left0 (c : Dev nD) (w : Fin cfg0.W) : (pdats m 0 c).arrAt w cfg0.N = atTc (V2 m (outs m)) c (Pipeline.arrRef spec0 w) := by
  match w with
  | ⟨0, _⟩ => exact ((dat0 (atTc (V1 m)) c).arrAt_in 0 rfl _).trans ((A_eq0 _ c 0).trans (V2_of m (outs m) c main_arg0 (by decide)).symm)
  | ⟨1, _⟩ => exact ((dat0 (atTc (V1 m)) c).arrAt_in 1 rfl _).trans ((A_eq0 _ c 1).trans (V2_of m (outs m) c main_v21 (by decide)).symm)
  | ⟨2, _⟩ =>
    refine (outs_27_eq m c).symm.trans ?_
    show outs m 2 main_v27 c = Function.update (V1 m c) (Proc.devRef .tc main_v27) (outs m 2 main_v27 c) (Proc.devRef .tc main_v27)
    rw [Function.update_self]
/-- Every other buffer is as entered. -/
theorem rest0 (c : Dev nD) : ∀ b, b ∉ Finset.univ.image (Pipeline.arrRef spec0) → atTc (V2 m (outs m)) c b = atTc (V1 m) c b :=
  fun b hb => V2_of m (outs m) c b (by
    intro h; rw [List.mem_singleton] at h; subst h
    exact hb (Finset.mem_image.mpr ⟨2, Finset.mem_univ _, rfl⟩))

set_option maxHeartbeats 2000000 in
theorem left1 (c : Dev nD) (w : Fin cfg1.W) : (pdats m 1 c).arrAt w cfg1.N = atTc (V3 m (outs m)) c (Pipeline.arrRef spec1 w) := by
  match w with
  | ⟨0, _⟩ => exact ((dat1 (atTc (V2 m (outs m))) c).arrAt_in 0 rfl _).trans ((A_eq1 _ c 0).trans (V3_of m (outs m) c main_arg1 (by decide)).symm)
  | ⟨1, _⟩ => exact ((dat1 (atTc (V2 m (outs m))) c).arrAt_in 1 rfl _).trans ((A_eq1 _ c 1).trans (V3_of m (outs m) c main_v27 (by decide)).symm)
  | ⟨2, _⟩ => exact ((dat1 (atTc (V2 m (outs m))) c).arrAt_in 2 rfl _).trans ((A_eq1 _ c 2).trans (V3_of m (outs m) c main_arg0 (by decide)).symm)
  | ⟨3, _⟩ => exact ((dat1 (atTc (V2 m (outs m))) c).arrAt_in 3 rfl _).trans ((A_eq1 _ c 3).trans (V3_of m (outs m) c main_v22 (by decide)).symm)
  | ⟨4, _⟩ => exact ((dat1 (atTc (V2 m (outs m))) c).arrAt_in 4 rfl _).trans ((A_eq1 _ c 4).trans (V3_of m (outs m) c main_arg16 (by decide)).symm)
  | ⟨5, _⟩ => exact ((dat1 (atTc (V2 m (outs m))) c).arrAt_in 5 rfl _).trans ((A_eq1 _ c 5).trans (V3_of m (outs m) c main_v24 (by decide)).symm)
  | ⟨6, _⟩ => exact ((dat1 (atTc (V2 m (outs m))) c).arrAt_in 6 rfl _).trans ((A_eq1 _ c 6).trans (V3_of m (outs m) c main_v26 (by decide)).symm)
  | ⟨7, _⟩ =>
    refine (outs_280_eq m c).symm.trans ?_
    show outs m 3 main_v28_0 c = Function.update (Function.update (V2 m (outs m) c) (Proc.devRef .tc main_v28_0) (outs m 3 main_v28_0 c)) (Proc.devRef .tc main_v28_1) (outs m 3 main_v28_1 c) (Proc.devRef .tc main_v28_0)
    rw [Function.update_of_ne (StableHlo.devRef_ne_of_ne (by decide)), Function.update_self]
  | ⟨8, _⟩ =>
    refine (outs_281_eq m c).symm.trans ?_
    show outs m 3 main_v28_1 c = Function.update (Function.update (V2 m (outs m) c) (Proc.devRef .tc main_v28_0) (outs m 3 main_v28_0 c)) (Proc.devRef .tc main_v28_1) (outs m 3 main_v28_1 c) (Proc.devRef .tc main_v28_1)
    rw [Function.update_self]
theorem rest1 (c : Dev nD) : ∀ b, b ∉ Finset.univ.image (Pipeline.arrRef spec1) → atTc (V3 m (outs m)) c b = atTc (V2 m (outs m)) c b :=
  fun b hb => V3_of m (outs m) c b (by
    intro h; rw [List.mem_cons, List.mem_singleton] at h
    rcases h with h | h <;> subst h
    · exact hb (Finset.mem_image.mpr ⟨7, Finset.mem_univ _, rfl⟩)
    · exact hb (Finset.mem_image.mpr ⟨8, Finset.mem_univ _, rfl⟩))

set_option maxHeartbeats 2000000 in
theorem left2 (c : Dev nD) (w : Fin cfg2.W) : (pdats m 2 c).arrAt w cfg2.N = atTc (V5 m (outs m)) c (Pipeline.arrRef spec2 w) := by
  match w with
  | ⟨0, _⟩ => exact ((dat2 (atTc (V4 m (outs m))) c).arrAt_in 0 rfl _).trans ((A_eq2 _ c 0).trans (V5_of m (outs m) c main_arg1 (by decide)).symm)
  | ⟨1, _⟩ => exact ((dat2 (atTc (V4 m (outs m))) c).arrAt_in 1 rfl _).trans ((A_eq2 _ c 1).trans (V5_of m (outs m) c main_v28_1 (by decide)).symm)
  | ⟨2, _⟩ => exact ((dat2 (atTc (V4 m (outs m))) c).arrAt_in 2 rfl _).trans ((A_eq2 _ c 2).trans (V5_of m (outs m) c main_v28_0 (by decide)).symm)
  | ⟨3, _⟩ => exact ((dat2 (atTc (V4 m (outs m))) c).arrAt_in 3 rfl _).trans ((A_eq2 _ c 3).trans (V5_of m (outs m) c main_arg17 (by decide)).symm)
  | ⟨4, _⟩ => exact ((dat2 (atTc (V4 m (outs m))) c).arrAt_in 4 rfl _).trans ((A_eq2 _ c 4).trans (V5_of m (outs m) c main_v29 (by decide)).symm)
  | ⟨5, _⟩ => exact ((dat2 (atTc (V4 m (outs m))) c).arrAt_in 5 rfl _).trans ((A_eq2 _ c 5).trans (V5_of m (outs m) c main_v30 (by decide)).symm)
  | ⟨6, _⟩ =>
    refine (outs_31_eq m c).symm.trans ?_
    show outs m 5 main_v31 c = Function.update (V4 m (outs m) c) (Proc.devRef .tc main_v31) (outs m 5 main_v31 c) (Proc.devRef .tc main_v31)
    rw [Function.update_self]
theorem rest2 (c : Dev nD) : ∀ b, b ∉ Finset.univ.image (Pipeline.arrRef spec2) → atTc (V5 m (outs m)) c b = atTc (V4 m (outs m)) c b :=
  fun b hb => V5_of m (outs m) c b (by
    intro h; rw [List.mem_singleton] at h; subst h
    exact hb (Finset.mem_image.mpr ⟨6, Finset.mem_univ _, rfl⟩))

/-! ## The regions as segments -/

-- a library entailment stated over the pinned configuration meets the printed one only when unification may unfold
-- plain definitions inside a metavariable's type
set_option backward.isDefEq.respectTransparency.types false in
/-- Region 0 as a segment. It is entered with every unscoped buffer of the core at `V1 m` and left with them at
    `V2 m (outs m)`: its windows' arrays are taken out of the unscoped buffers at entry and put back, at what the write-backs
    leave, at exit; the generator register goes into the invariant and comes back; nothing is owed and the kernel has
    no semaphore of its own. -/
def reg0 : RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (atTc (V1 m)) c).loose
  hwaits := Pipeline.hwaits_of_owed_zero _ _ _ _ Lz lvz 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V1 m) c) (atTc (V2 m (outs m)) c) ((pdats m 0 c).arrAt · cfg0.N) (left0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library entailment stated over the pinned configuration meets the printed one only when unification may unfold
-- plain definitions inside a metavariable's type
set_option backward.isDefEq.respectTransparency.types false in
/-- Region 1 as a segment. It is entered with every unscoped buffer of the core at `V2 m (outs m)` and left with them at
    `V3 m (outs m)`: its windows' arrays are taken out of the unscoped buffers at entry and put back, at what the write-backs
    leave, at exit; the generator register goes into the invariant and comes back; nothing is owed and the kernel has
    no semaphore of its own. -/
def reg1 : RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (atTc (V2 m (outs m))) c).loose
  hwaits := Pipeline.hwaits_of_owed_zero _ _ _ _ Lz lvz 1 fun _ _ => rfl
  pre c := iprop(StableHlo.held (c : Thread nD τ) (Pipeline.ucRefs τ sig) (V2 m (outs m) c) ∗ Rst c)
  post c := iprop(StableHlo.held (c : Thread nD τ) (Pipeline.ucRefs τ sig) (V3 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (atTc (V2 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V2 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V2 m (outs m)) c) (atTc (V3 m (outs m)) c) ((pdats m 1 c).arrAt · cfg1.N) (left1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library entailment stated over the pinned configuration meets the printed one only when unification may unfold
-- plain definitions inside a metavariable's type
set_option backward.isDefEq.respectTransparency.types false in
/-- Region 2 as a segment. It is entered with every unscoped buffer of the core at `V4 m (outs m)` and left with them at
    `V5 m (outs m)`: its windows' arrays are taken out of the unscoped buffers at entry and put back, at what the write-backs
    leave, at exit; the generator register goes into the invariant and comes back; nothing is owed and the kernel has
    no semaphore of its own. -/
def reg2 : RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (atTc (V4 m (outs m))) c).loose
  hwaits := Pipeline.hwaits_of_owed_zero _ _ _ _ Lz lvz 2 fun _ _ => rfl
  pre c := iprop(StableHlo.held (c : Thread nD τ) (Pipeline.ucRefs τ sig) (V4 m (outs m) c) ∗ Rst c)
  post c := iprop(StableHlo.held (c : Thread nD τ) (Pipeline.ucRefs τ sig) (V5 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (atTc (V4 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V4 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V4 m (outs m)) c) (atTc (V5 m (outs m)) c) ((pdats m 2 c).arrAt · cfg2.N) (left2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN. From any memory with zero counters every weakly fair execution of @main terminates, nothing faulting, and
    in every final state each unscoped buffer of each core holds the last contents of the fold. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V6 m (outs m) c b) := by
  refine Pipeline.θ_run_regions_kit_dev (pcfgs (F := F)) adm (pdats m) () cellOf_inj emb₁ defs₀ Variants.none Lz lvz m ρ main
    (segs m (outs m) Variants.none Lz lvz (fun _ c => Rst c) () (pdats m) (reg0 m) (reg1 m) (reg2 m))
    (fun c Q => by
      rewrite [main_chain c, Seg.run_eq_chain,
        show (segs m (outs m) Variants.none Lz lvz (fun _ c => Rst c) () (pdats m) (reg0 m) (reg1 m) (reg2 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V6 m (outs m) c))
    (hch := fun c => ⟨.rfl, .rfl, .rfl, .rfl, .rfl, .rfl, sep_mono .rfl (by iintro ⟨-, H⟩; iexact H)⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m (outs m) c b)
    (hfin := fun c s' => by
      iintro ⟨Hh, HSI⟩
      unfold StableHlo.held
      imodintro
      iapply (pointsTo_read_all (Pipeline.ucRefs τ sig) (fun b => (((c : Thread nD τ)).1, b)) (V6 m (outs m) c) s')
      isplitl [Hh] <;> iassumption)
    (hQ := fun _ h => h)

end Cert.KernelIdeal.Rgn

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.KI.Arr0Pay.lean ====
import proofs.«175746_g1967095022037_cont_8to1_1256_3_alg».proof.Proof.Gen.KernelIdeal.Skeleton
import proofs.«175746_g1967095022037_cont_8to1_1256_3_alg».proof.Proof.LibAffineRows
import Idealize.ShloMosaic.Lib.ValueIdx
import Idealize.ShloMosaic.Lib.ValueLayout
import Idealize.ShloMosaic.Lib.Pipeline.Value
import Idealize.ShloMosaic.PureOps.Ideal.Laws

/-! # Kernel region 0: the body's payload at an index, over the extended reals

The body of the first kernel call multiplies its [1000,128] row block by the whole [128,256] matrix on the matrix
unit, accumulating into zeros. Over the extended reals every operation is exact, so the element of the result at
row p and column q is the textbook sum over the 128 contracted positions of the block's row p against the
matrix's column q. -/

noncomputable section

namespace Cert.KernelIdeal.Rgn

open Cert.KernelIdeal Cert.KernelIdeal.Gen
open Idealize.ShloMosaic Idealize.ShloMosaic.ValueIdx

/-! ## The dimension numbers of the product are those of a plain [1000,128] by [128,256] product -/

/-- The left operand's row is the result's row. -/
theorem lhs_dot0_0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide),
    dif_pos (show (0 : Fin S1000x128.rank) ∈ dot_S1000x128_S128x256_S1000x256_1_0_0_1_n_n.lhsNonContracting by decide)]
  rfl

/-- The left operand's column is the contracted position. -/
theorem lhs_dot0_1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q

/-- The right operand's row is the contracted position. -/
theorem rhs_dot0_0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q

/-- The right operand's column is the result's column. -/
theorem rhs_dot0_1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide),
    dif_pos (show (1 : Fin S128x256.rank) ∈ dot_S1000x128_S128x256_S1000x256_1_0_0_1_n_n.rhsNonContracting by decide)]
  rfl

/-- One contracted axis of extent 128, the left operand's column and the right operand's row. -/
theorem plainDot0 : Cert.Lib.PlainDot dot_S1000x128_S128x256_S1000x256_1_0_0_1_n_n where
  rank := rfl
  size := rfl
  l0 := lhs_dot0_0
  l1 := lhs_dot0_1
  r0 := rhs_dot0_0
  r1 := rhs_dot0_1

/-! ## The payload at an index -/

/-- The product of a row block x0 by the matrix x1, at row p and column q: the sum over the contracted
    position l of x0 (p, l) · x1 (l, q). -/
theorem k0_pay1_apply (x0 : Vec Ideal S1000x128 .f32) (x1 : Vec Ideal S128x256 .f32) (p : Fin 1000) (q : Fin 256) :
    k0_pay1 x0 x1 (ix2 p q) = ∑ l : Fin 128, x0 (ix2 p l) * x1 (ix2 l q) := by
  unfold k0_pay1
  simp only [shapeCast_self]
  refine (Ideal.matmul_constant_zero_apply _ _ _ _ _).trans ?_
  exact plainDot0.sum_eq (fun i => x0 i) (fun i => x1 i) p q

end Cert.KernelIdeal.Rgn

end
-- ==== Proof.KI.Arr0.lean ====
import proofs.«175746_g1967095022037_cont_8to1_1256_3_alg».proof.Proof.KI.Region0
import proofs.«175746_g1967095022037_cont_8to1_1256_3_alg».proof.Proof.KI.Arr0Pay
import Idealize.ShloMosaic.Lib.ValueIdx
import Idealize.ShloMosaic.Lib.ValueLayout
import Idealize.ShloMosaic.Lib.Pipeline.Value
import Idealize.ShloMosaic.PureOps.Ideal.Laws

/-! # Kernel region 0: what its output array holds after the region, over the extended reals

The first kernel call walks the ten row blocks [1000,128] of its left argument, multiplies each by the whole
[128,256] right argument and writes the product to the matching row block [1000,256] of the output. The ten
output blocks tile the [10000,256] output, block t holding rows 1000·t to 1000·t + 999, and row p of block t of
the left argument is row 1000·t + p of the array. So after the region the output at row i and column j is the
sum over l of the left argument at (i, l) times the right argument at (l, j), both as the region found them. -/

set_option maxRecDepth 16384

noncomputable section

namespace Cert.KernelIdeal.Rgn

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-- An array of extended reals with its entries' type spelled out: the identity. A buffer's contents are such an
    array only after its type is unfolded, and the sum and product of entries are found at the spelled type. -/
abbrev asMat0 (S : Shape) (f : S.Idx → EReal) : S.Idx → EReal := f

/-- The product of a [10000,128] array A by a [128,256] array B, index by index: at (i, j) the sum over the
    contracted position l of A (i, l) · B (l, j). -/
def prod27 (A : S10000x128.Idx → EReal) (B : S128x256.Idx → EReal) : S10000x256.Idx → EReal :=
  fun i => ∑ l : Fin 128, A (ix2 (i 0) l) * B (ix2 l (i 1))

/-- The product at row i and column j. -/
theorem prod27_apply (A : S10000x128.Idx → EReal) (B : S128x256.Idx → EReal) (i : Fin 10000) (j : Fin 256) :
    prod27 A B (ix2 i j) = ∑ l : Fin 128, A (ix2 i l) * B (ix2 l j) := rfl

/-- The index maps over the grid: the left argument's row block moves with the output's, whose block index is
    the point's own number; every other block index is zero. -/
theorem blockIdx0 : ∀ t : Fin cfg0.N, win0_2.index t (0 : Fin 2) = t.val
    ∧ win0_2.index t (1 : Fin 2) = 0
    ∧ win0_0.index t (0 : Fin 2) = t.val
    ∧ win0_0.index t (1 : Fin 2) = 0
    ∧ win0_1.index t (0 : Fin 2) = 0
    ∧ win0_1.index t (1 : Fin 2) = 0 :=
  (by decide +kernel : ∀ t : Fin grid0.N, _)

/-- WHAT POINT t WRITES BACK is block t of the product of the two arguments A and B as the region finds them:
    the payload at (p, q) is the sum over l of the left block at (p, l) times the right block at (l, q); the
    left block's (p, l) is A (1000·t + p, l), the right block is the whole of B, and the output block's (p, q)
    is the array's (1000·t + p, q). -/
theorem flushed27_eq (c : Dev nD) (t : Fin cfg0.N) (A : S10000x128.Idx → EReal) (B : S128x256.Idx → EReal)
    (hA : V c main_arg0 = A) (hB : V c main_v21 = B) :
    (dat0 V c).flushed 2 t = ((cfg0.win 2).blk t).view.read (Elt Ideal) (prod27 A B) := by
  show (cfg0.win 2).cut (grid0.coords t) ((dat0 V c).after 2 t) = _
  rw [after0_2]
  obtain ⟨e20, e21, e00, e01, e10, e11⟩ := blockIdx0 t
  funext y
  obtain ⟨p, q, rfl⟩ : ∃ (p : Fin 1000) (q : Fin 256), y = ix2 p q := ⟨y 0, y 1, eq_ix2 y⟩
  show k0_pay1 (iblk0 V c 0 t) (iblk0 V c 1 t) (ix2 p q) = prod27 A B (((cfg0.win 2).blk t).view.emb (ix2 p q))
  refine (k0_pay1_apply _ _ p q).trans ?_
  show _ = ∑ l : Fin 128, A (ix2 ((((cfg0.win 2).blk t).view.emb (ix2 p q)) 0) l)
      * B (ix2 l ((((cfg0.win 2).blk t).view.emb (ix2 p q)) 1))
  refine Finset.sum_congr rfl fun l _ => ?_
  have hl : iblk0 V c 0 t (ix2 p l) = A (ix2 ((((cfg0.win 2).blk t).view.emb (ix2 p q)) 0) l) := by
    rw [← hA]
    show V c main_arg0 (((cfg0.win 0).blk t).view.emb (ix2 p l)) = V c main_arg0 _
    refine congrArg _ (funext fun a => Fin.ext ?_)
    match a with
    | ⟨0, _⟩ => show win0_0.index t (0 : Fin 2) * 1000 + 1 * p.val = win0_2.index t (0 : Fin 2) * 1000 + 1 * p.val; omega
    | ⟨1, _⟩ => show win0_0.index t (1 : Fin 2) * 128 + 1 * l.val = l.val; omega
  have hr : iblk0 V c 1 t (ix2 l q) = B (ix2 l ((((cfg0.win 2).blk t).view.emb (ix2 p q)) 1)) := by
    rw [← hB]
    show V c main_v21 (((cfg0.win 1).blk t).view.emb (ix2 l q)) = V c main_v21 _
    refine congrArg _ (funext fun a => Fin.ext ?_)
    match a with
    | ⟨0, _⟩ => show win0_1.index t (0 : Fin 2) * 128 + 1 * l.val = l.val; omega
    | ⟨1, _⟩ => show win0_1.index t (1 : Fin 2) * 256 + 1 * q.val = win0_2.index t (1 : Fin 2) * 256 + 1 * q.val; omega
  rw [hl, hr]

/-- An index of the output is in point t's block iff each coordinate is in the block's range on its axis. -/
theorem mem_blk27 (t : Fin cfg0.N) (i : S10000x256.Idx) :
    i ∈ ((cfg0.win 2).blk t).view.set ↔ ∀ a : Fin 2, win0_2.index t a * S1000x256.size a ≤ (i a).val
      ∧ (i a).val < win0_2.index t a * S1000x256.size a + S1000x256.size a := by
  show i ∈ ((View.whole main_v27).slice (win0_2.rect t)).set ↔ _
  rw [View.set_slice_whole, Rect.mem_set_unit]
  exact Iff.rfl

/-- The ten row blocks cover the output: row r lies in the block of point r / 1000. -/
theorem cover27 (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  have hN : cfg0.N = 10 := N_0
  have ht : (i 0).val / 1000 < cfg0.N := by omega
  obtain ⟨e20, e21, -⟩ := blockIdx0 ⟨(i 0).val / 1000, ht⟩
  refine ⟨⟨(i 0).val / 1000, ht⟩, flush0_2 _, ?_⟩
  rw [mem_blk27]
  intro a
  match a with
  | ⟨0, _⟩ =>
    show win0_2.index ⟨(i 0).val / 1000, ht⟩ (0 : Fin 2) * 1000 ≤ (i 0).val
      ∧ (i 0).val < win0_2.index ⟨(i 0).val / 1000, ht⟩ (0 : Fin 2) * 1000 + 1000
    rw [e20]
    show (i 0).val / 1000 * 1000 ≤ (i 0).val ∧ (i 0).val < (i 0).val / 1000 * 1000 + 1000
    omega
  | ⟨1, _⟩ =>
    show win0_2.index ⟨(i 0).val / 1000, ht⟩ (1 : Fin 2) * 256 ≤ (i 1).val
      ∧ (i 1).val < win0_2.index ⟨(i 0).val / 1000, ht⟩ (1 : Fin 2) * 256 + 256
    rw [e21]
    omega

/-- THE OUTPUT ARRAY after the region is the product of the two arguments as the region found them. -/
theorem arr27_eq (c : Dev nD) (A : S10000x128.Idx → EReal) (B : S128x256.Idx → EReal)
    (hA : V c main_arg0 = A) (hB : V c main_v21 = B) : (dat0 V c).arrAt 2 cfg0.N = prod27 A B :=
  (dat0 V c).arrAt_eq_of_cover 2 (prod27 A B) (fun t _ => flushed27_eq V c t A B hA hB) cover27

/-- Index by index, the two arguments under any names A and B: the output at (i, j) is the sum over l of
    A (i, l) · B (l, j). -/
theorem arr27_of (c : Dev nD) (A : S10000x128.Idx → EReal) (B : S128x256.Idx → EReal)
    (hA : V c main_arg0 = A) (hB : V c main_v21 = B) (i : Fin 10000) (j : Fin 256) :
    (dat0 V c).arrAt 2 cfg0.N (ix2 i j) = ∑ l : Fin 128, A (ix2 i l) * B (ix2 l j) :=
  congrFun (arr27_eq V c A B hA hB) (ix2 i j)

/-- Index by index: the output at (i, j) is the sum over l of the left argument at (i, l) times the right
    argument at (l, j), both as the region found them. -/
theorem arr27 (c : Dev nD) (i : Fin 10000) (j : Fin 256) :
    (dat0 V c).arrAt 2 cfg0.N (ix2 i j)
      = ∑ l : Fin 128, asMat0 S10000x128 (V c main_arg0) (ix2 i l) * asMat0 S128x256 (V c main_v21) (ix2 l j) :=
  arr27_of V c _ _ rfl rfl i j

end Cert.KernelIdeal.Rgn

end
-- ==== Proof.KI.Arr1Pay.lean ====
import proofs.«175746_g1967095022037_cont_8to1_1256_3_alg».proof.Proof.Gen.KernelIdeal.Skeleton
import proofs.«175746_g1967095022037_cont_8to1_1256_3_alg».proof.Proof.LibAffineRows
import Idealize.ShloMosaic.Lib.ValueIdx
import Idealize.ShloMosaic.Lib.ValueLayout
import Idealize.ShloMosaic.Lib.Pipeline.Value
import Idealize.ShloMosaic.PureOps.Ideal.Laws

/-! # The second kernel call's two payloads, read at an index over the extended reals

The body multiplies a block of 400 rows of the adjacency matrix by the whole support matrix, adds the product of
the matching 400 rows of the features by a weight matrix, scales every column by one row vector, shifts it by
another and clips at zero from below; the second output is the right half of that block (columns 128 onward)
times a further weight matrix. Over the extended reals every product of matrices into zeros is the textbook sum
over the contracted index, so each entry of either payload is a closed expression in the entries of the blocks. -/

noncomputable section

namespace Cert.KernelIdeal.Rgn

open Cert.KernelIdeal Cert.KernelIdeal.Gen
open Idealize.ShloMosaic Idealize.ShloMosaic.ValueIdx

/-- A function on the indices of a shape, to the extended reals, named with its shape: the contents of an array
    read as a matrix whose entries are extended reals by their stated type. -/
abbrev asMat (S : Shape) (f : S.Idx → EReal) : S.Idx → EReal := f

/-! ## The three products are plain products -/

theorem lhs_adj_0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide),
    dif_pos (show (0 : Fin S400x10000.rank) ∈ dot_S400x10000_S10000x256_S400x256_1_0_0_1_n_n.lhsNonContracting by decide)]
  rfl
theorem lhs_adj_1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
theorem rhs_adj_0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
theorem rhs_adj_1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide),
    dif_pos (show (1 : Fin S10000x256.rank) ∈ dot_S400x10000_S10000x256_S400x256_1_0_0_1_n_n.rhsNonContracting by decide)]
  rfl

/-- rows of the adjacency block times the support matrix -/
theorem plain_adj : Cert.Lib.PlainDot (R := 400) (K := 10000) (M := 256) dot_S400x10000_S10000x256_S400x256_1_0_0_1_n_n where
  rank := rfl
  size := rfl
  l0 := lhs_adj_0
  l1 := lhs_adj_1
  r0 := rhs_adj_0
  r1 := rhs_adj_1

theorem lhs_fea_0 (i : S400x256.Idx) (q : dot_S400x128_S128x256_S400x256_1_0_0_1_n_n.contr.Idx) :
    (dot_S400x128_S128x256_S400x256_1_0_0_1_n_n.lhsIdx i q 0).val = (i 0).val := by
  unfold DotDims.lhsIdx
  rw [dif_neg (show ¬(0 : Fin S400x128.rank) ∈ dot_S400x128_S128x256_S400x256_1_0_0_1_n_n.lhsBatch by decide),
    dif_pos (show (0 : Fin S400x128.rank) ∈ dot_S400x128_S128x256_S400x256_1_0_0_1_n_n.lhsNonContracting by decide)]
  rfl
theorem lhs_fea_1 (i : S400x256.Idx) (q : dot_S400x128_S128x256_S400x256_1_0_0_1_n_n.contr.Idx) :
    (dot_S400x128_S128x256_S400x256_1_0_0_1_n_n.lhsIdx i q 1).val = (q ⟨0, by decide⟩).val :=
  dot_S400x128_S128x256_S400x256_1_0_0_1_n_n.lhsIdx_val_of_single rfl i q
theorem rhs_fea_0 (i : S400x256.Idx) (q : dot_S400x128_S128x256_S400x256_1_0_0_1_n_n.contr.Idx) :
    (dot_S400x128_S128x256_S400x256_1_0_0_1_n_n.rhsIdx i q 0).val = (q ⟨0, by decide⟩).val :=
  dot_S400x128_S128x256_S400x256_1_0_0_1_n_n.rhsIdx_val_of_single rfl i q
theorem rhs_fea_1 (i : S400x256.Idx) (q : dot_S400x128_S128x256_S400x256_1_0_0_1_n_n.contr.Idx) :
    (dot_S400x128_S128x256_S400x256_1_0_0_1_n_n.rhsIdx i q 1).val = (i 1).val := by
  unfold DotDims.rhsIdx
  rw [dif_neg (show ¬(1 : Fin S128x256.rank) ∈ dot_S400x128_S128x256_S400x256_1_0_0_1_n_n.rhsBatch by decide),
    dif_pos (show (1 : Fin S128x256.rank) ∈ dot_S400x128_S128x256_S400x256_1_0_0_1_n_n.rhsNonContracting by decide)]
  rfl

/-- rows of the feature block times the first weight matrix -/
theorem plain_fea : Cert.Lib.PlainDot (R := 400) (K := 128) (M := 256) dot_S400x128_S128x256_S400x256_1_0_0_1_n_n where
  rank := rfl
  size := rfl
  l0 := lhs_fea_0
  l1 := lhs_fea_1
  r0 := rhs_fea_0
  r1 := rhs_fea_1

theorem lhs_out_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl
theorem lhs_out_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_out_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_out_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl

/-- the right half of the activated block times the second weight matrix -/
theorem plain_out : Cert.Lib.PlainDot (R := 400) (K := 128) (M := 128) dot_S400x128_S128x128_S400x128_1_0_0_1_n_n where
  rank := rfl
  size := rfl
  l0 := lhs_out_0
  l1 := lhs_out_1
  r0 := rhs_out_0
  r1 := rhs_out_1

/-! ## The payloads at an index -/

/-- A product of two matrices into zeros, at (r, c): the sum over the contracted index. -/
theorem matmul_zero_at {R K M : ℕ} {d : DotDims ⟨2, ![R, K]⟩ ⟨2, ![K, M]⟩ ⟨2, ![R, M]⟩} (h : Cert.Lib.PlainDot d)
    (x : FVec Ideal ⟨2, ![R, K]⟩ .f32) (w : FVec Ideal ⟨2, ![K, M]⟩ .f32) (r : Fin R) (c : Fin M) :
    matmul d none x w (constant ⟨2, ![R, M]⟩ .f32 0x00000000#32) (ix2 r c) = ∑ k : Fin K, x (ix2 r k) * w (ix2 k c) := by
  simp only [matmul]
  rw [Ideal.matmul_constant_zero_apply]
  exact h.sum_eq (fun i => x i) (fun i => w i) r c

/-- The first payload at (p, q): the two products' sum, scaled by the scale row at q, shifted by the shift row
    at q, clipped at zero. -/
theorem k1_pay1_apply (x0 : Vec Ideal S400x10000 .f32) (x1 : Vec Ideal S10000x256 .f32) (x4 : Vec Ideal S400x128 .f32)
    (x5 : Vec Ideal S128x256 .f32) (x9 : Vec Ideal S1x256 .f32) (x13 : Vec Ideal S1x256 .f32) (p : Fin 400) (q : Fin 256) :
    k1_pay1 x0 x1 x4 x5 x9 x13 (ix2 p q)
      = max ((∑ k : Fin 10000, x0 (ix2 p k) * x1 (ix2 k q) + ∑ l : Fin 128, x4 (ix2 p l) * x5 (ix2 l q))
              * x9 (ix2 0 q) + x13 (ix2 0 q)) 0 := by
  unfold k1_pay1
  simp only [maximumf_apply, addf_apply, mulf_apply, broadcast_apply, shapeCast_self]
  refine congrArg₂ max ?_ Ideal.ofBits_zero_f32
  exact congrArg₂ (· + ·) (congrArg₂ (· * ·) (congrArg₂ (· + ·) (matmul_zero_at plain_adj x0 x1 p q)
    (matmul_zero_at plain_fea x4 x5 p q)) (broadcastTo_1b_ab_apply x9 _ p q)) (broadcastTo_1b_ab_apply x13 _ p q)

/-- A product into zeros whose left operand is the right half (columns 128 onward) of a block y, at (p, q): row p of
    that half times column q of the weights. -/
theorem right_half_matmul_apply (y : FVec Ideal S400x256 .f32) (x21 : FVec Ideal S128x128 .f32) (p : Fin 400) (q : Fin 128) :
    matmul dot_S400x128_S128x128_S400x128_1_0_0_1_n_n none (extractStridedSlice S400x128 ![0, 128] y slices_S400x256_o0_128_S400x128) x21
        (constant S400x128 .f32 0x00000000#32) (ix2 p q)
      = ∑ l : Fin 128, y (ix2 p ⟨128 + l.val, by omega⟩) * x21 (ix2 l q) := by
  refine (matmul_zero_at plain_out _ x21 p q).trans ?_
  refine Finset.sum_congr rfl fun l _ => ?_
  exact congrArg (· * x21 (ix2 l q)) (slice2_axis1_apply 128 y _ p l ⟨128 + l.val, by omega⟩ rfl)

/-- The second payload at (p, q): the first payload's row p, columns 128 onward, times column q of the weights. -/
theorem k1_pay2_apply (x0 : Vec Ideal S400x10000 .f32) (x1 : Vec Ideal S10000x256 .f32) (x4 : Vec Ideal S400x128 .f32)
    (x5 : Vec Ideal S128x256 .f32) (x9 : Vec Ideal S1x256 .f32) (x13 : Vec Ideal S1x256 .f32) (x21 : Vec Ideal S128x128 .f32)
    (p : Fin 400) (q : Fin 128) :
    k1_pay2 x0 x1 x4 x5 x9 x13 x21 (ix2 p q)
      = ∑ l : Fin 128, k1_pay1 x0 x1 x4 x5 x9 x13 (ix2 p ⟨128 + l.val, by omega⟩) * x21 (ix2 l q) := by
  unfold k1_pay2
  exact right_half_matmul_apply (k1_pay1 x0 x1 x4 x5 x9 x13) x21 p q

end Cert.KernelIdeal.Rgn

end
-- ==== Proof.KI.Arr1.lean ====
import proofs.«175746_g1967095022037_cont_8to1_1256_3_alg».proof.Proof.KI.Region1
import proofs.«175746_g1967095022037_cont_8to1_1256_3_alg».proof.Proof.KI.Arr1Pay
import Idealize.ShloMosaic.Lib.ValueIdx
import Idealize.ShloMosaic.Lib.ValueLayout
import Idealize.ShloMosaic.Lib.Pipeline.Value
import Idealize.ShloMosaic.PureOps.Ideal.Laws

/-! # The second kernel call: what its two output arrays hold after the region, over the extended reals

The call walks the 25 row blocks of 400 rows. At point t it reads rows 400·t to 400·t + 399 of the adjacency
matrix [10000,10000] and of the features [10000,128], and the support matrix [10000,256], two weight matrices
and the scale and shift rows whole; it writes rows 400·t to 400·t + 399 of both outputs. The 25 blocks of an
output tile it, so after the region the first output at (i, j) is

  max ((Σ_k adjacency (i, k) · support (k, j) + Σ_l features (i, l) · weights₀ (l, j)) · scale (0, j) + shift (0, j)) 0

and the second at (i, j) is Σ_l (first output at (i, 128 + l)) · weights₁ (l, j), every array on the right as the
region found it. -/

set_option maxRecDepth 16384

noncomputable section

namespace Cert.KernelIdeal.Rgn

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- the core's buffer contents when the region is entered, at the extended reals
variable (V : (c : Dev nD) → (b : Ref sig .tc) → Buf (Elt Ideal) ((c : Thread nD τ).loc b))

/-- What the first output array holds after the region, index by index: row i of the adjacency matrix times
    column j of the support matrix, plus row i of the features times column j of the first weight matrix, scaled
    by the scale row at j, shifted by the shift row at j, clipped at zero. -/
def act1 (c : Dev nD) : S10000x256.Idx → EReal := fun i =>
  max ((∑ k : Fin 10000, asMat S10000x10000 (V c main_arg1) (ix2 (i 0) k) * asMat S10000x256 (V c main_v27) (ix2 k (i 1))
        + ∑ l : Fin 128, asMat S10000x128 (V c main_arg0) (ix2 (i 0) l) * asMat S128x256 (V c main_v22) (ix2 l (i 1)))
      * asMat S1x256 (V c main_v24) (ix2 0 (i 1)) + asMat S1x256 (V c main_v26) (ix2 0 (i 1))) 0

/-- The index maps over the grid: the adjacency block, the feature block and both output blocks are the point's
    own row block; every other window is one whole array at block index zero. -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- The grid has 25 points. -/
theorem point1_lt (t : Fin cfg1.N) : t.val < 25 := by
  have h := t.isLt
  have hN : cfg1.N = 25 := N_1
  omega

/-- The array row of row p of the row block at point t. -/
def row1 (t : Fin cfg1.N) (p : Fin 400) : Fin 10000 := ⟨t.val * 400 + p.val, by have := point1_lt t; omega⟩

/-! ## The input blocks, read where the point's rectangle says -/

/-- Row p of the adjacency block at point t is row `row1 t p` of the adjacency matrix. -/
theorem iblk1_0_apply (c : Dev nD) (t : Fin cfg1.N) (p : Fin 400) (k : Fin 10000) :
    iblk1 V c 0 t (ix2 p k) = asMat S10000x10000 (V c main_arg1) (ix2 (row1 t p) k) := by
  obtain ⟨e00, e01, -⟩ := blockIdx1 t
  show V c main_arg1 (((cfg1.win 0).blk t).view.emb (ix2 p k)) = V c main_arg1 (ix2 (row1 t p) k)
  refine congrArg _ (funext fun a => Fin.ext ?_)
  match a with
  | ⟨0, _⟩ => show win1_0.index t (0 : Fin 2) * 400 + 1 * p.val = t.val * 400 + p.val; omega
  | ⟨1, _⟩ => show win1_0.index t (1 : Fin 2) * 10000 + 1 * k.val = k.val; omega

/-- The support matrix's block is the whole matrix. -/
theorem iblk1_1_apply (c : Dev nD) (t : Fin cfg1.N) (k : Fin 10000) (q : Fin 256) :
    iblk1 V c 1 t (ix2 k q) = asMat S10000x256 (V c main_v27) (ix2 k q) := by
  obtain ⟨-, -, e10, e11, -⟩ := blockIdx1 t
  show V c main_v27 (((cfg1.win 1).blk t).view.emb (ix2 k q)) = V c main_v27 (ix2 k q)
  refine congrArg _ (funext fun a => Fin.ext ?_)
  match a with
  | ⟨0, _⟩ => show win1_1.index t (0 : Fin 2) * 10000 + 1 * k.val = k.val; omega
  | ⟨1, _⟩ => show win1_1.index t (1 : Fin 2) * 256 + 1 * q.val = q.val; omega

/-- Row p of the feature block at point t is row `row1 t p` of the features. -/
theorem iblk1_2_apply (c : Dev nD) (t : Fin cfg1.N) (p : Fin 400) (l : Fin 128) :
    iblk1 V c 2 t (ix2 p l) = asMat S10000x128 (V c main_arg0) (ix2 (row1 t p) l) := by
  obtain ⟨-, -, -, -, e20, e21, -⟩ := blockIdx1 t
  show V c main_arg0 (((cfg1.win 2).blk t).view.emb (ix2 p l)) = V c main_arg0 (ix2 (row1 t p) l)
  refine congrArg _ (funext fun a => Fin.ext ?_)
  match a with
  | ⟨0, _⟩ => show win1_2.index t (0 : Fin 2) * 400 + 1 * p.val = t.val * 400 + p.val; omega
  | ⟨1, _⟩ => show win1_2.index t (1 : Fin 2) * 128 + 1 * l.val = l.val; omega

/-- The first weight matrix's block is the whole matrix. -/
theorem iblk1_3_apply (c : Dev nD) (t : Fin cfg1.N) (l : Fin 128) (q : Fin 256) :
    iblk1 V c 3 t (ix2 l q) = asMat S128x256 (V c main_v22) (ix2 l q) := by
  obtain ⟨-, -, -, -, -, -, e30, e31, -⟩ := blockIdx1 t
  show V c main_v22 (((cfg1.win 3).blk t).view.emb (ix2 l q)) = V c main_v22 (ix2 l q)
  refine congrArg _ (funext fun a => Fin.ext ?_)
  match a with
  | ⟨0, _⟩ => show win1_3.index t (0 : Fin 2) * 128 + 1 * l.val = l.val; omega
  | ⟨1, _⟩ => show win1_3.index t (1 : Fin 2) * 256 + 1 * q.val = q.val; omega

/-- The second weight matrix's block is the whole matrix. -/
theorem iblk1_4_apply (c : Dev nD) (t : Fin cfg1.N) (l : Fin 128) (q : Fin 128) :
    iblk1 V c 4 t (ix2 l q) = asMat S128x128 (V c main_arg16) (ix2 l q) := by
  obtain ⟨-, -, -, -, -, -, -, -, e40, e41, -⟩ := blockIdx1 t
  show V c main_arg16 (((cfg1.win 4).blk t).view.emb (ix2 l q)) = V c main_arg16 (ix2 l q)
  refine congrArg _ (funext fun a => Fin.ext ?_)
  match a with
  | ⟨0, _⟩ => show win1_4.index t (0 : Fin 2) * 128 + 1 * l.val = l.val; omega
  | ⟨1, _⟩ => show win1_4.index t (1 : Fin 2) * 128 + 1 * q.val = q.val; omega

/-- The scale row's block is the whole row. -/
theorem iblk1_5_apply (c : Dev nD) (t : Fin cfg1.N) (q : Fin 256) :
    iblk1 V c 5 t (ix2 0 q) = asMat S1x256 (V c main_v24) (ix2 0 q) := by
  obtain ⟨-, -, -, -, -, -, -, -, -, -, e50, e51, -⟩ := blockIdx1 t
  show V c main_v24 (((cfg1.win 5).blk t).view.emb (ix2 0 q)) = V c main_v24 (ix2 0 q)
  refine congrArg _ (funext fun a => Fin.ext ?_)
  match a with
  | ⟨0, _⟩ => show win1_5.index t (0 : Fin 2) * 1 + 1 * 0 = 0; omega
  | ⟨1, _⟩ => show win1_5.index t (1 : Fin 2) * 256 + 1 * q.val = q.val; omega

/-- The shift row's block is the whole row. -/
theorem iblk1_6_apply (c : Dev nD) (t : Fin cfg1.N) (q : Fin 256) :
    iblk1 V c 6 t (ix2 0 q) = asMat S1x256 (V c main_v26) (ix2 0 q) := by
  obtain ⟨-, -, -, -, -, -, -, -, -, -, -, -, e60, e61, -⟩ := blockIdx1 t
  show V c main_v26 (((cfg1.win 6).blk t).view.emb (ix2 0 q)) = V c main_v26 (ix2 0 q)
  refine congrArg _ (funext fun a => Fin.ext ?_)
  match a with
  | ⟨0, _⟩ => show win1_6.index t (0 : Fin 2) * 1 + 1 * 0 = 0; omega
  | ⟨1, _⟩ => show win1_6.index t (1 : Fin 2) * 256 + 1 * q.val = q.val; omega

/-! ## The first output -/

/-- The first payload of the input blocks at point t, at (p, q), is the closed form at (`row1 t p`, q). -/
theorem pay1_at (c : Dev nD) (t : Fin cfg1.N) (p : Fin 400) (q : Fin 256) :
    k1_pay1 (iblk1 V c 0 t) (iblk1 V c 1 t) (iblk1 V c 2 t) (iblk1 V c 3 t) (iblk1 V c 5 t) (iblk1 V c 6 t) (ix2 p q)
      = act1 V c (ix2 (row1 t p) q) := by
  refine (k1_pay1_apply _ _ _ _ _ _ p q).trans ?_
  show _ = max ((∑ k : Fin 10000, asMat S10000x10000 (V c main_arg1) (ix2 (row1 t p) k) * asMat S10000x256 (V c main_v27) (ix2 k q)
        + ∑ l : Fin 128, asMat S10000x128 (V c main_arg0) (ix2 (row1 t p) l) * asMat S128x256 (V c main_v22) (ix2 l q))
      * asMat S1x256 (V c main_v24) (ix2 0 q) + asMat S1x256 (V c main_v26) (ix2 0 q)) 0
  simp only [iblk1_0_apply, iblk1_1_apply, iblk1_2_apply, iblk1_3_apply, iblk1_5_apply, iblk1_6_apply]

/-- What point t writes back through the first output's window is block t of the closed form. -/
theorem flushed1_7_eq (c : Dev nD) (t : Fin cfg1.N) :
    (dat1 V c).flushed 7 t = ((cfg1.win 7).blk t).view.read (Elt Ideal) (act1 V c) := by
  show (cfg1.win 7).cut (grid1.coords t) ((dat1 V c).after 7 t) = _
  rw [after1_7]
  obtain ⟨-, -, -, -, -, -, -, -, -, -, -, -, -, -, e70, e71, -⟩ := blockIdx1 t
  funext y
  obtain ⟨p, q, rfl⟩ : ∃ (p : Fin 400) (q : Fin 256), y = ix2 p q := ⟨y 0, y 1, eq_ix2 y⟩
  refine (pay1_at V c t p q).trans ?_
  show act1 V c (ix2 (row1 t p) q) = act1 V c (((cfg1.win 7).blk t).view.emb (ix2 p q))
  refine congrArg _ (funext fun a => Fin.ext ?_)
  match a with
  | ⟨0, _⟩ => show t.val * 400 + p.val = win1_7.index t (0 : Fin 2) * 400 + 1 * p.val; omega
  | ⟨1, _⟩ => show q.val = win1_7.index t (1 : Fin 2) * 256 + 1 * q.val; omega

/-- An index of the first output is in point t's block iff each coordinate is in the block's range on its axis. -/
theorem mem_blk1_7 (t : Fin cfg1.N) (i : S10000x256.Idx) :
    i ∈ ((cfg1.win 7).blk t).view.set ↔ ∀ a : Fin 2, win1_7.index t a * S400x256.size a ≤ (i a).val
      ∧ (i a).val < win1_7.index t a * S400x256.size a + S400x256.size a := by
  show i ∈ ((View.whole main_v28_0).slice (win1_7.rect t)).set ↔ _
  rw [View.set_slice_whole, Rect.mem_set_unit]
  exact Iff.rfl

/-- Every index of the first output lies in the block of the point its row falls in. -/
theorem cover1_7 (i : S10000x256.Idx) :
    ∃ t : Fin cfg1.N, (cfg1.win 7).flush t = true ∧ i ∈ ((cfg1.win 7).blk t).view.set := by
  have hi0 : (i 0).val < 10000 := (i 0).isLt
  have hi1 : (i 1).val < 256 := (i 1).isLt
  have hN : cfg1.N = 25 := N_1
  let t : Fin cfg1.N := ⟨(i 0).val / 400, by omega⟩
  obtain ⟨-, -, -, -, -, -, -, -, -, -, -, -, -, -, e70, e71, -⟩ := blockIdx1 t
  refine ⟨t, flush1_7 t, ?_⟩
  rw [mem_blk1_7]
  have ht : t.val = (i 0).val / 400 := rfl
  intro a
  match a with
  | ⟨0, _⟩ => show win1_7.index t (0 : Fin 2) * 400 ≤ (i 0).val ∧ (i 0).val < win1_7.index t (0 : Fin 2) * 400 + 400; omega
  | ⟨1, _⟩ => show win1_7.index t (1 : Fin 2) * 256 ≤ (i 1).val ∧ (i 1).val < win1_7.index t (1 : Fin 2) * 256 + 256; omega

/-- The first output array after the region is the closed form. -/
theorem arr280_eq (c : Dev nD) : (dat1 V c).arrAt 7 cfg1.N = act1 V c :=
  (dat1 V c).arrAt_eq_of_cover 7 (act1 V c) (fun t _ => flushed1_7_eq V c t) cover1_7

/-- Index by index. -/
theorem arr280 (c : Dev nD) (i : Fin 10000) (j : Fin 256) :
    (dat1 V c).arrAt 7 cfg1.N (ix2 i j)
      = max ((∑ k : Fin 10000, asMat S10000x10000 (V c main_arg1) (ix2 i k) * asMat S10000x256 (V c main_v27) (ix2 k j)
              + ∑ l : Fin 128, asMat S10000x128 (V c main_arg0) (ix2 i l) * asMat S128x256 (V c main_v22) (ix2 l j))
            * asMat S1x256 (V c main_v24) (ix2 0 j) + asMat S1x256 (V c main_v26) (ix2 0 j)) 0 :=
  congrFun (arr280_eq V c) (ix2 i j)

/-! ## The second output -/

/-- What the second output array holds after the region, index by index: row i of the first output's right half
    (columns 128 onward) times column j of the second weight matrix. -/
def act2 (c : Dev nD) : S10000x128.Idx → EReal := fun i =>
  ∑ l : Fin 128, act1 V c (ix2 (i 0) ⟨128 + l.val, by omega⟩) * asMat S128x128 (V c main_arg16) (ix2 l (i 1))

/-- The second payload of the input blocks at point t, at (p, q), is the closed form at (`row1 t p`, q). -/
theorem pay2_at (c : Dev nD) (t : Fin cfg1.N) (p : Fin 400) (q : Fin 128) :
    k1_pay2 (iblk1 V c 0 t) (iblk1 V c 1 t) (iblk1 V c 2 t) (iblk1 V c 3 t) (iblk1 V c 5 t) (iblk1 V c 6 t) (iblk1 V c 4 t) (ix2 p q)
      = act2 V c (ix2 (row1 t p) q) := by
  refine (k1_pay2_apply _ _ _ _ _ _ _ p q).trans ?_
  show _ = ∑ l : Fin 128, act1 V c (ix2 (row1 t p) ⟨128 + l.val, by omega⟩) * asMat S128x128 (V c main_arg16) (ix2 l q)
  refine Finset.sum_congr rfl fun l _ => ?_
  exact congrArg₂ (· * ·) (pay1_at V c t p ⟨128 + l.val, by omega⟩) (iblk1_4_apply V c t l q)

/-- What point t writes back through the second output's window is block t of the closed form. -/
theorem flushed1_8_eq (c : Dev nD) (t : Fin cfg1.N) :
    (dat1 V c).flushed 8 t = ((cfg1.win 8).blk t).view.read (Elt Ideal) (act2 V c) := by
  show (cfg1.win 8).cut (grid1.coords t) ((dat1 V c).after 8 t) = _
  rw [after1_8]
  obtain ⟨-, -, -, -, -, -, -, -, -, -, -, -, -, -, -, -, e80, e81⟩ := blockIdx1 t
  funext y
  obtain ⟨p, q, rfl⟩ : ∃ (p : Fin 400) (q : Fin 128), y = ix2 p q := ⟨y 0, y 1, eq_ix2 y⟩
  refine (pay2_at V c t p q).trans ?_
  show act2 V c (ix2 (row1 t p) q) = act2 V c (((cfg1.win 8).blk t).view.emb (ix2 p q))
  refine congrArg _ (funext fun a => Fin.ext ?_)
  match a with
  | ⟨0, _⟩ => show t.val * 400 + p.val = win1_8.index t (0 : Fin 2) * 400 + 1 * p.val; omega
  | ⟨1, _⟩ => show q.val = win1_8.index t (1 : Fin 2) * 128 + 1 * q.val; omega

/-- An index of the second output is in point t's block iff each coordinate is in the block's range on its axis. -/
theorem mem_blk1_8 (t : Fin cfg1.N) (i : S10000x128.Idx) :
    i ∈ ((cfg1.win 8).blk t).view.set ↔ ∀ a : Fin 2, win1_8.index t a * S400x128.size a ≤ (i a).val
      ∧ (i a).val < win1_8.index t a * S400x128.size a + S400x128.size a := by
  show i ∈ ((View.whole main_v28_1).slice (win1_8.rect t)).set ↔ _
  rw [View.set_slice_whole, Rect.mem_set_unit]
  exact Iff.rfl

/-- Every index of the second output lies in the block of the point its row falls in. -/
theorem cover1_8 (i : S10000x128.Idx) :
    ∃ t : Fin cfg1.N, (cfg1.win 8).flush t = true ∧ i ∈ ((cfg1.win 8).blk t).view.set := by
  have hi0 : (i 0).val < 10000 := (i 0).isLt
  have hi1 : (i 1).val < 128 := (i 1).isLt
  have hN : cfg1.N = 25 := N_1
  let t : Fin cfg1.N := ⟨(i 0).val / 400, by omega⟩
  obtain ⟨-, -, -, -, -, -, -, -, -, -, -, -, -, -, -, -, e80, e81⟩ := blockIdx1 t
  refine ⟨t, flush1_8 t, ?_⟩
  rw [mem_blk1_8]
  have ht : t.val = (i 0).val / 400 := rfl
  intro a
  match a with
  | ⟨0, _⟩ => show win1_8.index t (0 : Fin 2) * 400 ≤ (i 0).val ∧ (i 0).val < win1_8.index t (0 : Fin 2) * 400 + 400; omega
  | ⟨1, _⟩ => show win1_8.index t (1 : Fin 2) * 128 ≤ (i 1).val ∧ (i 1).val < win1_8.index t (1 : Fin 2) * 128 + 128; omega

/-- The second output array after the region is the closed form. -/
theorem arr281_eq (c : Dev nD) : (dat1 V c).arrAt 8 cfg1.N = act2 V c :=
  (dat1 V c).arrAt_eq_of_cover 8 (act2 V c) (fun t _ => flushed1_8_eq V c t) cover1_8

/-- Index by index, over the first output array as the region leaves it. -/
theorem arr281 (c : Dev nD) (i : Fin 10000) (j : Fin 128) :
    (dat1 V c).arrAt 8 cfg1.N (ix2 i j)
      = ∑ l : Fin 128, asMat S10000x256 ((dat1 V c).arrAt 7 cfg1.N) (ix2 i ⟨128 + l.val, by omega⟩)
          * asMat S128x128 (V c main_arg16) (ix2 l j) := by
  refine (congrFun (arr281_eq V c) (ix2 i j)).trans ?_
  show ∑ l : Fin 128, act1 V c (ix2 i ⟨128 + l.val, by omega⟩) * asMat S128x128 (V c main_arg16) (ix2 l j) = _
  rw [arr280_eq]

end Cert.KernelIdeal.Rgn

end
-- ==== Proof.KI.Arr2Pay.lean ====
import proofs.«175746_g1967095022037_cont_8to1_1256_3_alg».proof.Proof.Gen.KernelIdeal.Skeleton
import proofs.«175746_g1967095022037_cont_8to1_1256_3_alg».proof.Proof.LibAffineRows
import Idealize.ShloMosaic.Lib.ValueIdx
import Idealize.ShloMosaic.Lib.ValueLayout
import Idealize.ShloMosaic.Lib.Pipeline.Value
import Idealize.ShloMosaic.PureOps.Ideal.Laws

/-! # Region 2's block payload at an index, over the extended reals

The second aggregation pass computes, on a block of 400 rows, `max ((A · H + Y₁ · W) * scale + shift, 0)`: `A` is the
block's 400 rows of the adjacency operand, `H` the whole feature array, `Y₁` columns 128 to 255 of the block's rows of the
previous pass's output, `W` a 128 by 128 weight, and scale and shift are rows broadcast over the block. Over the
extended reals both matrix products into a zero accumulator are the textbook sums over the contracted index, so the
payload at `(p, q)` is the closed expression below. -/

noncomputable section

namespace Cert.KernelIdeal.Rgn

open Cert.KernelIdeal Cert.KernelIdeal.Gen
open Idealize.ShloMosaic Idealize.ShloMosaic.ValueIdx

/-! ## Both contractions are plain matrix products

For each record: the result's row is the left operand's row, the one contracted index is the left operand's column and
the right operand's row, and the result's column is the right operand's column. -/

theorem lhs_adj2_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_adj2_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_adj2_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_adj2_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

theorem plain_adj2 : Cert.Lib.PlainDot (R := 400) (K := 10000) (M := 128) dot_S400x10000_S10000x128_S400x128_1_0_0_1_n_n where
  rank := rfl
  size := rfl
  l0 := lhs_adj2_0
  l1 := lhs_adj2_1
  r0 := rhs_adj2_0
  r1 := rhs_adj2_1

theorem lhs_self2_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_self2_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_self2_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_self2_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

theorem plain_self2 : Cert.Lib.PlainDot (R := 400) (K := 128) (M := 128) dot_S400x128_S128x128_S400x128_1_0_0_1_n_n where
  rank := rfl
  size := rfl
  l0 := lhs_self2_0
  l1 := lhs_self2_1
  r0 := rhs_self2_0
  r1 := rhs_self2_1

/-- A matrix unit's product of two f32 operands into zeros, at `(r, c)`: the textbook sum. -/
theorem matmul_zero_plain2 {R K M : ℕ} {d : DotDims ⟨2, ![R, K]⟩ ⟨2, ![K, M]⟩ ⟨2, ![R, M]⟩} (h : Cert.Lib.PlainDot d)
    (x : FVec Ideal ⟨2, ![R, K]⟩ .f32) (w : FVec Ideal ⟨2, ![K, M]⟩ .f32) (r : Fin R) (c : Fin M) :
    matmul d none x w (constant ⟨2, ![R, M]⟩ .f32 0x00000000#32) (ix2 r c) = ∑ k : Fin K, x (ix2 r k) * w (ix2 k c) := by
  simp only [matmul]
  rw [Ideal.matmul_constant_zero_apply]
  exact h.sum_eq (fun i => x i) (fun i => w i) r c

/-- Columns 128 to 255 of a 400 by 256 block, read at `(p, q)`: the block at `(p, 128 + q)`. -/
theorem right_half2_apply {α : Type} (y : S400x256.Idx → α) (h : S400x256.Slices ![0, 128] S400x128) (p : Fin 400) (q : Fin 128) :
    extractStridedSlice S400x128 ![0, 128] y h (ix2 p q) = y (ix2 p ⟨128 + q.val, by omega⟩) :=
  extractStridedSlice_apply ![0, 128] y h (ix2 p q) (ix2 p ⟨128 + q.val, by omega⟩) fun a => by
    match a with
    | ⟨0, _⟩ => exact (Nat.zero_add _).symm
    | ⟨1, _⟩ => rfl

/-! ## The payload at an index -/

/-- The block payload at `(p, q)`: the rectified affine image of the two sums. `x0` is the adjacency block, `x1` the
    feature array, `x4` the block of the previous pass's output, `x7` the weight, `x10` the scale row and `x14` the shift row. -/
theorem k2_pay1_apply (x0 : Vec Ideal S400x10000 .f32) (x1 : Vec Ideal S10000x128 .f32) (x4 : Vec Ideal S400x256 .f32)
    (x7 : Vec Ideal S128x128 .f32) (x10 : Vec Ideal S1x128 .f32) (x14 : Vec Ideal S1x128 .f32) (p : Fin 400) (q : Fin 128) :
    k2_pay1 x0 x1 x4 x7 x10 x14 (ix2 p q)
      = max ((∑ k : Fin 10000, x0 (ix2 p k) * x1 (ix2 k q) + ∑ l : Fin 128, x4 (ix2 p ⟨128 + l.val, by omega⟩) * x7 (ix2 l q))
              * x10 (ix2 0 q) + x14 (ix2 0 q)) 0 := by
  unfold k2_pay1
  simp only [maximumf_apply, addf_apply, mulf_apply, broadcast_apply, shapeCast_self, broadcastTo_1b_ab_apply]
  have e1 := matmul_zero_plain2 plain_adj2 x0 x1 p q
  have e2 := (matmul_zero_plain2 plain_self2 (extractStridedSlice S400x128 ![0, 128] x4 slices_S400x256_o0_128_S400x128) x7 p q).trans
    (Finset.sum_congr rfl fun l _ => congrArg (· * x7 (ix2 l q)) (right_half2_apply x4 slices_S400x256_o0_128_S400x128 p l))
  exact congrArg₂ max (congrArg (· + x14 (ix2 0 q)) (congrArg (· * x10 (ix2 0 q)) (congrArg₂ (· + ·) e1 e2))) Ideal.ofBits_zero_f32

end Cert.KernelIdeal.Rgn

end
-- ==== Proof.Spec.lean ====
/-
  The mathematics of the block, over the extended reals, as functions of a row and a column.

  A graph-convolution layer takes node features `X` (one row per node), the dense adjacency `A`, two weight matrices
  `W`, `S`, a bias `b` and the batch-norm parameters `g`, `be`, `mu`, `v` (scale, shift, running mean, running variance),
  and returns `relu (bn (A (X W) + X S + b))`.  The block returns, side by side, the input, one layer of the input, and
  two stacked layers of the input.

  The two programs differ in how the normalisation is applied.  One subtracts the mean, divides by `sqrt (v + e)`,
  multiplies by `g` and adds `be`; the other multiplies the convolution by the column's folded scale
  `g * rsqrt (v + e)` and adds the folded shift `be + (b - mu) * (g * rsqrt (v + e))`.  Where every entry is a real number
  and `v + e` is positive the two are the same real number: `rsqrt s = 1 / sqrt s` and the product distributes.
-/
import Idealize.ShloMosaic.Lib.ValueIdx
import Idealize.ShloMosaic.PureOps.Ideal.Laws

noncomputable section

namespace Cert.Spec

open Idealize.ShloMosaic

/-- The product of an `R × K` matrix by a `K × M` matrix at row `r`, column `c`. -/
def mm {R K M : ℕ} (x : Fin R → Fin K → EReal) (w : Fin K → Fin M → EReal) (r : Fin R) (c : Fin M) : EReal :=
  ∑ k : Fin K, x r k * w k c

/-- The convolution before bias and normalisation: `A (X W) + X S` at `(i, j)`. -/
def conv {N D H : ℕ} (A : Fin N → Fin N → EReal) (X : Fin N → Fin D → EReal) (W S : Fin D → Fin H → EReal)
    (i : Fin N) (j : Fin H) : EReal :=
  mm A (mm X W) i j + mm X S i j

/-- A layer with the normalisation applied step by step: add the bias, subtract the mean, divide by the standard
    deviation, scale, shift, and clamp below at zero. -/
def refLayer (e : EReal) {N D H : ℕ} (A : Fin N → Fin N → EReal) (X : Fin N → Fin D → EReal) (W S : Fin D → Fin H → EReal)
    (b g be mu v : Fin H → EReal) (i : Fin N) (j : Fin H) : EReal :=
  max (Ideal.div ((conv A X W S i j + b j) - mu j) (Ideal.sqrt (v j + e)) * g j + be j) 0

/-- The same layer with bias and normalisation folded into one scale and one shift per column. -/
def kerLayer (e : EReal) {N D H : ℕ} (A : Fin N → Fin N → EReal) (X : Fin N → Fin D → EReal) (W S : Fin D → Fin H → EReal)
    (b g be mu v : Fin H → EReal) (i : Fin N) (j : Fin H) : EReal :=
  max (conv A X W S i j * (g j * Ideal.rsqrt (v j + e)) + (be j + (b j - mu j) * (g j * Ideal.rsqrt (v j + e)))) 0

/-- Three `N × 128` matrices side by side as one `N × 384` matrix. -/
def side {N : ℕ} (X Y0 Y1 : Fin N → Fin 128 → EReal) (i : Fin N) (j : Fin 384) : EReal :=
  if h : j.val < 128 then X i ⟨j.val, h⟩
  else if h' : j.val < 256 then Y0 i ⟨j.val - 128, by omega⟩
  else Y1 i ⟨j.val - 256, by omega⟩

/-- The parameters of one layer. -/
structure Layer (D H : ℕ) where
  W : Fin D → Fin H → EReal
  S : Fin D → Fin H → EReal
  b : Fin H → EReal
  g : Fin H → EReal
  be : Fin H → EReal
  mu : Fin H → EReal
  v : Fin H → EReal

/-- The block, normalisation step by step: the input, one layer of it, two stacked layers of it. -/
def refBlock (e : EReal) {N : ℕ} (A : Fin N → Fin N → EReal) (X : Fin N → Fin 128 → EReal) (l0 l1a l1b : Layer 128 128) :
    Fin N → Fin 384 → EReal :=
  side X (refLayer e A X l0.W l0.S l0.b l0.g l0.be l0.mu l0.v)
    (refLayer e A (refLayer e A X l1a.W l1a.S l1a.b l1a.g l1a.be l1a.mu l1a.v) l1b.W l1b.S l1b.b l1b.g l1b.be l1b.mu l1b.v)

/-- The block, normalisation folded. -/
def kerBlock (e : EReal) {N : ℕ} (A : Fin N → Fin N → EReal) (X : Fin N → Fin 128 → EReal) (l0 l1a l1b : Layer 128 128) :
    Fin N → Fin 384 → EReal :=
  side X (kerLayer e A X l0.W l0.S l0.b l0.g l0.be l0.mu l0.v)
    (kerLayer e A (kerLayer e A X l1a.W l1a.S l1a.b l1a.g l1a.be l1a.mu l1a.v) l1b.W l1b.S l1b.b l1b.g l1b.be l1b.mu l1b.v)

/-- Every entry of a matrix is a real number. -/
def Real2 {R C : ℕ} (x : Fin R → Fin C → EReal) : Prop := ∀ r c, ∃ a : ℝ, x r c = (a : EReal)
/-- Every entry of a vector is a real number. -/
def Real1 {C : ℕ} (x : Fin C → EReal) : Prop := ∀ c, ∃ a : ℝ, x c = (a : EReal)

/-- A layer's parameters are real numbers and its variance plus `e` is positive. -/
structure Layer.Ok (e : EReal) {D H : ℕ} (l : Layer D H) : Prop where
  W : Real2 l.W
  S : Real2 l.S
  b : Real1 l.b
  g : Real1 l.g
  be : Real1 l.be
  mu : Real1 l.mu
  v : Real1 l.v
  pos : ∀ j, 0 < l.v j + e

/-- A `[R, C]` array as a function of row and column. -/
def mat {R C : ℕ} (x : (⟨2, ![R, C]⟩ : Shape).Idx → EReal) : Fin R → Fin C → EReal := fun r c => x (ValueIdx.ix2 r c)
/-- A `[C]` array as a function of its index. -/
def vec {C : ℕ} (x : (⟨1, ![C]⟩ : Shape).Idx → EReal) : Fin C → EReal := fun c => x (ValueIdx.ix1 c)
/-- A layer's parameters from its seven arrays: the two weight matrices, the bias, and the batch norm's scale, shift,
    running mean and running variance. -/
def layerOf {D H : ℕ} (W S : (⟨2, ![D, H]⟩ : Shape).Idx → EReal) (b g be mu v : (⟨1, ![H]⟩ : Shape).Idx → EReal) : Layer D H :=
  ⟨mat W, mat S, vec b, vec g, vec be, vec mu, vec v⟩

end Cert.Spec

end
-- ==== Proof.KI.Arr2.lean ====
import proofs.«175746_g1967095022037_cont_8to1_1256_3_alg».proof.Proof.Gen.KernelIdeal.Launch
import proofs.«175746_g1967095022037_cont_8to1_1256_3_alg».proof.Proof.Gen.KernelIdeal.Skeleton
import proofs.«175746_g1967095022037_cont_8to1_1256_3_alg».proof.Proof.Gen.KernelIdeal.Points
import proofs.«175746_g1967095022037_cont_8to1_1256_3_alg».proof.Proof.KI.Region2
import proofs.«175746_g1967095022037_cont_8to1_1256_3_alg».proof.Proof.KI.Arr2Pay
import proofs.«175746_g1967095022037_cont_8to1_1256_3_alg».proof.Proof.Spec
import Idealize.ShloMosaic.Lib.ValueIdx
import Idealize.ShloMosaic.Lib.ValueLayout
import Idealize.ShloMosaic.Lib.Pipeline.Value
import Idealize.ShloMosaic.PureOps.Ideal.Laws

/-! # What region 2 leaves in its output array, over the extended reals

Region 2 walks 25 blocks of 400 rows. At block `t` it writes rows `400 t … 400 t + 399` of a [10000,128] array with the block
payload of the adjacency rows of the same block, the whole feature array, the same rows of the previous pass's output,
the weight, and the scale and shift rows. The payload at a block is the restriction to that block of ONE function of the
row and the column (the block's row `p` is the array's row `400 t + p`, and the whole-array windows are read in place), and
the 25 blocks cover the array, so the array ends holding that function. -/

set_option maxRecDepth 16384

noncomputable section

namespace Cert.KernelIdeal.Rgn

open Cert.KernelIdeal Cert.KernelIdeal.Gen
open Idealize.ShloMosaic Idealize.ShloMosaic.ValueIdx Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The array the region leaves, as one function of the index -/

/-- Row `j 0`, column `j 1` of region 2's result: the rectified affine image of the adjacency row times the feature array plus
    the right half of the previous pass's row times the weight. -/
def G31 (c : Dev nD) : S10000x128.Idx → EReal := fun j =>
  max ((∑ k : Fin 10000, Cert.Spec.mat (V c main_arg1) (j 0) k * Cert.Spec.mat (V c main_v28_1) k (j 1)
        + ∑ l : Fin 128, Cert.Spec.mat (V c main_v28_0) (j 0) ⟨128 + l.val, by omega⟩ * Cert.Spec.mat (V c main_arg17) l (j 1))
      * Cert.Spec.mat (V c main_v29) 0 (j 1) + Cert.Spec.mat (V c main_v30) 0 (j 1)) 0

/-- The index maps over the grid: the three row-blocked windows sit at the same block row, block column 0; the four
    whole-array windows at block (0, 0); and the block row stays below 25. -/
theorem idx31 : ∀ t : Fin cfg2.N,
    win2_0.index t (0 : Fin 2) = win2_6.index t (0 : Fin 2) ∧ win2_0.index t (1 : Fin 2) = 0
    ∧ win2_1.index t (0 : Fin 2) = 0 ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 24 ∧ win2_6.index t (1 : Fin 2) = 0 :=
  (by decide +kernel : ∀ t : Fin grid2.N, _)

/-- Every block row is some point's. -/
theorem idx31_onto : ∀ b : Fin 25, ∃ t : Fin cfg2.N, win2_6.index t = ![b.val, 0] :=
  (by decide +kernel : ∀ b : Fin 25, ∃ t : Fin grid2.N, win2_6.index t = ![b.val, 0])

/-! ## Each input block, read where the output's block says

`r` is the array row of the output block's row `p`: `r = (block row) * 400 + p`; `q'` is the array column of the block's
column `q`, the same number. -/

/-- The adjacency block's row `p` is the adjacency array's row `r`. -/
theorem blk31_adj (c : Dev nD) (t : Fin cfg2.N) (p : Fin 400) (k : Fin 10000) (r : Fin 10000)
    (hr : r.val = win2_6.index t (0 : Fin 2) * 400 + p.val) :
    iblk2 V c 0 t (ix2 p k) = (V c main_arg1 : S10000x10000.Idx → EReal) (ix2 r k) := by
  obtain ⟨e00, e01, -⟩ := idx31 t
  show (V c main_arg1 : S10000x10000.Idx → EReal) (((cfg2.win 0).blk t).view.emb (ix2 p k)) = _
  refine congrArg _ (funext fun a => Fin.ext ?_)
  match a with
  | ⟨0, _⟩ => show win2_0.index t (0 : Fin 2) * 400 + 1 * p.val = r.val; omega
  | ⟨1, _⟩ => show win2_0.index t (1 : Fin 2) * 10000 + 1 * k.val = k.val; omega

/-- The feature array's window is the whole array. -/
theorem blk31_feat (c : Dev nD) (t : Fin cfg2.N) (k : Fin 10000) (q q' : Fin 128) (hq : q'.val = q.val) :
    iblk2 V c 1 t (ix2 k q) = (V c main_v28_1 : S10000x128.Idx → EReal) (ix2 k q') := by
  obtain ⟨-, -, e10, e11, -⟩ := idx31 t
  show (V c main_v28_1 : S10000x128.Idx → EReal) (((cfg2.win 1).blk t).view.emb (ix2 k q)) = _
  refine congrArg _ (funext fun a => Fin.ext ?_)
  match a with
  | ⟨0, _⟩ => show win2_1.index t (0 : Fin 2) * 10000 + 1 * k.val = k.val; omega
  | ⟨1, _⟩ => show win2_1.index t (1 : Fin 2) * 128 + 1 * q.val = q'.val; omega

/-- The previous pass's block's row `p` is that array's row `r`, column by column. -/
theorem blk31_prev (c : Dev nD) (t : Fin cfg2.N) (p : Fin 400) (s : Fin 256) (r : Fin 10000)
    (hr : r.val = win2_6.index t (0 : Fin 2) * 400 + p.val) :
    iblk2 V c 2 t (ix2 p s) = (V c main_v28_0 : S10000x256.Idx → EReal) (ix2 r s) := by
  obtain ⟨-, -, -, -, e20, e21, -⟩ := idx31 t
  show (V c main_v28_0 : S10000x256.Idx → EReal) (((cfg2.win 2).blk t).view.emb (ix2 p s)) = _
  refine congrArg _ (funext fun a => Fin.ext ?_)
  match a with
  | ⟨0, _⟩ => show win2_2.index t (0 : Fin 2) * 400 + 1 * p.val = r.val; omega
  | ⟨1, _⟩ => show win2_2.index t (1 : Fin 2) * 256 + 1 * s.val = s.val; omega

/-- The weight's window is the whole array. -/
theorem blk31_weight (c : Dev nD) (t : Fin cfg2.N) (l : Fin 128) (q q' : Fin 128) (hq : q'.val = q.val) :
    iblk2 V c 3 t (ix2 l q) = (V c main_arg17 : S128x128.Idx → EReal) (ix2 l q') := by
  obtain ⟨-, -, -, -, -, -, e30, e31, -⟩ := idx31 t
  show (V c main_arg17 : S128x128.Idx → EReal) (((cfg2.win 3).blk t).view.emb (ix2 l q)) = _
  refine congrArg _ (funext fun a => Fin.ext ?_)
  match a with
  | ⟨0, _⟩ => show win2_3.index t (0 : Fin 2) * 128 + 1 * l.val = l.val; omega
  | ⟨1, _⟩ => show win2_3.index t (1 : Fin 2) * 128 + 1 * q.val = q'.val; omega

/-- The scale row's window is the whole row. -/
theorem blk31_scale (c : Dev nD) (t : Fin cfg2.N) (q q' : Fin 128) (hq : q'.val = q.val) :
    iblk2 V c 4 t (ix2 0 q) = (V c main_v29 : S1x128.Idx → EReal) (ix2 0 q') := by
  obtain ⟨-, -, -, -, -, -, -, -, e40, e41, -⟩ := idx31 t
  show (V c main_v29 : S1x128.Idx → EReal) (((cfg2.win 4).blk t).view.emb (ix2 0 q)) = _
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * q.val = q'.val; omega

/-- The shift row's window is the whole row. -/
theorem blk31_shift (c : Dev nD) (t : Fin cfg2.N) (q q' : Fin 128) (hq : q'.val = q.val) :
    iblk2 V c 5 t (ix2 0 q) = (V c main_v30 : S1x128.Idx → EReal) (ix2 0 q') := by
  obtain ⟨-, -, -, -, -, -, -, -, -, -, e50, e51, -⟩ := idx31 t
  show (V c main_v30 : S1x128.Idx → EReal) (((cfg2.win 5).blk t).view.emb (ix2 0 q)) = _
  refine congrArg _ (funext fun a => Fin.ext ?_)
  match a with
  | ⟨0, _⟩ => show win2_5.index t (0 : Fin 2) * 1 + 1 * 0 = 0; omega
  | ⟨1, _⟩ => show win2_5.index t (1 : Fin 2) * 128 + 1 * q.val = q'.val; omega

/-! ## The payload at a block is the block of the one function -/

/-- The payload of the blocks at point `t`, at `(p, q)`, is the one function at the array index of the output block's `(p, q)`:
    the closed form of the payload, each block read where the output's block says. -/
theorem pay31_block (c : Dev nD) (t : Fin cfg2.N) :
    k2_pay1 (iblk2 V c 0 t) (iblk2 V c 1 t) (iblk2 V c 2 t) (iblk2 V c 3 t) (iblk2 V c 4 t) (iblk2 V c 5 t)
      = ((cfg2.win 6).blk t).view.read (Elt Ideal) (G31 V c) := by
  funext y
  obtain ⟨p, q, rfl⟩ : ∃ (p : Fin 400) (q : Fin 128), y = ix2 p q := ⟨y 0, y 1, eq_ix2 y⟩
  obtain ⟨-, -, -, -, -, -, -, -, -, -, -, -, e60, e61⟩ := idx31 t
  have hr : ((((cfg2.win 6).blk t).view.emb (ix2 p q)) 0).val = win2_6.index t (0 : Fin 2) * 400 + p.val := by
    show win2_6.index t (0 : Fin 2) * 400 + 1 * p.val = _; omega
  have hq : ((((cfg2.win 6).blk t).view.emb (ix2 p q)) 1).val = q.val := by
    show win2_6.index t (1 : Fin 2) * 128 + 1 * q.val = _; omega
  refine (k2_pay1_apply (iblk2 V c 0 t) (iblk2 V c 1 t) (iblk2 V c 2 t) (iblk2 V c 3 t) (iblk2 V c 4 t) (iblk2 V c 5 t) p q).trans ?_
  show _ = G31 V c (((cfg2.win 6).blk t).view.emb (ix2 p q))
  unfold G31
  refine congrArg₂ max (congrArg₂ (· + ·) (congrArg₂ (· * ·) (congrArg₂ (· + ·)
    (Finset.sum_congr rfl fun k _ => congrArg₂ (· * ·) ?_ ?_) (Finset.sum_congr rfl fun l _ => congrArg₂ (· * ·) ?_ ?_)) ?_) ?_) rfl
  · exact blk31_adj V c t p k _ hr
  · exact blk31_feat V c t k q _ hq
  · exact blk31_prev V c t p ⟨128 + l.val, by omega⟩ _ hr
  · exact blk31_weight V c t l q _ hq
  · exact blk31_scale V c t q _ hq
  · exact blk31_shift V c t q _ hq

/-! ## The blocks cover the array -/

/-- An index of the array is in point `t`'s block iff each coordinate is in the block's range on its axis. -/
theorem mem_blk31 (t : Fin cfg2.N) (i : S10000x128.Idx) :
    i ∈ ((cfg2.win 6).blk t).view.set ↔ ∀ a : Fin 2, win2_6.index t a * S400x128.size a ≤ (i a).val ∧ (i a).val < win2_6.index t a * S400x128.size a + S400x128.size a := by
  show i ∈ ((View.whole main_v31).slice (win2_6.rect t)).set ↔ _
  rw [View.set_slice_whole, Rect.mem_set_unit]
  exact Iff.rfl

/-- Row `r` lies in the block of the point whose block row is `r / 400`, and every point writes its block back. -/
theorem cover31 (i : S10000x128.Idx) : ∃ t : Fin cfg2.N, (cfg2.win 6).flush t = true ∧ i ∈ ((cfg2.win 6).blk t).view.set := by
  have hi0 : (i 0).val < 10000 := (i 0).isLt
  have hi1 : (i 1).val < 128 := (i 1).isLt
  obtain ⟨t, ht⟩ := idx31_onto ⟨(i 0).val / 400, by omega⟩
  have q0 : win2_6.index t (0 : Fin 2) = (i 0).val / 400 := congrFun ht 0
  have q1 : win2_6.index t (1 : Fin 2) = 0 := congrFun ht 1
  refine ⟨t, flush2_6 t, ?_⟩
  rw [mem_blk31]
  intro a
  match a with
  | ⟨0, _⟩ => show win2_6.index t (0 : Fin 2) * 400 ≤ (i 0).val ∧ (i 0).val < win2_6.index t (0 : Fin 2) * 400 + 400; omega
  | ⟨1, _⟩ => show win2_6.index t (1 : Fin 2) * 128 ≤ (i 1).val ∧ (i 1).val < win2_6.index t (1 : Fin 2) * 128 + 128; omega

/-! ## What a point writes back, and the array after the region -/

/-- For any proof data whose output window holds the payload of the blocks after the body: what point `t` writes back is
    block `t` of the one function (the window is not cut, so all of the block is written back). -/
theorem flushed31_of {c : Dev nD} (dat : Dat τ (Elt Ideal) Unit ℕ (UR sig nD τ) ℕ cfg2 c)
    (hafter : ∀ t, dat.after 6 t = k2_pay1 (iblk2 V c 0 t) (iblk2 V c 1 t) (iblk2 V c 2 t) (iblk2 V c 3 t) (iblk2 V c 4 t) (iblk2 V c 5 t))
    (t : Fin cfg2.N) : dat.flushed 6 t = ((cfg2.win 6).blk t).view.read (Elt Ideal) (G31 V c) := by
  show (cfg2.win 6).cut (grid2.coords t) (dat.after 6 t) = _
  rw [hafter]
  exact pay31_block V c t

/-- and the array ends holding the one function, the 25 blocks covering it. -/
theorem arr31_of {c : Dev nD} (dat : Dat τ (Elt Ideal) Unit ℕ (UR sig nD τ) ℕ cfg2 c)
    (hafter : ∀ t, dat.after 6 t = k2_pay1 (iblk2 V c 0 t) (iblk2 V c 1 t) (iblk2 V c 2 t) (iblk2 V c 3 t) (iblk2 V c 4 t) (iblk2 V c 5 t)) :
    dat.arrAt 6 cfg2.N = G31 V c :=
  dat.arrAt_eq_of_cover 6 (G31 V c) (fun t _ => flushed31_of V dat hafter t) cover31

/-- Region 2's own proof data: its output array after the region is the one function, -/
theorem arr31_eq (c : Dev nD) : (dat2 V c).arrAt 6 cfg2.N = G31 V c :=
  arr31_of V (dat2 V c) (after2_6 V c)

/-- and index by index: row `i`, column `j` is the rectified affine image of the adjacency row times the feature array plus
    the right half of the previous pass's row times the weight. -/
theorem arr31 (c : Dev nD) (i : Fin 10000) (j : Fin 128) :
    (dat2 V c).arrAt 6 cfg2.N (ix2 i j)
      = max ((∑ k : Fin 10000, Cert.Spec.mat (V c main_arg1) i k * Cert.Spec.mat (V c main_v28_1) k j
              + ∑ l : Fin 128, Cert.Spec.mat (V c main_v28_0) i ⟨128 + l.val, by omega⟩ * Cert.Spec.mat (V c main_arg17) l j)
            * Cert.Spec.mat (V c main_v29) 0 j + Cert.Spec.mat (V c main_v30) 0 j) 0 :=
  congrFun (arr31_eq V c) (ix2 i j)

end Cert.KernelIdeal.Rgn

end
-- ==== Proof.KI.Host.lean ====
import proofs.«175746_g1967095022037_cont_8to1_1256_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

/-! # The host operations of the program, read at an index

The program's host operations fall into three stretches. At the instance whose floats are the extended reals and
whose operations are exact, and from ANY starting contents `W` of the arrays, each theorem here says what one array
holds at one index after a stretch has run, as a function of `W`'s entries alone.

The first stretch folds each of three batch normalisations into an affine map per column: with weight `g`, offset
`be`, running mean `mu`, running variance `v`, the preceding layer's bias `b` and the constant `eps`,

  scale = g * rsqrt (v + eps),        shift = be + (b - mu) * scale,

both vectors of 128 entries. It then lays the first two layers side by side: their two [128,128] weight matrices
become one [128,256] matrix (columns 0..127 the first layer's, 128..255 the second's), twice over for two pairs
of matrices; their two scales become one row of 256 entries and their two shifts another. The third layer's scale
and shift stay vectors of 128. The second stretch rewrites those two vectors as rows [1,128]. The third stretch
joins three [10000,128] blocks side by side into [10000,384]: an input, the left 128 columns of a [10000,256]
array, and a third array.

Every elementwise operation at this instance is the extended reals' own operation at the index; a scalar broadcast
is the scalar; a vector viewed as a one-row matrix reads the vector at the column; a slice reads its operand at the
shifted index; and a concatenation along an axis reads the piece whose span holds the index's coordinate, at that
coordinate less the extents of the pieces before it. Each proof first computes the array as one term over `W`,
then reads that term at the index, splitting on which piece of a concatenation the column falls in. -/

set_option maxRecDepth 16384

noncomputable section

namespace Cert.KernelIdeal.Rgn

open Idealize.ShloMosaic Idealize.ShloMosaic.TcCoe Idealize.ShloMosaic.ValueIdx Cert.KernelIdeal Cert.KernelIdeal.Gen

/-- the word of the batch normalisations' constant `eps`, the f32 nearest 1e-5 -/
abbrev epsE : EReal := Ideal.ofBits .f32 0x3727C5AC#32

variable (W : Valuation τ sig (Elt Ideal))

-- the extended reals' product, sum and difference, with both operands' type stated: an array's entry has the
-- extended reals as its type only after the array's element type is computed
local infixl:70 " *ₑ " => @HMul.hMul EReal EReal EReal instHMul
local infixl:65 " +ₑ " => @HAdd.hAdd EReal EReal EReal instHAdd
local infixl:65 " -ₑ " => @HSub.hSub EReal EReal EReal instHSub

/-! ## The first stretch -/

/-- The first pair of weight matrices side by side: column `j` of the [128,256] matrix is column `j` of the first
    for `j < 128` and column `j - 128` of the second otherwise. -/
theorem h0_v21 (k : Fin 128) (j : Fin 256) : StableHlo.after hostOps0 W main_v21 (ix2 k j)
    = if h : j.val < 128 then W main_arg2 (ix2 k ⟨j.val, h⟩) else W main_arg9 (ix2 k ⟨j.val - 128, by omega⟩) := by
  show (StableHlo.after hostOps0 W (Proc.devRef .tc main_v21) : S128x256.Idx → EReal) (ix2 k j) = _
  simp only [hostOps0]
  after_results_simp
  by_cases h : j.val < 128
  · rw [dif_pos h]
    exact concatenate_pair_apply_left (t := S128x256) (s₁ := S128x128) (s₂ := S128x128) 1 _ _ _ (ix2 k j) rfl (ix2 k ⟨j.val, h⟩)
      (fun b => match b with | ⟨0, _⟩ => rfl | ⟨1, _⟩ => rfl)
  · rw [dif_neg h]
    exact concatenate_pair_apply_right (t := S128x256) (s₁ := S128x128) (s₂ := S128x128) 1 _ _ _ (ix2 k j) rfl rfl (ix2 k ⟨j.val - 128, by omega⟩)
      (fun b => match b with | ⟨0, _⟩ => fun _ => rfl | ⟨1, _⟩ => fun hb => absurd rfl hb)
      (by show j.val - 128 + 128 = j.val; omega)

/-- The second pair of weight matrices side by side, likewise. -/
theorem h0_v22 (k : Fin 128) (j : Fin 256) : StableHlo.after hostOps0 W main_v22 (ix2 k j)
    = if h : j.val < 128 then W main_arg3 (ix2 k ⟨j.val, h⟩) else W main_arg10 (ix2 k ⟨j.val - 128, by omega⟩) := by
  show (StableHlo.after hostOps0 W (Proc.devRef .tc main_v22) : S128x256.Idx → EReal) (ix2 k j) = _
  simp only [hostOps0]
  after_results_simp
  by_cases h : j.val < 128
  · rw [dif_pos h]
    exact concatenate_pair_apply_left (t := S128x256) (s₁ := S128x128) (s₂ := S128x128) 1 _ _ _ (ix2 k j) rfl (ix2 k ⟨j.val, h⟩)
      (fun b => match b with | ⟨0, _⟩ => rfl | ⟨1, _⟩ => rfl)
  · rw [dif_neg h]
    exact concatenate_pair_apply_right (t := S128x256) (s₁ := S128x128) (s₂ := S128x128) 1 _ _ _ (ix2 k j) rfl rfl (ix2 k ⟨j.val - 128, by omega⟩)
      (fun b => match b with | ⟨0, _⟩ => fun _ => rfl | ⟨1, _⟩ => fun hb => absurd rfl hb)
      (by show j.val - 128 + 128 = j.val; omega)

/-- The row of scales of the first two layers: entry `j` is the first layer's scale at `j` for `j < 128`, the
    second layer's at `j - 128` otherwise. -/
theorem h0_v24 (j : Fin 256) : StableHlo.after hostOps0 W main_v24 (ix2 0 j)
    = if h : j.val < 128 then W main_arg5 (ix1 ⟨j.val, h⟩) *ₑ Ideal.rsqrt (W main_arg8 (ix1 ⟨j.val, h⟩) +ₑ epsE)
      else W main_arg12 (ix1 ⟨j.val - 128, by omega⟩) *ₑ Ideal.rsqrt (W main_arg15 (ix1 ⟨j.val - 128, by omega⟩) +ₑ epsE) := by
  show (StableHlo.after hostOps0 W (Proc.devRef .tc main_v24) : S1x256.Idx → EReal) (ix2 0 j) = _
  simp only [hostOps0]
  after_results_simp
  refine (broadcastInDim_apply (s := S256) (t := S1x256) _ _ _ (ix2 0 j) (ix1 j) (fun a => match a with | ⟨0, _⟩ => rfl)).trans ?_
  by_cases h : j.val < 128
  · rw [dif_pos h]
    exact concatenate_pair_apply_left (t := S256) (s₁ := S128) (s₂ := S128) 0 _ _ _ (ix1 j) rfl (ix1 ⟨j.val, h⟩)
      (fun b => match b with | ⟨0, _⟩ => rfl)
  · rw [dif_neg h]
    exact concatenate_pair_apply_right (t := S256) (s₁ := S128) (s₂ := S128) 0 _ _ _ (ix1 j) rfl rfl (ix1 ⟨j.val - 128, by omega⟩)
      (fun b => match b with | ⟨0, _⟩ => fun hb => absurd rfl hb)
      (by show j.val - 128 + 128 = j.val; omega)

/-- The row of shifts of the first two layers, likewise. -/
theorem h0_v26 (j : Fin 256) : StableHlo.after hostOps0 W main_v26 (ix2 0 j)
    = if h : j.val < 128 then W main_arg6 (ix1 ⟨j.val, h⟩) +ₑ (W main_arg4 (ix1 ⟨j.val, h⟩) -ₑ W main_arg7 (ix1 ⟨j.val, h⟩)) *ₑ (W main_arg5 (ix1 ⟨j.val, h⟩) *ₑ Ideal.rsqrt (W main_arg8 (ix1 ⟨j.val, h⟩) +ₑ epsE))
      else W main_arg13 (ix1 ⟨j.val - 128, by omega⟩) +ₑ (W main_arg11 (ix1 ⟨j.val - 128, by omega⟩) -ₑ W main_arg14 (ix1 ⟨j.val - 128, by omega⟩)) *ₑ (W main_arg12 (ix1 ⟨j.val - 128, by omega⟩) *ₑ Ideal.rsqrt (W main_arg15 (ix1 ⟨j.val - 128, by omega⟩) +ₑ epsE)) := by
  show (StableHlo.after hostOps0 W (Proc.devRef .tc main_v26) : S1x256.Idx → EReal) (ix2 0 j) = _
  simp only [hostOps0]
  after_results_simp
  refine (broadcastInDim_apply (s := S256) (t := S1x256) _ _ _ (ix2 0 j) (ix1 j) (fun a => match a with | ⟨0, _⟩ => rfl)).trans ?_
  by_cases h : j.val < 128
  · rw [dif_pos h]
    exact concatenate_pair_apply_left (t := S256) (s₁ := S128) (s₂ := S128) 0 _ _ _ (ix1 j) rfl (ix1 ⟨j.val, h⟩)
      (fun b => match b with | ⟨0, _⟩ => rfl)
  · rw [dif_neg h]
    exact concatenate_pair_apply_right (t := S256) (s₁ := S128) (s₂ := S128) 0 _ _ _ (ix1 j) rfl rfl (ix1 ⟨j.val - 128, by omega⟩)
      (fun b => match b with | ⟨0, _⟩ => fun hb => absurd rfl hb)
      (by show j.val - 128 + 128 = j.val; omega)

/-- The third layer's scale. -/
theorem h0_v17 (j : Fin 128) : StableHlo.after hostOps0 W main_v17 (ix1 j) = W main_arg19 (ix1 j) *ₑ Ideal.rsqrt (W main_arg22 (ix1 j) +ₑ epsE) := by
  show (StableHlo.after hostOps0 W (Proc.devRef .tc main_v17) : S128.Idx → EReal) (ix1 j) = _
  simp only [hostOps0]
  after_results_simp
  rfl

/-- The third layer's shift. -/
theorem h0_v20 (j : Fin 128) : StableHlo.after hostOps0 W main_v20 (ix1 j)
    = W main_arg20 (ix1 j) +ₑ (W main_arg18 (ix1 j) -ₑ W main_arg21 (ix1 j)) *ₑ (W main_arg19 (ix1 j) *ₑ Ideal.rsqrt (W main_arg22 (ix1 j) +ₑ epsE)) := by
  show (StableHlo.after hostOps0 W (Proc.devRef .tc main_v20) : S128.Idx → EReal) (ix1 j) = _
  simp only [hostOps0]
  after_results_simp
  rfl

/-! ## The second stretch: the third layer's scale and shift as one-row matrices -/

theorem h2_v29 (j : Fin 128) : StableHlo.after hostOps2 W main_v29 (ix2 0 j) = W main_v17 (ix1 j) := by
  show (StableHlo.after hostOps2 W (Proc.devRef .tc main_v29) : S1x128.Idx → EReal) (ix2 0 j) = _
  simp only [hostOps2]
  after_results
  exact broadcastInDim_apply (s := S128) (t := S1x128) _ _ _ (ix2 0 j) (ix1 j) (fun a => match a with | ⟨0, _⟩ => rfl)

theorem h2_v30 (j : Fin 128) : StableHlo.after hostOps2 W main_v30 (ix2 0 j) = W main_v20 (ix1 j) := by
  show (StableHlo.after hostOps2 W (Proc.devRef .tc main_v30) : S1x128.Idx → EReal) (ix2 0 j) = _
  simp only [hostOps2]
  after_results
  exact broadcastInDim_apply (s := S128) (t := S1x128) _ _ _ (ix2 0 j) (ix1 j) (fun a => match a with | ⟨0, _⟩ => rfl)

/-! ## The third stretch: three blocks of 128 columns side by side -/

/-- Column `j` of the [10000,384] result: the input's column `j` for `j < 128`; for `128 ≤ j < 256` column `j - 128`
    of the [10000,256] array (the slice keeps its left 128 columns, at offset zero); the third array's column
    `j - 256` otherwise. -/
theorem h3_v33 (i : Fin 10000) (j : Fin 384) : StableHlo.after hostOps3 W main_v33 (ix2 i j)
    = if h : j.val < 128 then W main_arg0 (ix2 i ⟨j.val, h⟩)
      else if h' : j.val < 256 then W main_v28_0 (ix2 i ⟨j.val - 128, by omega⟩)
      else W main_v31 (ix2 i ⟨j.val - 256, by omega⟩) := by
  show (StableHlo.after hostOps3 W (Proc.devRef .tc main_v33) : S10000x384.Idx → EReal) (ix2 i j) = _
  simp only [hostOps3]
  simp (disch := decide) only [StableHlo.after_cons, StableHlo.after_nil, StableHlo.nary_result', StableHlo.unary_result',
    StableHlo.unary_result_ne', Matrix.cons_val_zero, Matrix.cons_val_one, Matrix.cons_val_two, Matrix.head_cons, Matrix.tail_cons]
  show concatenate S10000x384 1 [⟨S10000x128, W (Proc.devRef .tc main_arg0)⟩,
      ⟨S10000x128, extractStridedSlice S10000x128 ![0, 0] (W (Proc.devRef .tc main_v28_0)) slices_S10000x256_S10000x128_0_0⟩,
      ⟨S10000x128, W (Proc.devRef .tc main_v31)⟩] concatenates_S10000x128_S10000x128_S10000x128_S10000x384_d1 (ix2 i j) = _
  by_cases h : j.val < 128
  · rw [dif_pos h]
    exact concatenate_apply_piece (t := S10000x384) 1 _ _ (ix2 i j) 0 (by show 0 < 3; omega) S10000x128 _ rfl rfl 0 rfl (ix2 i ⟨j.val, h⟩)
      (fun b => match b with | ⟨0, _⟩ => fun _ => rfl | ⟨1, _⟩ => fun hb => absurd rfl hb)
      (by show 0 + j.val = j.val; omega)
  · rw [dif_neg h]
    by_cases h' : j.val < 256
    · rw [dif_pos h']
      refine (concatenate_apply_piece (t := S10000x384) 1 _ _ (ix2 i j) 1 (by show 1 < 3; omega) S10000x128 _ rfl rfl 128 rfl
        (ix2 i ⟨j.val - 128, by omega⟩)
        (fun b => match b with | ⟨0, _⟩ => fun _ => rfl | ⟨1, _⟩ => fun hb => absurd rfl hb)
        (by show 128 + (j.val - 128) = j.val; omega)).trans ?_
      exact slice2_axis1_apply 0 _ _ i ⟨j.val - 128, by omega⟩ ⟨j.val - 128, by omega⟩ (by show j.val - 128 = 0 + (j.val - 128); omega)
    · rw [dif_neg h']
      exact concatenate_apply_piece (t := S10000x384) 1 _ _ (ix2 i j) 2 (by show 2 < 3; omega) S10000x128 _ rfl rfl 256 rfl
        (ix2 i ⟨j.val - 256, by omega⟩)
        (fun b => match b with | ⟨0, _⟩ => fun _ => rfl | ⟨1, _⟩ => fun hb => absurd rfl hb)
        (by show 256 + (j.val - 256) = j.val; omega)

end Cert.KernelIdeal.Rgn
-- ==== Proof.KI.Value.lean ====
/-
  The value of the kernel program, over the extended reals.

  The program folds each layer's bias and batch norm into one scale and one shift per column, multiplies the input by the
  first layer's and the stacked pair's lower layer's weights side by side, aggregates over the adjacency, adds the self
  term, scales, shifts and clamps, does the same once more for the upper layer of the pair, and returns the input, the
  first layer's output and the pair's output side by side.  Here the array it returns is read off the last buffer
  contents of the run and shown, index by index, to be the folded block `Cert.Spec.kerBlock` of the launch memory's
  argument arrays: each region's output array is the function its write-backs leave, each host-computed array is the
  function its operations compute, every other array keeps its contents, and the pieces are put together column range
  by column range.
-/
import proofs.«175746_g1967095022037_cont_8to1_1256_3_alg».proof.Proof.KI.Run
import proofs.«175746_g1967095022037_cont_8to1_1256_3_alg».proof.Proof.KI.Arr0
import proofs.«175746_g1967095022037_cont_8to1_1256_3_alg».proof.Proof.KI.Arr1
import proofs.«175746_g1967095022037_cont_8to1_1256_3_alg».proof.Proof.KI.Arr2
import proofs.«175746_g1967095022037_cont_8to1_1256_3_alg».proof.Proof.KI.Host
import proofs.«175746_g1967095022037_cont_8to1_1256_3_alg».proof.Proof.Spec

set_option maxRecDepth 16384

noncomputable section

namespace Cert.KernelIdeal.Rgn
open Idealize.ShloMosaic Idealize.ShloMosaic.TcCoe Idealize.ShloMosaic.ValueIdx Cert.KernelIdeal Cert.KernelIdeal.Gen
open Cert.Spec (mm conv kerLayer side kerBlock mat vec layerOf)

variable (m : (ℓ : Loc nD τ sig) → Buf (Elt Ideal) ℓ) (c : Dev nD)

/-- the layers' parameters and the two data arrays, read off the launch memory -/
abbrev argA : Fin 10000 → Fin 10000 → EReal := Cert.Spec.mat (R := 10000) (C := 10000) (m ((c : Thread nD τ).loc main_arg1))
abbrev argX : Fin 10000 → Fin 128 → EReal := Cert.Spec.mat (R := 10000) (C := 128) (m ((c : Thread nD τ).loc main_arg0))
abbrev lay0 : Cert.Spec.Layer 128 128 := Cert.Spec.layerOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
abbrev lay1a : Cert.Spec.Layer 128 128 := Cert.Spec.layerOf (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
abbrev lay1b : Cert.Spec.Layer 128 128 := Cert.Spec.layerOf (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))

/-- The first layer of the input. -/
abbrev valY0 : Fin 10000 → Fin 128 → EReal :=
  kerLayer epsE (argA m c) (argX m c) (lay0 m c).W (lay0 m c).S (lay0 m c).b (lay0 m c).g (lay0 m c).be (lay0 m c).mu (lay0 m c).v
/-- The lower layer of the stacked pair, of the input. -/
abbrev valY1a : Fin 10000 → Fin 128 → EReal :=
  kerLayer epsE (argA m c) (argX m c) (lay1a m c).W (lay1a m c).S (lay1a m c).b (lay1a m c).g (lay1a m c).be (lay1a m c).mu (lay1a m c).v
/-- The upper layer of the stacked pair, of the lower one's output. -/
abbrev valY1 : Fin 10000 → Fin 128 → EReal :=
  kerLayer epsE (argA m c) (valY1a m c) (lay1b m c).W (lay1b m c).S (lay1b m c).b (lay1b m c).g (lay1b m c).be (lay1b m c).mu (lay1b m c).v

/-! ## Buffers that keep their contents

An array that neither a host operation nor a region writes holds, at every boundary, what the launch memory holds. -/

theorem valKeep1 (r : Ref sig .tc) (h1 : r ∉ hostOps0_W) : V1 m c r = m ((c : Thread nD τ).loc r) :=
  V1_of m c r h1
theorem valKeep2 (r : Ref sig .tc) (h1 : r ∉ hostOps0_W) (h2 : r ∉ ([main_v27] : List (Ref sig .tc))) :
    V2 m (outs m) c r = m ((c : Thread nD τ).loc r) :=
  (V2_of m _ c r h2).trans (valKeep1 m c r h1)
theorem valKeep3 (r : Ref sig .tc) (h1 : r ∉ hostOps0_W) (h2 : r ∉ ([main_v27] : List (Ref sig .tc)))
    (h3 : r ∉ ([main_v28_0, main_v28_1] : List (Ref sig .tc))) : V3 m (outs m) c r = m ((c : Thread nD τ).loc r) :=
  (V3_of m _ c r h3).trans (valKeep2 m c r h1 h2)
theorem valKeep4 (r : Ref sig .tc) (h1 : r ∉ hostOps0_W) (h2 : r ∉ ([main_v27] : List (Ref sig .tc)))
    (h3 : r ∉ ([main_v28_0, main_v28_1] : List (Ref sig .tc))) (h4 : r ∉ hostOps2_W) :
    V4 m (outs m) c r = m ((c : Thread nD τ).loc r) :=
  (V4_of m _ c r h4).trans (valKeep3 m c r h1 h2 h3)
theorem valKeep5 (r : Ref sig .tc) (h1 : r ∉ hostOps0_W) (h2 : r ∉ ([main_v27] : List (Ref sig .tc)))
    (h3 : r ∉ ([main_v28_0, main_v28_1] : List (Ref sig .tc))) (h4 : r ∉ hostOps2_W)
    (h5 : r ∉ ([main_v31] : List (Ref sig .tc))) : V5 m (outs m) c r = m ((c : Thread nD τ).loc r) :=
  (V5_of m _ c r h5).trans (valKeep4 m c r h1 h2 h3 h4)

/-! ## What a region's output array holds right after the region -/

theorem valV2_27 : V2 m (outs m) c main_v27 = outs m 2 main_v27 c := Function.update_self _ _ _
theorem valV3_280 : V3 m (outs m) c main_v28_0 = outs m 3 main_v28_0 c :=
  (Function.update_of_ne (StableHlo.devRef_ne_of_ne (by decide) :
    (Proc.devRef .tc main_v28_0 : DevRef τ sig) ≠ Proc.devRef .tc main_v28_1) _ _).trans (Function.update_self _ _ _)
theorem valV3_281 : V3 m (outs m) c main_v28_1 = outs m 3 main_v28_1 c := Function.update_self _ _ _
theorem valV5_31 : V5 m (outs m) c main_v31 = outs m 5 main_v31 c := Function.update_self _ _ _

/-! ## The host-computed arrays, in the layers' parameters -/

/-- The joined weights: columns below 128 are the first layer's, the others the stacked pair's lower layer's. -/
theorem valW (k : Fin 128) (j : Fin 256) : mat (R := 128) (C := 256) (V1 m c main_v21) k j
    = if h : j.val < 128 then (lay0 m c).W k ⟨j.val, h⟩ else (lay1a m c).W k ⟨j.val - 128, by omega⟩ :=
  h0_v21 (V0 m c) k j
/-- The joined self weights, likewise. -/
theorem valS (k : Fin 128) (j : Fin 256) : mat (R := 128) (C := 256) (V1 m c main_v22) k j
    = if h : j.val < 128 then (lay0 m c).S k ⟨j.val, h⟩ else (lay1a m c).S k ⟨j.val - 128, by omega⟩ :=
  h0_v22 (V0 m c) k j
/-- The joined folded scales. -/
theorem valScale (j : Fin 256) : mat (R := 1) (C := 256) (V1 m c main_v24) 0 j
    = if h : j.val < 128 then (lay0 m c).g ⟨j.val, h⟩ * Ideal.rsqrt ((lay0 m c).v ⟨j.val, h⟩ + epsE)
      else (lay1a m c).g ⟨j.val - 128, by omega⟩ * Ideal.rsqrt ((lay1a m c).v ⟨j.val - 128, by omega⟩ + epsE) :=
  h0_v24 (V0 m c) j
/-- The joined folded shifts. -/
theorem valShift (j : Fin 256) : mat (R := 1) (C := 256) (V1 m c main_v26) 0 j
    = if h : j.val < 128 then (lay0 m c).be ⟨j.val, h⟩ + ((lay0 m c).b ⟨j.val, h⟩ - (lay0 m c).mu ⟨j.val, h⟩) * ((lay0 m c).g ⟨j.val, h⟩ * Ideal.rsqrt ((lay0 m c).v ⟨j.val, h⟩ + epsE))
      else (lay1a m c).be ⟨j.val - 128, by omega⟩ + ((lay1a m c).b ⟨j.val - 128, by omega⟩ - (lay1a m c).mu ⟨j.val - 128, by omega⟩) * ((lay1a m c).g ⟨j.val - 128, by omega⟩ * Ideal.rsqrt ((lay1a m c).v ⟨j.val - 128, by omega⟩ + epsE)) :=
  h0_v26 (V0 m c) j
/-- The upper layer's folded scale, as the row the last region reads. -/
theorem valScale1 (j : Fin 128) : mat (R := 1) (C := 128) (V4 m (outs m) c main_v29) 0 j
    = (lay1b m c).g j * Ideal.rsqrt ((lay1b m c).v j + epsE) :=
  (h2_v29 (V3 m (outs m) c) j).trans <|
    (congrFun ((V3_of m (outs m) c main_v17 (by decide)).trans (V2_of m (outs m) c main_v17 (by decide))) (ix1 j)).trans
      (h0_v17 (V0 m c) j)
/-- The upper layer's folded shift, likewise. -/
theorem valShift1 (j : Fin 128) : mat (R := 1) (C := 128) (V4 m (outs m) c main_v30) 0 j
    = (lay1b m c).be j + ((lay1b m c).b j - (lay1b m c).mu j) * ((lay1b m c).g j * Ideal.rsqrt ((lay1b m c).v j + epsE)) :=
  (h2_v30 (V3 m (outs m) c) j).trans <|
    (congrFun ((V3_of m (outs m) c main_v20 (by decide)).trans (V2_of m (outs m) c main_v20 (by decide))) (ix1 j)).trans
      (h0_v20 (V0 m c) j)

/-! ## The regions' outputs -/

/-- The first region leaves the input times the joined weights: in each half of the columns, the input times that
    layer's weights. -/
theorem val27 (k : Fin 10000) (j : Fin 256) : mat (R := 10000) (C := 256) (V2 m (outs m) c main_v27) k j
    = if h : j.val < 128 then mm (argX m c) (lay0 m c).W k ⟨j.val, h⟩ else mm (argX m c) (lay1a m c).W k ⟨j.val - 128, by omega⟩ := by
  have e0 : mat (R := 10000) (C := 256) (V2 m (outs m) c main_v27) k j
      = ∑ l : Fin 128, mat (R := 10000) (C := 128) (V1 m c main_arg0) k l * mat (R := 128) (C := 256) (V1 m c main_v21) l j :=
    (congrFun ((valV2_27 m c).trans (outs_27_eq m c)) (ix2 k j)).trans (arr27 (atTc (V1 m)) c k j)
  rw [e0]
  simp only [valKeep1 m c main_arg0 (by decide), valW m c]
  by_cases h : j.val < 128
  · simp only [dif_pos h]; rfl
  · simp only [dif_neg h]; rfl

/-- The second region's first output: in each half of the columns, that layer of the input. -/
theorem val280 (i : Fin 10000) (j : Fin 256) : mat (R := 10000) (C := 256) (V3 m (outs m) c main_v28_0) i j
    = if h : j.val < 128 then valY0 m c i ⟨j.val, h⟩ else valY1a m c i ⟨j.val - 128, by omega⟩ := by
  have e0 : mat (R := 10000) (C := 256) (V3 m (outs m) c main_v28_0) i j
      = max ((∑ k : Fin 10000, mat (R := 10000) (C := 10000) (V2 m (outs m) c main_arg1) i k * mat (R := 10000) (C := 256) (V2 m (outs m) c main_v27) k j
          + ∑ l : Fin 128, mat (R := 10000) (C := 128) (V2 m (outs m) c main_arg0) i l * mat (R := 128) (C := 256) (V2 m (outs m) c main_v22) l j)
          * mat (R := 1) (C := 256) (V2 m (outs m) c main_v24) 0 j + mat (R := 1) (C := 256) (V2 m (outs m) c main_v26) 0 j) 0 :=
    (congrFun ((valV3_280 m c).trans (outs_280_eq m c)) (ix2 i j)).trans (arr280 (atTc (V2 m (outs m))) c i j)
  rw [e0]
  simp only [valKeep2 m c main_arg1 (by decide) (by decide), valKeep2 m c main_arg0 (by decide) (by decide), val27 m c,
    V2_of m (outs m) c main_v22 (by decide), V2_of m (outs m) c main_v24 (by decide),
    V2_of m (outs m) c main_v26 (by decide), valS m c, valScale m c, valShift m c]
  by_cases h : j.val < 128
  · simp only [dif_pos h]; rfl
  · simp only [dif_neg h]; rfl

/-- The upper half of the second region's first output is the lower layer of the stacked pair. -/
theorem val280hi (i : Fin 10000) (l : Fin 128) :
    mat (R := 10000) (C := 256) (V3 m (outs m) c main_v28_0) i ⟨128 + l.val, by omega⟩ = valY1a m c i l := by
  rw [val280 m c i ⟨128 + l.val, by omega⟩, dif_neg (show ¬ (128 + l.val < 128) by omega)]
  exact congrArg (valY1a m c i) (Fin.ext (show 128 + l.val - 128 = l.val by omega))

/-- The second region's second output: the lower layer's output times the upper layer's weights. -/
theorem val281 (k : Fin 10000) (j : Fin 128) : mat (R := 10000) (C := 128) (V3 m (outs m) c main_v28_1) k j
    = mm (valY1a m c) (lay1b m c).W k j := by
  have hZ := (outs_280_eq m c).symm.trans (valV3_280 m c).symm
  have e1 := arr281 (atTc (V2 m (outs m))) c k j
  rw [hZ] at e1
  have e0 : mat (R := 10000) (C := 128) (V3 m (outs m) c main_v28_1) k j
      = ∑ l : Fin 128, mat (R := 10000) (C := 256) (V3 m (outs m) c main_v28_0) k ⟨128 + l.val, by omega⟩ * mat (R := 128) (C := 128) (V2 m (outs m) c main_arg16) l j :=
    (congrFun ((valV3_281 m c).trans (outs_281_eq m c)) (ix2 k j)).trans e1
  rw [e0]
  simp only [val280hi m c, valKeep2 m c main_arg16 (by decide) (by decide)]
  rfl

/-- The third region's output: the upper layer of the stacked pair. -/
theorem val31 (i : Fin 10000) (j : Fin 128) : mat (R := 10000) (C := 128) (V5 m (outs m) c main_v31) i j = valY1 m c i j := by
  have e0 : mat (R := 10000) (C := 128) (V5 m (outs m) c main_v31) i j
      = max ((∑ k : Fin 10000, mat (R := 10000) (C := 10000) (V4 m (outs m) c main_arg1) i k * mat (R := 10000) (C := 128) (V4 m (outs m) c main_v28_1) k j
          + ∑ l : Fin 128, mat (R := 10000) (C := 256) (V4 m (outs m) c main_v28_0) i ⟨128 + l.val, by omega⟩ * mat (R := 128) (C := 128) (V4 m (outs m) c main_arg17) l j)
          * mat (R := 1) (C := 128) (V4 m (outs m) c main_v29) 0 j + mat (R := 1) (C := 128) (V4 m (outs m) c main_v30) 0 j) 0 :=
    (congrFun ((valV5_31 m c).trans (outs_31_eq m c)) (ix2 i j)).trans (arr31 (atTc (V4 m (outs m))) c i j)
  rw [e0]
  simp only [valKeep4 m c main_arg1 (by decide) (by decide) (by decide) (by decide),
    valKeep4 m c main_arg17 (by decide) (by decide) (by decide) (by decide),
    V4_of m (outs m) c main_v28_1 (by decide), V4_of m (outs m) c main_v28_0 (by decide),
    val281 m c, val280hi m c, valScale1 m c, valShift1 m c]
  rfl

/-! ## The returned array -/

/-- The array the program returns is the block of the launch memory's arguments: the input, its first layer, and the
    stacked pair of layers, side by side. -/
theorem kernel_value (i : Fin 10000) (j : Fin 384) :
    V6 m (outs m) c main_v33 (ix2 i j) = Cert.Spec.kerBlock epsE (argA m c) (argX m c) (lay0 m c) (lay1a m c) (lay1b m c) i j := by
  have e0 : mat (R := 10000) (C := 384) (V6 m (outs m) c main_v33) i j
      = if h : j.val < 128 then mat (R := 10000) (C := 128) (V5 m (outs m) c main_arg0) i ⟨j.val, h⟩
        else if h' : j.val < 256 then mat (R := 10000) (C := 256) (V5 m (outs m) c main_v28_0) i ⟨j.val - 128, by omega⟩
        else mat (R := 10000) (C := 128) (V5 m (outs m) c main_v31) i ⟨j.val - 256, by omega⟩ :=
    h3_v33 (V5 m (outs m) c) i j
  show mat (R := 10000) (C := 384) (V6 m (outs m) c main_v33) i j = side (argX m c) (valY0 m c) (valY1 m c) i j
  rw [e0]
  unfold side
  by_cases h : j.val < 128
  · rw [dif_pos h, dif_pos h, valKeep5 m c main_arg0 (by decide) (by decide) (by decide) (by decide) (by decide)]
  · rw [dif_neg h, dif_neg h]
    by_cases h' : j.val < 256
    · rw [dif_pos h', dif_pos h', V5_of m (outs m) c main_v28_0 (by decide), V4_of m (outs m) c main_v28_0 (by decide),
        val280 m c i ⟨j.val - 128, by omega⟩, dif_pos (show j.val - 128 < 128 by omega)]
    · rw [dif_neg h', dif_neg h', val31]

end Cert.KernelIdeal.Rgn

end
-- ==== Proof.RefValue.lean ====
/-
  The plain program's result, entry by entry, is the block of the specification.

  The program computes three graph-convolution layers and lays the input and two of the results side by side. Each
  layer is, in order: the product of the features by a weight matrix, the product of the adjacency by that, the
  product of the features by a second weight matrix, their sum, the bias added along the rows, the running mean
  subtracted, the quotient by the square root of the running variance plus a constant, the scale multiplied in, the
  shift added, and the maximum with zero. Every one of these acts entry by entry except the three products, which at
  row `r` and column `c` are the sum over the contracted index of the left operand's row `r` times the right
  operand's column `c`. Read at an entry, a layer is therefore `Cert.Spec.refLayer` of the same arrays taken as
  functions of a row and a column (`layerArr_apply`), whatever the feature array is: for the stacked layer it is the
  layer before it.

  Two matrices side by side read, at a column, the left one where the column is below its width and the right one
  at the column less that width otherwise (`cat_left`, `cat_right`); the result's 384 columns are the input's 128, the
  first layer's 128, and the stacked pair's 128, which is `Cert.Spec.side`.
-/
import proofs.«175746_g1967095022037_cont_8to1_1256_3_alg».proof.Proof.Gen.ReferenceIdeal.Read
import proofs.«175746_g1967095022037_cont_8to1_1256_3_alg».proof.Proof.Spec
import proofs.«175746_g1967095022037_cont_8to1_1256_3_alg».proof.Proof.LibAffineRows
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal Cert.ReferenceIdeal.Gen

/-- The constant added to the running variance: the single-precision number nearest to one hundred-thousandth. -/
abbrev epsE : EReal := Ideal.ofBits .f32 0x3727C5AC#32

/-! ## Two matrices side by side, read at a column -/

section Cat
variable {R n1 n2 n : ℕ}

/-- At a column below the left matrix's width: the left matrix, at that column. -/
theorem cat_left (h : Shape.Concatenates [(⟨2, ![R, n1]⟩ : Shape), ⟨2, ![R, n2]⟩] ⟨2, ![R, n]⟩ 1)
    (x : (⟨2, ![R, n1]⟩ : Shape).Idx → EReal) (y : (⟨2, ![R, n2]⟩ : Shape).Idx → EReal) (i : Fin R) (j : Fin n)
    (hj : j.val < n1) :
    concatenate ⟨2, ![R, n]⟩ 1 [⟨⟨2, ![R, n1]⟩, x⟩, ⟨⟨2, ![R, n2]⟩, y⟩] h (ix2 i j) = x (ix2 i ⟨j.val, hj⟩) :=
  concatenate_pair_apply_left 1 x y h (ix2 i j) rfl (ix2 i ⟨j.val, hj⟩)
    (fun b => by match b with | ⟨0, _⟩ => rfl | ⟨1, _⟩ => rfl)

/-- At a column at or past the left matrix's width: the right matrix, at the column less that width. -/
theorem cat_right (h : Shape.Concatenates [(⟨2, ![R, n1]⟩ : Shape), ⟨2, ![R, n2]⟩] ⟨2, ![R, n]⟩ 1)
    (x : (⟨2, ![R, n1]⟩ : Shape).Idx → EReal) (y : (⟨2, ![R, n2]⟩ : Shape).Idx → EReal) (i : Fin R) (j : Fin n)
    (hj : n1 ≤ j.val) (hj2 : j.val - n1 < n2) :
    concatenate ⟨2, ![R, n]⟩ 1 [⟨⟨2, ![R, n1]⟩, x⟩, ⟨⟨2, ![R, n2]⟩, y⟩] h (ix2 i j) = y (ix2 i ⟨j.val - n1, hj2⟩) :=
  concatenate_pair_apply_right 1 x y h (ix2 i j) rfl rfl (ix2 i ⟨j.val - n1, hj2⟩)
    (fun b hb => by match b with | ⟨0, _⟩ => rfl | ⟨1, _⟩ => exact absurd rfl hb)
    (by show (j.val - n1) + n1 = j.val; omega)

end Cat

/-! ## The products are plain matrix products -/

/-- Features (or a layer's result) by a weight matrix: one contracted index, the left operand's column and the right
    operand's row. -/
theorem plainXW : Cert.Lib.PlainDot (R := 10000) (K := 128) (M := 128) dot_S10000x128_S128x128_S10000x128_1_0_0_1_n_n :=
  ⟨rfl, rfl, Read.lhs_main_v0_0, Read.lhs_main_v0_1, Read.rhs_main_v0_0, Read.rhs_main_v0_1⟩

/-- The adjacency by a node-by-feature matrix: the same, over the 10000 nodes. -/
theorem plainA : Cert.Lib.PlainDot (R := 10000) (K := 10000) (M := 128) dot_S10000x10000_S10000x128_S10000x128_1_0_0_1_n_n :=
  ⟨rfl, rfl, Read.lhs_main_v1_0, Read.lhs_main_v1_1, Read.rhs_main_v1_0, Read.rhs_main_v1_1⟩

/-! ## One layer -/

/-- A vector laid as a row and repeated over the rows. -/
abbrev rows (b : FVec Ideal S128 .f32) : FVec Ideal S10000x128 .f32 :=
  broadcastInDim S10000x128 ![0, 1] bcast_S1x128_S10000x128_0_1 (broadcastInDim S1x128 ![1] bcast_S128_S1x128_1 b)

/-- One layer of the plain program as an array, its operations in the program's order, over any feature array. -/
def layerArr (A : FVec Ideal S10000x10000 .f32) (X : FVec Ideal S10000x128 .f32) (W S : FVec Ideal S128x128 .f32)
    (b g be mu v : FVec Ideal S128 .f32) : FVec Ideal S10000x128 .f32 :=
  maximumf
    (addf
      (mulf
        (Host.divf
          (subf
            (addf
              (addf
                (Host.dotGeneral dot_S10000x10000_S10000x128_S10000x128_1_0_0_1_n_n none A
                  (Host.dotGeneral dot_S10000x128_S128x128_S10000x128_1_0_0_1_n_n none X W))
                (Host.dotGeneral dot_S10000x128_S128x128_S10000x128_1_0_0_1_n_n none X S))
              (rows b))
            (rows mu))
          (rows (Host.sqrt (addf v (broadcastInDim S128 ![] bcast_S_S128 (constant S_ .f32 0x3727C5AC#32))))))
        (rows g))
      (rows be))
    (broadcastInDim S10000x128 ![] bcast_S_S10000x128 (constant S_ .f32 0x00000000#32))

/-- A layer at row `i`, column `j` is the specification's layer of the same arrays. -/
theorem layerArr_apply (A : FVec Ideal S10000x10000 .f32) (X : FVec Ideal S10000x128 .f32) (W S : FVec Ideal S128x128 .f32)
    (b g be mu v : FVec Ideal S128 .f32) (i : Fin 10000) (j : Fin 128) :
    layerArr A X W S b g be mu v (ix2 i j)
      = Cert.Spec.refLayer epsE (Cert.Spec.mat A) (Cert.Spec.mat X) (Cert.Spec.mat W) (Cert.Spec.mat S)
          (Cert.Spec.vec b) (Cert.Spec.vec g) (Cert.Spec.vec be) (Cert.Spec.vec mu) (Cert.Spec.vec v) i j := by
  -- the features by either weight matrix, at any entry
  have hXW : ∀ (w : FVec Ideal S128x128 .f32) (r : Fin 10000) (c : Fin 128),
      Host.dotGeneral dot_S10000x128_S128x128_S10000x128_1_0_0_1_n_n none X w (ix2 r c)
        = Cert.Spec.mm (Cert.Spec.mat X) (Cert.Spec.mat w) r c :=
    fun w r c => Cert.Lib.dotGeneral_apply plainXW X w r c
  -- the adjacency by the first of them
  have hA : Host.dotGeneral dot_S10000x10000_S10000x128_S10000x128_1_0_0_1_n_n none A
        (Host.dotGeneral dot_S10000x128_S128x128_S10000x128_1_0_0_1_n_n none X W) (ix2 i j)
      = Cert.Spec.mm (Cert.Spec.mat A) (Cert.Spec.mm (Cert.Spec.mat X) (Cert.Spec.mat W)) i j := by
    rw [Cert.Lib.dotGeneral_apply plainA]
    exact Finset.sum_congr rfl fun k _ => by rw [hXW]; rfl
  -- a vector repeated over the rows reads the vector at the column
  have hrows : ∀ u : FVec Ideal S128 .f32, rows u (ix2 i j) = u (ix1 j) :=
    fun u => Cert.Lib.bias_rows_apply u bcast_S128_S1x128_1 bcast_S1x128_S10000x128_0_1 i j
  -- the clamp's zero
  have hz : broadcastInDim S10000x128 ![] bcast_S_S10000x128 (constant (F := Ideal) S_ .f32 0x00000000#32) (ix2 i j) = 0 := by
    rw [broadcastInDim_scalar_apply]
    exact Ideal.ofBits_zero_f32
  unfold layerArr
  rw [maximumf_apply, addf_apply, mulf_apply, hostDivf_apply, subf_apply, addf_apply, addf_apply, hA, hXW,
    hrows b, hrows mu, hrows g, hrows be, hrows, hz]
  rfl

/-! ## The whole result -/

section Main
variable (x0 : S10000x128.Idx → EReal) (x1 : S10000x10000.Idx → EReal) (x2 x3 : S128x128.Idx → EReal)
    (x4 x5 x6 x7 x8 : S128.Idx → EReal) (x9 x10 : S128x128.Idx → EReal) (x11 x12 x13 x14 x15 : S128.Idx → EReal)
    (x16 x17 : S128x128.Idx → EReal) (x18 x19 x20 x21 x22 : S128.Idx → EReal)

/-- The result at a column of its first 128: the input. -/
theorem v70_lo (i : Fin 10000) (j : Fin 384) (h : j.val < 128) :
    Read.val_main_v70 (F := Ideal) x0 x1 x2 x3 x4 x5 x6 x7 x8 x9 x10 x11 x12 x13 x14 x15 x16 x17 x18 x19 x20 x21 x22 (ix2 i j)
      = x0 (ix2 i ⟨j.val, h⟩) := by
  unfold Read.val_main_v70
  rw [cat_left (n1 := 256) (n2 := 128) _ _ _ i j (by omega)]
  unfold Read.val_main_v23
  exact cat_left (n1 := 128) (n2 := 128) (n := 256) _ _ _ i ⟨j.val, _⟩ h

/-- At a column of its second 128: the first layer. -/
theorem v70_mid (i : Fin 10000) (j : Fin 384) (h : ¬ j.val < 128) (h' : j.val < 256) :
    Read.val_main_v70 (F := Ideal) x0 x1 x2 x3 x4 x5 x6 x7 x8 x9 x10 x11 x12 x13 x14 x15 x16 x17 x18 x19 x20 x21 x22 (ix2 i j)
      = Read.val_main_v22 (F := Ideal) x0 x1 x2 x3 x4 x5 x6 x7 x8 (ix2 i ⟨j.val - 128, by omega⟩) := by
  unfold Read.val_main_v70
  rw [cat_left (n1 := 256) (n2 := 128) _ _ _ i j h']
  unfold Read.val_main_v23
  exact cat_right (n1 := 128) (n2 := 128) (n := 256) _ _ _ i ⟨j.val, _⟩ (by show 128 ≤ j.val; omega)
    (by show j.val - 128 < 128; omega)

/-- At a column of its last 128: the stacked pair of layers. -/
theorem v70_hi (i : Fin 10000) (j : Fin 384) (h' : ¬ j.val < 256) :
    Read.val_main_v70 (F := Ideal) x0 x1 x2 x3 x4 x5 x6 x7 x8 x9 x10 x11 x12 x13 x14 x15 x16 x17 x18 x19 x20 x21 x22 (ix2 i j)
      = Read.val_main_v69 (F := Ideal) x0 x1 x9 x10 x11 x12 x13 x14 x15 x16 x17 x18 x19 x20 x21 x22
          (ix2 i ⟨j.val - 256, by omega⟩) := by
  unfold Read.val_main_v70
  exact cat_right (n1 := 256) (n2 := 128) _ _ _ i j (by omega) (by omega)

/-- The plain program's result at row `i`, column `j` is the specification's block, normalisation step by step. -/
theorem ref_value (i : Fin 10000) (j : Fin 384) :
    Cert.ReferenceIdeal.Read.val_main_v70 (F := Ideal) x0 x1 x2 x3 x4 x5 x6 x7 x8 x9 x10 x11 x12 x13 x14 x15 x16 x17 x18 x19 x20 x21 x22 (ix2 i j)
      = Cert.Spec.refBlock epsE (Cert.Spec.mat x1) (Cert.Spec.mat x0) (Cert.Spec.layerOf x2 x3 x4 x5 x6 x7 x8)
          (Cert.Spec.layerOf x9 x10 x11 x12 x13 x14 x15) (Cert.Spec.layerOf x16 x17 x18 x19 x20 x21 x22) i j := by
  -- the first layer of the input
  have e0 : ∀ (r : Fin 10000) (c : Fin 128), Read.val_main_v22 (F := Ideal) x0 x1 x2 x3 x4 x5 x6 x7 x8 (ix2 r c)
      = Cert.Spec.refLayer epsE (Cert.Spec.mat x1) (Cert.Spec.mat x0) (Cert.Spec.mat x2) (Cert.Spec.mat x3)
          (Cert.Spec.vec x4) (Cert.Spec.vec x5) (Cert.Spec.vec x6) (Cert.Spec.vec x7) (Cert.Spec.vec x8) r c :=
    fun r c => layerArr_apply x1 x0 x2 x3 x4 x5 x6 x7 x8 r c
  -- the lower layer of the stacked pair, as a function of row and column
  have e1 : Cert.Spec.mat (Read.val_main_v46 (F := Ideal) x0 x1 x9 x10 x11 x12 x13 x14 x15)
      = Cert.Spec.refLayer epsE (Cert.Spec.mat x1) (Cert.Spec.mat x0) (Cert.Spec.mat x9) (Cert.Spec.mat x10)
          (Cert.Spec.vec x11) (Cert.Spec.vec x12) (Cert.Spec.vec x13) (Cert.Spec.vec x14) (Cert.Spec.vec x15) :=
    funext fun r => funext fun c => layerArr_apply x1 x0 x9 x10 x11 x12 x13 x14 x15 r c
  -- the upper layer, over the lower one
  have e2 : ∀ (r : Fin 10000) (c : Fin 128),
      Read.val_main_v69 (F := Ideal) x0 x1 x9 x10 x11 x12 x13 x14 x15 x16 x17 x18 x19 x20 x21 x22 (ix2 r c)
      = Cert.Spec.refLayer epsE (Cert.Spec.mat x1)
          (Cert.Spec.refLayer epsE (Cert.Spec.mat x1) (Cert.Spec.mat x0) (Cert.Spec.mat x9) (Cert.Spec.mat x10)
            (Cert.Spec.vec x11) (Cert.Spec.vec x12) (Cert.Spec.vec x13) (Cert.Spec.vec x14) (Cert.Spec.vec x15))
          (Cert.Spec.mat x16) (Cert.Spec.mat x17)
          (Cert.Spec.vec x18) (Cert.Spec.vec x19) (Cert.Spec.vec x20) (Cert.Spec.vec x21) (Cert.Spec.vec x22) r c := by
    intro r c
    rw [← e1]
    exact layerArr_apply x1 (Read.val_main_v46 (F := Ideal) x0 x1 x9 x10 x11 x12 x13 x14 x15) x16 x17 x18 x19 x20 x21 x22 r c
  unfold Cert.Spec.refBlock Cert.Spec.side
  by_cases h : j.val < 128
  · rw [dif_pos h]
    exact v70_lo x0 x1 x2 x3 x4 x5 x6 x7 x8 x9 x10 x11 x12 x13 x14 x15 x16 x17 x18 x19 x20 x21 x22 i j h
  · rw [dif_neg h]
    by_cases h' : j.val < 256
    · rw [dif_pos h', v70_mid x0 x1 x2 x3 x4 x5 x6 x7 x8 x9 x10 x11 x12 x13 x14 x15 x16 x17 x18 x19 x20 x21 x22 i j h h']
      exact e0 _ _
    · rw [dif_neg h', v70_hi x0 x1 x2 x3 x4 x5 x6 x7 x8 x9 x10 x11 x12 x13 x14 x15 x16 x17 x18 x19 x20 x21 x22 i j h']
      exact e2 _ _

end Main

end Cert.ReferenceIdeal.RefValue

end
-- ==== Proof.BnLaw.lean ====
/-
  The normalisation law of a layer, over the extended reals.

  With every entry a real number, a finite sum of products is a real number, so the convolution `A (X W) + X S` is real.
  With `s = v + e` a positive real, `sqrt s` is the positive real square root and `rsqrt s` its reciprocal, and division by
  a nonzero real is the product with the reciprocal.  Both layers are then the maximum of zero and the coercion of one real
  expression: `(c + b - mu) * (1 / sqrt s) * g + be = c * (g * (sqrt s)⁻¹) + (be + (b - mu) * (g * (sqrt s)⁻¹))`.
  The block law is the layer law three times, the inner layer's real entries feeding the outer one.
-/
import proofs.«175746_g1967095022037_cont_8to1_1256_3_alg».proof.Proof.Spec

noncomputable section

namespace Cert.Spec

open Idealize.ShloMosaic

/-- The coercion of a finite sum of reals is the sum of the coercions. -/
theorem coe_sum_real {ι : Type*} (s : Finset ι) (a : ι → ℝ) :
    (∑ i ∈ s, (a i : EReal)) = ((∑ i ∈ s, a i : ℝ) : EReal) := by
  classical
  induction s using Finset.induction_on with
  | empty => simp
  | insert _ _ hns ih => rw [Finset.sum_insert hns, Finset.sum_insert hns, EReal.coe_add, ih]

/-- A product of matrices with real entries has real entries. -/
theorem mm_real {R K M : ℕ} {x : Fin R → Fin K → EReal} {w : Fin K → Fin M → EReal} (hx : Real2 x) (hw : Real2 w) :
    Real2 (mm x w) := by
  intro r c
  choose xa hxa using hx
  choose wa hwa using hw
  refine ⟨∑ k, xa r k * wa k c, ?_⟩
  unfold mm
  simp only [hxa, hwa, ← EReal.coe_mul]
  exact coe_sum_real _ _

/-- The convolution of real matrices has real entries. -/
theorem conv_real {N D H : ℕ} {A : Fin N → Fin N → EReal} {X : Fin N → Fin D → EReal} {W S : Fin D → Fin H → EReal}
    (hA : Real2 A) (hX : Real2 X) (hW : Real2 W) (hS : Real2 S) : Real2 (conv A X W S) := by
  intro i j
  obtain ⟨p, hp⟩ := mm_real hA (mm_real hX hW) i j
  obtain ⟨q, hq⟩ := mm_real hX hS i j
  exact ⟨p + q, by unfold conv; rw [hp, hq, EReal.coe_add]⟩

/-- At one entry: with every operand a real number and `v + e` positive, the folded scale-and-shift is the same real
    number as the step-by-step normalisation. -/
theorem fold_point {e c b g be mu v : EReal} (he : ∃ a : ℝ, e = (a : EReal)) (hc : ∃ a : ℝ, c = (a : EReal))
    (hb : ∃ a : ℝ, b = (a : EReal)) (hg : ∃ a : ℝ, g = (a : EReal)) (hbe : ∃ a : ℝ, be = (a : EReal))
    (hmu : ∃ a : ℝ, mu = (a : EReal)) (hv : ∃ a : ℝ, v = (a : EReal)) (pos : 0 < v + e) :
    ∃ r : ℝ, c * (g * Ideal.rsqrt (v + e)) + (be + (b - mu) * (g * Ideal.rsqrt (v + e))) = (r : EReal) ∧
      Ideal.div ((c + b) - mu) (Ideal.sqrt (v + e)) * g + be = (r : EReal) := by
  obtain ⟨ea, rfl⟩ := he
  obtain ⟨ca, rfl⟩ := hc
  obtain ⟨ba, rfl⟩ := hb
  obtain ⟨ga, rfl⟩ := hg
  obtain ⟨bea, rfl⟩ := hbe
  obtain ⟨mua, rfl⟩ := hmu
  obtain ⟨va, rfl⟩ := hv
  rw [← EReal.coe_add] at pos
  have hs : 0 < va + ea := EReal.coe_pos.mp pos
  have hq : 0 < Real.sqrt (va + ea) := Real.sqrt_pos.mpr hs
  refine ⟨ca * (ga * (Real.sqrt (va + ea))⁻¹) + (bea + (ba - mua) * (ga * (Real.sqrt (va + ea))⁻¹)), ?_, ?_⟩
  · rw [← EReal.coe_add va ea, Ideal.rsqrt_coe, if_neg (not_lt.mpr hs.le), if_neg hs.ne']
    simp only [← EReal.coe_mul, ← EReal.coe_add, ← EReal.coe_sub]
  · rw [← EReal.coe_add va ea, Ideal.sqrt_coe, if_neg (not_lt.mpr hs.le), Ideal.div_coe hq.ne']
    simp only [← EReal.coe_mul, ← EReal.coe_add, ← EReal.coe_sub]
    rw [EReal.coe_eq_coe_iff]
    field_simp
    ring

theorem layer_point {e : EReal} (he : ∃ a : ℝ, e = (a : EReal)) {N D H : ℕ} {A : Fin N → Fin N → EReal}
    {X : Fin N → Fin D → EReal} {l : Layer D H} (hA : Real2 A) (hX : Real2 X) (hl : l.Ok e) (i : Fin N) (j : Fin H) :
    ∃ r : ℝ, kerLayer e A X l.W l.S l.b l.g l.be l.mu l.v i j = (r : EReal) ∧
      refLayer e A X l.W l.S l.b l.g l.be l.mu l.v i j = (r : EReal) := by
  obtain ⟨r, hk, hr⟩ := fold_point he (conv_real hA hX hl.W hl.S i j) (hl.b j) (hl.g j) (hl.be j) (hl.mu j) (hl.v j)
    (hl.pos j)
  refine ⟨max r 0, ?_, ?_⟩
  · unfold kerLayer
    rw [hk, EReal.coe_strictMono.monotone.map_max, EReal.coe_zero]
  · unfold refLayer
    rw [hr, EReal.coe_strictMono.monotone.map_max, EReal.coe_zero]

/-- The folded layer equals the step-by-step layer where every operand is real and the variance plus `e` is positive. -/
theorem kerLayer_eq_refLayer {e : EReal} (he : ∃ a : ℝ, e = (a : EReal)) {N D H : ℕ} {A : Fin N → Fin N → EReal} {X : Fin N → Fin D → EReal} {l : Layer D H}
    (hA : Real2 A) (hX : Real2 X) (hl : l.Ok e) :
    kerLayer e A X l.W l.S l.b l.g l.be l.mu l.v = refLayer e A X l.W l.S l.b l.g l.be l.mu l.v := by
  funext i j
  obtain ⟨r, hk, hr⟩ := layer_point he hA hX hl i j
  rw [hk, hr]

/-- The folded layer of real operands has real entries. -/
theorem kerLayer_real {e : EReal} (he : ∃ a : ℝ, e = (a : EReal)) {N D H : ℕ} {A : Fin N → Fin N → EReal} {X : Fin N → Fin D → EReal} {l : Layer D H}
    (hA : Real2 A) (hX : Real2 X) (hl : l.Ok e) : Real2 (kerLayer e A X l.W l.S l.b l.g l.be l.mu l.v) := by
  intro i j
  obtain ⟨r, hk, _⟩ := layer_point he hA hX hl i j
  exact ⟨r, hk⟩

/-- The folded block equals the step-by-step block: the layer law three times, the inner layer's real entries feeding
    the outer one. -/
theorem kerBlock_eq_refBlock {e : EReal} (he : ∃ a : ℝ, e = (a : EReal)) {N : ℕ} {A : Fin N → Fin N → EReal} {X : Fin N → Fin 128 → EReal} {l0 l1a l1b : Layer 128 128}
    (hA : Real2 A) (hX : Real2 X) (h0 : l0.Ok e) (h1a : l1a.Ok e) (h1b : l1b.Ok e) :
    kerBlock e A X l0 l1a l1b = refBlock e A X l0 l1a l1b := by
  have hin := kerLayer_real he hA hX h1a
  unfold kerBlock refBlock
  rw [kerLayer_eq_refLayer he hA hX h0, kerLayer_eq_refLayer he hA hin h1b, kerLayer_eq_refLayer he hA hX h1a]

end Cert.Spec

end
-- ==== Proof.PreFacts.lean ====
/-
  The printed precondition read back at the extended reals. The precondition is a conjunction, by the one-bit
  `and`, of one "all elements" reduction per conjunct: for each of the 23 float inputs that every element has
  `|x| < +∞`, and for each of the three running variances `v` that every element has `v + ε > 0`, `ε` the
  batch-norm epsilon. On the extended reals `|x| = max x (-x)` is below `+∞` exactly when `x` is a real number,
  and a compare word that is 1 is the strict inequality it prints. The chain of operations is cut into parts;
  each part is read by a lemma of its own, from the last part back to the first.
-/
import proofs.«175746_g1967095022037_cont_8to1_1256_3_alg».proof.Pre_finite_inputs
import Idealize.ShloMosaic.Lib.ReduceAll
import Idealize.ShloMosaic.Lib.ValueIdx
import Idealize.ShloMosaic.PureOps.Ideal.Laws
noncomputable section
namespace Cert.PreFacts
open Idealize.ShloMosaic Cert.Pre_finite_inputs

/-- every entry of the array is a real number (neither infinity) -/
def IsReal {S : Shape} (x : S.Idx → EReal) : Prop := ∀ i, ∃ r : ℝ, x i = (r : EReal)
/-- the word of the batch-norm epsilon, f32(1e-5) -/
abbrev epsE : EReal := Ideal.ofBits .f32 0x3727C5AC#32

/-- the rank-0 shape has one index -/
instance : Subsingleton S_.Idx := ⟨fun a b => funext fun d => d.elim0⟩

/-- a one-bit word made from a Boolean is 1 exactly when the Boolean is true -/
theorem ofBool_one {b : Bool} (h : BitVec.ofBool b = 1#1) : b = true := by
  cases b
  · exact absurd h (by decide)
  · rfl

/-- the word 0x7F800000 denotes `+∞` -/
theorem inf_word : Ideal.ofBits .f32 0x7F800000#32 = ⊤ := by simp [Ideal.ofBits, Ideal.ieee]

/-- `|x| < +∞` on the extended reals, with `|x| = max x (-x)`: then `x` is a real. At `x = ⊥` and at
    `x = ⊤` the maximum is `⊤`, which is not below itself. -/
theorem real_of_word (x : EReal)
    (h : Ideal.cmp .olt (max x (-x)) (Ideal.ofBits .f32 0x7F800000#32) = 1#1) : ∃ r : ℝ, x = (r : EReal) := by
  rw [inf_word] at h
  have h' : max x (-x) < ⊤ := of_decide_eq_true (ofBool_one h)
  induction x using EReal.rec with
  | bot => simp at h'
  | coe r => exact ⟨r, rfl⟩
  | top => simp at h'

/-- the compare word of `v + ε > 0` being 1 is the strict inequality; the word `0x00000000` is `0` -/
theorem pos_of_word (x : EReal)
    (h : Ideal.cmp .ogt (x + epsE) (Ideal.ofBits .f32 0x00000000#32) = 1#1) : 0 < x + epsE := by
  rw [Ideal.ofBits_zero_f32] at h
  exact of_decide_eq_true (ofBool_one h)

/-- what parts 6 and 7 say of the arrays they name -/
structure T6 (a8 a15 a21 a22 : FVec Ideal S128 .f32) : Prop where
  r21 : IsReal (S := S128) a21
  r22 : IsReal (S := S128) a22
  p8 : ∀ i, 0 < a8 i + epsE
  p15 : ∀ i, 0 < a15 i + epsE
  p22 : ∀ i, 0 < a22 i + epsE

/-- what parts 5 to 7 say of the arrays they name -/
structure T5 (a8 a15 a18 a19 a20 a21 a22 : FVec Ideal S128 .f32) : Prop where
  r18 : IsReal (S := S128) a18
  r19 : IsReal (S := S128) a19
  r20 : IsReal (S := S128) a20
  rest : T6 a8 a15 a21 a22

/-- what parts 4 to 7 say of the arrays they name -/
structure T4 (a8 a14 a15 : FVec Ideal S128 .f32) (a16 a17 : FVec Ideal S128x128 .f32)
    (a18 a19 a20 a21 a22 : FVec Ideal S128 .f32) : Prop where
  r14 : IsReal (S := S128) a14
  r15 : IsReal (S := S128) a15
  r16 : IsReal (S := S128x128) a16
  r17 : IsReal (S := S128x128) a17
  rest : T5 a8 a15 a18 a19 a20 a21 a22

/-- what parts 3 to 7 say of the arrays they name -/
structure T3 (a8 a11 a12 a13 a14 a15 : FVec Ideal S128 .f32) (a16 a17 : FVec Ideal S128x128 .f32)
    (a18 a19 a20 a21 a22 : FVec Ideal S128 .f32) : Prop where
  r11 : IsReal (S := S128) a11
  r12 : IsReal (S := S128) a12
  r13 : IsReal (S := S128) a13
  rest : T4 a8 a14 a15 a16 a17 a18 a19 a20 a21 a22

/-- what parts 2 to 7 say of the arrays they name -/
structure T2 (a7 a8 : FVec Ideal S128 .f32) (a9 a10 : FVec Ideal S128x128 .f32)
    (a11 a12 a13 a14 a15 : FVec Ideal S128 .f32) (a16 a17 : FVec Ideal S128x128 .f32)
    (a18 a19 a20 a21 a22 : FVec Ideal S128 .f32) : Prop where
  r7 : IsReal (S := S128) a7
  r8 : IsReal (S := S128) a8
  r9 : IsReal (S := S128x128) a9
  r10 : IsReal (S := S128x128) a10
  rest : T3 a8 a11 a12 a13 a14 a15 a16 a17 a18 a19 a20 a21 a22

/-- what parts 1 to 7 say of the arrays they name -/
structure T1 (a4 a5 a6 a7 a8 : FVec Ideal S128 .f32) (a9 a10 : FVec Ideal S128x128 .f32)
    (a11 a12 a13 a14 a15 : FVec Ideal S128 .f32) (a16 a17 : FVec Ideal S128x128 .f32)
    (a18 a19 a20 a21 a22 : FVec Ideal S128 .f32) : Prop where
  r4 : IsReal (S := S128) a4
  r5 : IsReal (S := S128) a5
  r6 : IsReal (S := S128) a6
  rest : T2 a7 a8 a9 a10 a11 a12 a13 a14 a15 a16 a17 a18 a19 a20 a21 a22

/-- what the precondition says of the 23 inputs: each is an array of reals, and the three running variances
    plus the epsilon are positive everywhere -/
structure Decoded (a0 : FVec Ideal S10000x128 .f32) (a1 : FVec Ideal S10000x10000 .f32) (a2 : FVec Ideal S128x128 .f32) (a3 : FVec Ideal S128x128 .f32) (a4 : FVec Ideal S128 .f32) (a5 : FVec Ideal S128 .f32) (a6 : FVec Ideal S128 .f32) (a7 : FVec Ideal S128 .f32) (a8 : FVec Ideal S128 .f32) (a9 : FVec Ideal S128x128 .f32) (a10 : FVec Ideal S128x128 .f32) (a11 : FVec Ideal S128 .f32) (a12 : FVec Ideal S128 .f32) (a13 : FVec Ideal S128 .f32) (a14 : FVec Ideal S128 .f32) (a15 : FVec Ideal S128 .f32) (a16 : FVec Ideal S128x128 .f32) (a17 : FVec Ideal S128x128 .f32) (a18 : FVec Ideal S128 .f32) (a19 : FVec Ideal S128 .f32) (a20 : FVec Ideal S128 .f32) (a21 : FVec Ideal S128 .f32) (a22 : FVec Ideal S128 .f32) : Prop where
  real0 : IsReal (S := S10000x128) a0
  real1 : IsReal (S := S10000x10000) a1
  real2 : IsReal (S := S128x128) a2
  real3 : IsReal (S := S128x128) a3
  real4 : IsReal (S := S128) a4
  real5 : IsReal (S := S128) a5
  real6 : IsReal (S := S128) a6
  real7 : IsReal (S := S128) a7
  real8 : IsReal (S := S128) a8
  real9 : IsReal (S := S128x128) a9
  real10 : IsReal (S := S128x128) a10
  real11 : IsReal (S := S128) a11
  real12 : IsReal (S := S128) a12
  real13 : IsReal (S := S128) a13
  real14 : IsReal (S := S128) a14
  real15 : IsReal (S := S128) a15
  real16 : IsReal (S := S128x128) a16
  real17 : IsReal (S := S128x128) a17
  real18 : IsReal (S := S128) a18
  real19 : IsReal (S := S128) a19
  real20 : IsReal (S := S128) a20
  real21 : IsReal (S := S128) a21
  real22 : IsReal (S := S128) a22
  pos8 : ∀ i, 0 < a8 i + epsE
  pos15 : ∀ i, 0 < a15 i + epsE
  pos22 : ∀ i, 0 < a22 i + epsE

variable [Cert.Pre_finite_inputs.Facts]

/-- Part 7: the last two variance conjuncts, and the two words the part is handed. -/
theorem part7 (a15 a22 : FVec Ideal S128 .f32) (v113 v118 : IVec S_ 1)
    (h : fn_part7 (F := Ideal) a15 a22 v113 v118 ValueIdx.ix0 = 1#1) :
    v113 ValueIdx.ix0 = 1#1 ∧ v118 ValueIdx.ix0 = 1#1 ∧ (∀ i, 0 < a15 i + epsE) ∧ (∀ i, 0 < a22 i + epsE) := by
  dsimp only [fn_part7, Idealize.ShloMosaic.andi] at h
  obtain ⟨h1, e22⟩ := IntOp.andi_eq_one.1 h
  obtain ⟨h2, e15⟩ := IntOp.andi_eq_one.1 h1
  obtain ⟨h113, h118⟩ := IntOp.andi_eq_one.1 h2
  exact ⟨h113, h118, fun i => pos_of_word _ (Host.reduce_andi_all _ _ _ _ _ e15 i),
    fun i => pos_of_word _ (Host.reduce_andi_all _ _ _ _ _ e22 i)⟩

/-- Part 6: the reduction of the compare it is handed (`v101`), the conjuncts of inputs 21 and 22 and of the
    first variance, then part 7. -/
theorem part6 (a8 a15 a21 a22 : FVec Ideal S128 .f32) (v98 : IVec S_ 1) (v101 : IVec S128 1) (c39 : IVec S_ 1)
    (h : fn_part6 (F := Ideal) a8 a15 a21 a22 v98 v101 c39 ValueIdx.ix0 = 1#1) :
    v98 ValueIdx.ix0 = 1#1 ∧ (∀ i, v101 i = 1#1) ∧ T6 a8 a15 a21 a22 := by
  dsimp only [fn_part6] at h
  obtain ⟨h113, e8, p15, p22⟩ := part7 _ _ _ _ h
  dsimp only [Idealize.ShloMosaic.andi] at h113
  obtain ⟨h108, e22⟩ := IntOp.andi_eq_one.1 h113
  obtain ⟨h103, e21⟩ := IntOp.andi_eq_one.1 h108
  obtain ⟨h98, e20⟩ := IntOp.andi_eq_one.1 h103
  exact ⟨h98, fun i => Host.reduce_andi_all _ _ _ _ _ e20 i,
    ⟨fun i => real_of_word _ (Host.reduce_andi_all _ _ _ _ _ e21 i),
     fun i => real_of_word _ (Host.reduce_andi_all _ _ _ _ _ e22 i),
     fun i => pos_of_word _ (Host.reduce_andi_all _ _ _ _ _ e8 i), p15, p22⟩⟩

/-- Part 5: the compare of the absolute values it is handed (`v84`, against the broadcast of `cst32`), the
    conjuncts of inputs 18 and 19, the compare of input 20 (reduced in part 6), then part 6. -/
theorem part5 (a8 a15 a18 a19 a20 a21 a22 : FVec Ideal S128 .f32) (v83 : IVec S_ 1)
    (v84 : FVec Ideal S128x128 .f32) (cst32 : FVec Ideal S_ .f32)
    (h : fn_part5 (F := Ideal) a8 a15 a18 a19 a20 a21 a22 v83 v84 cst32 ValueIdx.ix0 = 1#1) :
    v83 ValueIdx.ix0 = 1#1
      ∧ (∀ i, cmpf .olt v84 (broadcastInDim S128x128 ![] Facts.bcast_S_S128x128 cst32) i = 1#1)
      ∧ T5 a8 a15 a18 a19 a20 a21 a22 := by
  dsimp only [fn_part5] at h
  obtain ⟨h98, e20, t6⟩ := part6 _ _ _ _ _ _ _ h
  dsimp only [Idealize.ShloMosaic.andi] at h98
  obtain ⟨h93, e19⟩ := IntOp.andi_eq_one.1 h98
  obtain ⟨h88, e18⟩ := IntOp.andi_eq_one.1 h93
  obtain ⟨h83, e17⟩ := IntOp.andi_eq_one.1 h88
  exact ⟨h83, fun i => Host.reduce_andi_all _ _ _ _ _ e17 i,
    ⟨fun i => real_of_word _ (Host.reduce_andi_all _ _ _ _ _ e18 i),
     fun i => real_of_word _ (Host.reduce_andi_all _ _ _ _ _ e19 i),
     fun i => real_of_word _ (e20 i), t6⟩⟩

/-- Part 4: the conjuncts of inputs 14, 15 and 16, the absolute values of input 17 (compared in part 5),
    then part 5. -/
theorem part4 (a8 a14 a15 : FVec Ideal S128 .f32) (a16 a17 : FVec Ideal S128x128 .f32)
    (a18 a19 a20 a21 a22 : FVec Ideal S128 .f32) (v63 v67 : IVec S_ 1)
    (h : fn_part4 (F := Ideal) a8 a14 a15 a16 a17 a18 a19 a20 a21 a22 v63 v67 ValueIdx.ix0 = 1#1) :
    v63 ValueIdx.ix0 = 1#1 ∧ v67 ValueIdx.ix0 = 1#1 ∧ T4 a8 a14 a15 a16 a17 a18 a19 a20 a21 a22 := by
  dsimp only [fn_part4] at h
  obtain ⟨h83, e17, t5⟩ := part5 _ _ _ _ _ _ _ _ _ _ h
  dsimp only [Idealize.ShloMosaic.andi] at h83
  obtain ⟨h78, e16⟩ := IntOp.andi_eq_one.1 h83
  obtain ⟨h73, e15⟩ := IntOp.andi_eq_one.1 h78
  obtain ⟨h68, e14⟩ := IntOp.andi_eq_one.1 h73
  obtain ⟨h63, h67⟩ := IntOp.andi_eq_one.1 h68
  exact ⟨h63, h67,
    ⟨fun i => real_of_word _ (Host.reduce_andi_all _ _ _ _ _ e14 i),
     fun i => real_of_word _ (Host.reduce_andi_all _ _ _ _ _ e15 i),
     fun i => real_of_word _ (Host.reduce_andi_all _ _ _ _ _ e16 i),
     fun i => real_of_word _ (e17 i), t5⟩⟩

/-- Part 3: the compare it is handed (`v49` against `v50`), the conjuncts of inputs 11, 12 and 13, then part 4. -/
theorem part3 (a8 a11 a12 a13 a14 a15 : FVec Ideal S128 .f32) (a16 a17 : FVec Ideal S128x128 .f32)
    (a18 a19 a20 a21 a22 : FVec Ideal S128 .f32) (v48 : IVec S_ 1) (v49 v50 : FVec Ideal S128x128 .f32)
    (h : fn_part3 (F := Ideal) a8 a11 a12 a13 a14 a15 a16 a17 a18 a19 a20 a21 a22 v48 v49 v50 ValueIdx.ix0 = 1#1) :
    v48 ValueIdx.ix0 = 1#1 ∧ (∀ i, cmpf .olt v49 v50 i = 1#1)
      ∧ T3 a8 a11 a12 a13 a14 a15 a16 a17 a18 a19 a20 a21 a22 := by
  dsimp only [fn_part3] at h
  obtain ⟨h63, e13, t4⟩ := part4 _ _ _ _ _ _ _ _ _ _ _ _ h
  dsimp only [Idealize.ShloMosaic.andi] at h63
  obtain ⟨h58, e12⟩ := IntOp.andi_eq_one.1 h63
  obtain ⟨h53, e11⟩ := IntOp.andi_eq_one.1 h58
  obtain ⟨h48, e10⟩ := IntOp.andi_eq_one.1 h53
  exact ⟨h48, fun i => Host.reduce_andi_all _ _ _ _ _ e10 i,
    ⟨fun i => real_of_word _ (Host.reduce_andi_all _ _ _ _ _ e11 i),
     fun i => real_of_word _ (Host.reduce_andi_all _ _ _ _ _ e12 i),
     fun i => real_of_word _ (Host.reduce_andi_all _ _ _ _ _ e13 i), t4⟩⟩

/-- Part 2: the conjuncts of inputs 7, 8 and 9, the two operands of the compare of input 10 (compared in
    part 3), then part 3. -/
theorem part2 (a7 a8 : FVec Ideal S128 .f32) (a9 a10 : FVec Ideal S128x128 .f32)
    (a11 a12 a13 a14 a15 : FVec Ideal S128 .f32) (a16 a17 : FVec Ideal S128x128 .f32)
    (a18 a19 a20 a21 a22 : FVec Ideal S128 .f32) (v33 : IVec S_ 1)
    (h : fn_part2 (F := Ideal) a7 a8 a9 a10 a11 a12 a13 a14 a15 a16 a17 a18 a19 a20 a21 a22 v33 ValueIdx.ix0 = 1#1) :
    v33 ValueIdx.ix0 = 1#1 ∧ T2 a7 a8 a9 a10 a11 a12 a13 a14 a15 a16 a17 a18 a19 a20 a21 a22 := by
  dsimp only [fn_part2] at h
  obtain ⟨h48, e10, t3⟩ := part3 _ _ _ _ _ _ _ _ _ _ _ _ _ _ _ _ h
  dsimp only [Idealize.ShloMosaic.andi] at h48
  obtain ⟨h43, e9⟩ := IntOp.andi_eq_one.1 h48
  obtain ⟨h38, e8⟩ := IntOp.andi_eq_one.1 h43
  obtain ⟨h33, e7⟩ := IntOp.andi_eq_one.1 h38
  exact ⟨h33,
    ⟨fun i => real_of_word _ (Host.reduce_andi_all _ _ _ _ _ e7 i),
     fun i => real_of_word _ (Host.reduce_andi_all _ _ _ _ _ e8 i),
     fun i => real_of_word _ (Host.reduce_andi_all _ _ _ _ _ e9 i),
     fun i => real_of_word _ (e10 i), t3⟩⟩

/-- Part 1: the reduction of the compare it is handed (`v16`), the conjuncts of inputs 4, 5 and 6, then part 2. -/
theorem part1 (a4 a5 a6 a7 a8 : FVec Ideal S128 .f32) (a9 a10 : FVec Ideal S128x128 .f32)
    (a11 a12 a13 a14 a15 : FVec Ideal S128 .f32) (a16 a17 : FVec Ideal S128x128 .f32)
    (a18 a19 a20 a21 a22 : FVec Ideal S128 .f32) (v13 : IVec S_ 1) (v16 : IVec S128x128 1)
    (h : fn_part1 (F := Ideal) a4 a5 a6 a7 a8 a9 a10 a11 a12 a13 a14 a15 a16 a17 a18 a19 a20 a21 a22 v13 v16
      ValueIdx.ix0 = 1#1) :
    v13 ValueIdx.ix0 = 1#1 ∧ (∀ i, v16 i = 1#1)
      ∧ T1 a4 a5 a6 a7 a8 a9 a10 a11 a12 a13 a14 a15 a16 a17 a18 a19 a20 a21 a22 := by
  dsimp only [fn_part1] at h
  obtain ⟨h33, t2⟩ := part2 _ _ _ _ _ _ _ _ _ _ _ _ _ _ _ _ _ h
  dsimp only [Idealize.ShloMosaic.andi] at h33
  obtain ⟨h28, e6⟩ := IntOp.andi_eq_one.1 h33
  obtain ⟨h23, e5⟩ := IntOp.andi_eq_one.1 h28
  obtain ⟨h18, e4⟩ := IntOp.andi_eq_one.1 h23
  obtain ⟨h13, e3⟩ := IntOp.andi_eq_one.1 h18
  exact ⟨h13, fun i => Host.reduce_andi_all _ _ _ _ _ e3 i,
    ⟨fun i => real_of_word _ (Host.reduce_andi_all _ _ _ _ _ e4 i),
     fun i => real_of_word _ (Host.reduce_andi_all _ _ _ _ _ e5 i),
     fun i => real_of_word _ (Host.reduce_andi_all _ _ _ _ _ e6 i), t2⟩⟩

/-- The whole precondition: the head of the chain holds the conjuncts of inputs 0, 1 and 2 and the compare of
    input 3 (reduced in part 1); the parts give the rest. The claim that the rank-0 result is the constant 1 is
    read at its one index. -/
theorem decode (a0 : FVec Ideal S10000x128 .f32) (a1 : FVec Ideal S10000x10000 .f32) (a2 : FVec Ideal S128x128 .f32) (a3 : FVec Ideal S128x128 .f32) (a4 : FVec Ideal S128 .f32) (a5 : FVec Ideal S128 .f32) (a6 : FVec Ideal S128 .f32) (a7 : FVec Ideal S128 .f32) (a8 : FVec Ideal S128 .f32) (a9 : FVec Ideal S128x128 .f32) (a10 : FVec Ideal S128x128 .f32) (a11 : FVec Ideal S128 .f32) (a12 : FVec Ideal S128 .f32) (a13 : FVec Ideal S128 .f32) (a14 : FVec Ideal S128 .f32) (a15 : FVec Ideal S128 .f32) (a16 : FVec Ideal S128x128 .f32) (a17 : FVec Ideal S128x128 .f32) (a18 : FVec Ideal S128 .f32) (a19 : FVec Ideal S128 .f32) (a20 : FVec Ideal S128 .f32) (a21 : FVec Ideal S128 .f32) (a22 : FVec Ideal S128 .f32)
    (h : Cert.Pre_finite_inputs.fn (F := Ideal) a0 a1 a2 a3 a4 a5 a6 a7 a8 a9 a10 a11 a12 a13 a14 a15 a16 a17 a18 a19 a20 a21 a22 = fun _ => 1#1) :
    Decoded a0 a1 a2 a3 a4 a5 a6 a7 a8 a9 a10 a11 a12 a13 a14 a15 a16 a17 a18 a19 a20 a21 a22 := by
  have h0 := congrFun h ValueIdx.ix0
  dsimp only [fn] at h0
  obtain ⟨h13, e3, t1⟩ := part1 _ _ _ _ _ _ _ _ _ _ _ _ _ _ _ _ _ _ _ _ _ h0
  dsimp only [Idealize.ShloMosaic.andi] at h13
  obtain ⟨h8, e2⟩ := IntOp.andi_eq_one.1 h13
  obtain ⟨e0, e1⟩ := IntOp.andi_eq_one.1 h8
  -- the parts' records, innermost last: inputs 7–10, 11–13, 14–17, 18–20, then 21, 22 and the variances
  have t2 := t1.rest
  have t3 := t2.rest
  have t4 := t3.rest
  have t5 := t4.rest
  have t6 := t5.rest
  exact
    { real0 := fun i => real_of_word _ (Host.reduce_andi_all _ _ _ _ _ e0 i)
      real1 := fun i => real_of_word _ (Host.reduce_andi_all _ _ _ _ _ e1 i)
      real2 := fun i => real_of_word _ (Host.reduce_andi_all _ _ _ _ _ e2 i)
      real3 := fun i => real_of_word _ (e3 i)
      real4 := t1.r4, real5 := t1.r5, real6 := t1.r6
      real7 := t2.r7, real8 := t2.r8, real9 := t2.r9, real10 := t2.r10
      real11 := t3.r11, real12 := t3.r12, real13 := t3.r13
      real14 := t4.r14, real15 := t4.r15, real16 := t4.r16, real17 := t4.r17
      real18 := t5.r18, real19 := t5.r19, real20 := t5.r20
      real21 := t6.r21, real22 := t6.r22
      pos8 := t6.p8, pos15 := t6.p15, pos22 := t6.p22 }

end Cert.PreFacts
-- ==== Proof.lean ====
/-
  The certificate's five claims.

  Both kernel programs, the word-level one and its idealization, have the same text up to the float instance: three
  kernel regions among host operations.  Each runs as the chain of its items (the run module of its directory), ending
  with every unscoped buffer at the last contents of a fold from the launch memory; no item writes an argument, which is
  the frame.  The reference is a host program and runs operation by operation.

  The equivalence is stated under the inputs' finiteness and `v + eps > 0` for the three running variances, the domain
  on which the reference's division by `sqrt (v + eps)` is defined.  There every array entry is a real number, the
  kernel's folded scale `g * rsqrt (v + eps)` and shift are real, and the two normalisations are one real expression;
  the matrix products are the same sums on both sides.  Without it the two programs differ (at `v + eps < 0` the
  reference's quotient by the undefined root is `0` while the kernel's scale is infinite).
-/
import proofs.«175746_g1967095022037_cont_8to1_1256_3_alg».proof.Defs
import proofs.«175746_g1967095022037_cont_8to1_1256_3_alg».proof.Proof.Gen.Kernel
import proofs.«175746_g1967095022037_cont_8to1_1256_3_alg».proof.Proof.Gen.KernelIdeal
import proofs.«175746_g1967095022037_cont_8to1_1256_3_alg».proof.Proof.Gen.ReferenceIdeal
import proofs.«175746_g1967095022037_cont_8to1_1256_3_alg».proof.Proof.Gen.ReferenceIdeal.Run
import proofs.«175746_g1967095022037_cont_8to1_1256_3_alg».proof.Proof.Gen.ReferenceIdeal.Read
import proofs.«175746_g1967095022037_cont_8to1_1256_3_alg».proof.Proof.Gen.Pre_finite_inputs
import proofs.«175746_g1967095022037_cont_8to1_1256_3_alg».proof.Proof.K.Run
import proofs.«175746_g1967095022037_cont_8to1_1256_3_alg».proof.Proof.KI.Run
import proofs.«175746_g1967095022037_cont_8to1_1256_3_alg».proof.Proof.KI.Value
import proofs.«175746_g1967095022037_cont_8to1_1256_3_alg».proof.Proof.RefValue
import proofs.«175746_g1967095022037_cont_8to1_1256_3_alg».proof.Proof.BnLaw
import proofs.«175746_g1967095022037_cont_8to1_1256_3_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word of `f32(1e-5)` denotes a real number. -/
theorem eps_real : ∃ a : ℝ, (Ideal.ofBits .f32 0x3727C5AC#32 : EReal) = (a : EReal) := by
  simp [Ideal.ofBits, Ideal.ieee]
  first
    | exact ⟨_, (EReal.coe_mul _ _).symm⟩
    | exact ⟨(10995116 : ℝ) * ((2 : ℝ) ^ 40)⁻¹, by push_cast; rfl⟩
    | exact ⟨(10995116 : ℝ) * ((2 : ℝ) ^ 40)⁻¹, by norm_cast⟩
    | (refine ⟨(10995116 : ℝ) * ((2 : ℝ) ^ 40)⁻¹, ?_⟩; rw [EReal.coe_mul]; norm_cast)

/-- The word-level program runs and leaves its arguments as launched: each is read off the last contents, which no
    item has written. -/
theorem frame_k : Cert.frame_Kernel := fun m ρ _ =>
  (θ_run Cert.Kernel.defs _ _).mono (fun r h c =>
    ⟨(h c _ (Cert.Kernel.Rgn.mem_uc Cert.Kernel.main_arg0 (by decide))).trans (Cert.Kernel.Gen.V6_main_arg0 m _ c),
      (h c _ (Cert.Kernel.Rgn.mem_uc Cert.Kernel.main_arg1 (by decide))).trans (Cert.Kernel.Gen.V6_main_arg1 m _ c),
      (h c _ (Cert.Kernel.Rgn.mem_uc Cert.Kernel.main_arg2 (by decide))).trans (Cert.Kernel.Gen.V6_main_arg2 m _ c),
      (h c _ (Cert.Kernel.Rgn.mem_uc Cert.Kernel.main_arg3 (by decide))).trans (Cert.Kernel.Gen.V6_main_arg3 m _ c),
      (h c _ (Cert.Kernel.Rgn.mem_uc Cert.Kernel.main_arg4 (by decide))).trans (Cert.Kernel.Gen.V6_main_arg4 m _ c),
      (h c _ (Cert.Kernel.Rgn.mem_uc Cert.Kernel.main_arg5 (by decide))).trans (Cert.Kernel.Gen.V6_main_arg5 m _ c),
      (h c _ (Cert.Kernel.Rgn.mem_uc Cert.Kernel.main_arg6 (by decide))).trans (Cert.Kernel.Gen.V6_main_arg6 m _ c),
      (h c _ (Cert.Kernel.Rgn.mem_uc Cert.Kernel.main_arg7 (by decide))).trans (Cert.Kernel.Gen.V6_main_arg7 m _ c),
      (h c _ (Cert.Kernel.Rgn.mem_uc Cert.Kernel.main_arg8 (by decide))).trans (Cert.Kernel.Gen.V6_main_arg8 m _ c),
      (h c _ (Cert.Kernel.Rgn.mem_uc Cert.Kernel.main_arg9 (by decide))).trans (Cert.Kernel.Gen.V6_main_arg9 m _ c),
      (h c _ (Cert.Kernel.Rgn.mem_uc Cert.Kernel.main_arg10 (by decide))).trans (Cert.Kernel.Gen.V6_main_arg10 m _ c),
      (h c _ (Cert.Kernel.Rgn.mem_uc Cert.Kernel.main_arg11 (by decide))).trans (Cert.Kernel.Gen.V6_main_arg11 m _ c),
      (h c _ (Cert.Kernel.Rgn.mem_uc Cert.Kernel.main_arg12 (by decide))).trans (Cert.Kernel.Gen.V6_main_arg12 m _ c),
      (h c _ (Cert.Kernel.Rgn.mem_uc Cert.Kernel.main_arg13 (by decide))).trans (Cert.Kernel.Gen.V6_main_arg13 m _ c),
      (h c _ (Cert.Kernel.Rgn.mem_uc Cert.Kernel.main_arg14 (by decide))).trans (Cert.Kernel.Gen.V6_main_arg14 m _ c),
      (h c _ (Cert.Kernel.Rgn.mem_uc Cert.Kernel.main_arg15 (by decide))).trans (Cert.Kernel.Gen.V6_main_arg15 m _ c),
      (h c _ (Cert.Kernel.Rgn.mem_uc Cert.Kernel.main_arg16 (by decide))).trans (Cert.Kernel.Gen.V6_main_arg16 m _ c),
      (h c _ (Cert.Kernel.Rgn.mem_uc Cert.Kernel.main_arg17 (by decide))).trans (Cert.Kernel.Gen.V6_main_arg17 m _ c),
      (h c _ (Cert.Kernel.Rgn.mem_uc Cert.Kernel.main_arg18 (by decide))).trans (Cert.Kernel.Gen.V6_main_arg18 m _ c),
      (h c _ (Cert.Kernel.Rgn.mem_uc Cert.Kernel.main_arg19 (by decide))).trans (Cert.Kernel.Gen.V6_main_arg19 m _ c),
      (h c _ (Cert.Kernel.Rgn.mem_uc Cert.Kernel.main_arg20 (by decide))).trans (Cert.Kernel.Gen.V6_main_arg20 m _ c),
      (h c _ (Cert.Kernel.Rgn.mem_uc Cert.Kernel.main_arg21 (by decide))).trans (Cert.Kernel.Gen.V6_main_arg21 m _ c),
      (h c _ (Cert.Kernel.Rgn.mem_uc Cert.Kernel.main_arg22 (by decide))).trans (Cert.Kernel.Gen.V6_main_arg22 m _ c)⟩)
    (Cert.Kernel.Rgn.run_all (F := Bits) m ρ)

/-- The idealized program likewise. -/
theorem frame_ki : Cert.frame_KernelIdeal := fun m ρ _ =>
  (θ_run Cert.KernelIdeal.defs _ _).mono (fun r h c =>
    ⟨(h c _ (Cert.KernelIdeal.Rgn.mem_uc Cert.KernelIdeal.main_arg0 (by decide))).trans (Cert.KernelIdeal.Gen.V6_main_arg0 m _ c),
      (h c _ (Cert.KernelIdeal.Rgn.mem_uc Cert.KernelIdeal.main_arg1 (by decide))).trans (Cert.KernelIdeal.Gen.V6_main_arg1 m _ c),
      (h c _ (Cert.KernelIdeal.Rgn.mem_uc Cert.KernelIdeal.main_arg2 (by decide))).trans (Cert.KernelIdeal.Gen.V6_main_arg2 m _ c),
      (h c _ (Cert.KernelIdeal.Rgn.mem_uc Cert.KernelIdeal.main_arg3 (by decide))).trans (Cert.KernelIdeal.Gen.V6_main_arg3 m _ c),
      (h c _ (Cert.KernelIdeal.Rgn.mem_uc Cert.KernelIdeal.main_arg4 (by decide))).trans (Cert.KernelIdeal.Gen.V6_main_arg4 m _ c),
      (h c _ (Cert.KernelIdeal.Rgn.mem_uc Cert.KernelIdeal.main_arg5 (by decide))).trans (Cert.KernelIdeal.Gen.V6_main_arg5 m _ c),
      (h c _ (Cert.KernelIdeal.Rgn.mem_uc Cert.KernelIdeal.main_arg6 (by decide))).trans (Cert.KernelIdeal.Gen.V6_main_arg6 m _ c),
      (h c _ (Cert.KernelIdeal.Rgn.mem_uc Cert.KernelIdeal.main_arg7 (by decide))).trans (Cert.KernelIdeal.Gen.V6_main_arg7 m _ c),
      (h c _ (Cert.KernelIdeal.Rgn.mem_uc Cert.KernelIdeal.main_arg8 (by decide))).trans (Cert.KernelIdeal.Gen.V6_main_arg8 m _ c),
      (h c _ (Cert.KernelIdeal.Rgn.mem_uc Cert.KernelIdeal.main_arg9 (by decide))).trans (Cert.KernelIdeal.Gen.V6_main_arg9 m _ c),
      (h c _ (Cert.KernelIdeal.Rgn.mem_uc Cert.KernelIdeal.main_arg10 (by decide))).trans (Cert.KernelIdeal.Gen.V6_main_arg10 m _ c),
      (h c _ (Cert.KernelIdeal.Rgn.mem_uc Cert.KernelIdeal.main_arg11 (by decide))).trans (Cert.KernelIdeal.Gen.V6_main_arg11 m _ c),
      (h c _ (Cert.KernelIdeal.Rgn.mem_uc Cert.KernelIdeal.main_arg12 (by decide))).trans (Cert.KernelIdeal.Gen.V6_main_arg12 m _ c),
      (h c _ (Cert.KernelIdeal.Rgn.mem_uc Cert.KernelIdeal.main_arg13 (by decide))).trans (Cert.KernelIdeal.Gen.V6_main_arg13 m _ c),
      (h c _ (Cert.KernelIdeal.Rgn.mem_uc Cert.KernelIdeal.main_arg14 (by decide))).trans (Cert.KernelIdeal.Gen.V6_main_arg14 m _ c),
      (h c _ (Cert.KernelIdeal.Rgn.mem_uc Cert.KernelIdeal.main_arg15 (by decide))).trans (Cert.KernelIdeal.Gen.V6_main_arg15 m _ c),
      (h c _ (Cert.KernelIdeal.Rgn.mem_uc Cert.KernelIdeal.main_arg16 (by decide))).trans (Cert.KernelIdeal.Gen.V6_main_arg16 m _ c),
      (h c _ (Cert.KernelIdeal.Rgn.mem_uc Cert.KernelIdeal.main_arg17 (by decide))).trans (Cert.KernelIdeal.Gen.V6_main_arg17 m _ c),
      (h c _ (Cert.KernelIdeal.Rgn.mem_uc Cert.KernelIdeal.main_arg18 (by decide))).trans (Cert.KernelIdeal.Gen.V6_main_arg18 m _ c),
      (h c _ (Cert.KernelIdeal.Rgn.mem_uc Cert.KernelIdeal.main_arg19 (by decide))).trans (Cert.KernelIdeal.Gen.V6_main_arg19 m _ c),
      (h c _ (Cert.KernelIdeal.Rgn.mem_uc Cert.KernelIdeal.main_arg20 (by decide))).trans (Cert.KernelIdeal.Gen.V6_main_arg20 m _ c),
      (h c _ (Cert.KernelIdeal.Rgn.mem_uc Cert.KernelIdeal.main_arg21 (by decide))).trans (Cert.KernelIdeal.Gen.V6_main_arg21 m _ c),
      (h c _ (Cert.KernelIdeal.Rgn.mem_uc Cert.KernelIdeal.main_arg22 (by decide))).trans (Cert.KernelIdeal.Gen.V6_main_arg22 m _ c)⟩)
    (Cert.KernelIdeal.Rgn.run_all (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The precondition, decoded, says the block's inputs are in the law's domain: every array real, each layer's
    variance plus `eps` positive. -/
theorem inputs_ok (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.Real2 (Cert.KernelIdeal.Rgn.argA m c) ∧ Cert.Spec.Real2 (Cert.KernelIdeal.Rgn.argX m c)
      ∧ (Cert.KernelIdeal.Rgn.lay0 m c).Ok Cert.PreFacts.epsE ∧ (Cert.KernelIdeal.Rgn.lay1a m c).Ok Cert.PreFacts.epsE
      ∧ (Cert.KernelIdeal.Rgn.lay1b m c).Ok Cert.PreFacts.epsE := by
  have d := Cert.PreFacts.decode _ _ _ _ _ _ _ _ _ _ _ _ _ _ _ _ _ _ _ _ _ _ _ (hpre c)
  exact ⟨fun r k => d.real1 (ix2 r k), fun r k => d.real0 (ix2 r k),
    ⟨fun r k => d.real2 (ix2 r k), fun r k => d.real3 (ix2 r k), fun k => d.real4 (ix1 k), fun k => d.real5 (ix1 k),
      fun k => d.real6 (ix1 k), fun k => d.real7 (ix1 k), fun k => d.real8 (ix1 k), fun k => d.pos8 (ix1 k)⟩,
    ⟨fun r k => d.real9 (ix2 r k), fun r k => d.real10 (ix2 r k), fun k => d.real11 (ix1 k), fun k => d.real12 (ix1 k),
      fun k => d.real13 (ix1 k), fun k => d.real14 (ix1 k), fun k => d.real15 (ix1 k), fun k => d.pos15 (ix1 k)⟩,
    ⟨fun r k => d.real16 (ix2 r k), fun r k => d.real17 (ix2 r k), fun k => d.real18 (ix1 k), fun k => d.real19 (ix1 k),
      fun k => d.real20 (ix1 k), fun k => d.real21 (ix1 k), fun k => d.real22 (ix1 k), fun k => d.pos22 (ix1 k)⟩⟩

/-- From memories agreeing on the arguments both idealized programs end with one result array: the kernel's is the
    block with the normalisation folded, the reference's the block with it applied step by step, of the same real
    inputs with positive `v + eps`. -/
theorem algebraic : Cert.algebraic_KernelIdeal_ReferenceIdeal := by
  intro m ρ m' ρ' hpre hagree
  refine ⟨fun c => Cert.KernelIdeal.Gen.V6 m (Cert.KernelIdeal.Rgn.outs m) c Cert.KernelIdeal.main_v33, ?_, ?_⟩
  · exact (θ_run Cert.KernelIdeal.defs _ _).mono (fun r h c =>
      ⟨h c _ (Cert.KernelIdeal.Rgn.mem_uc Cert.KernelIdeal.main_v33 (by decide)),
      (h c _ (Cert.KernelIdeal.Rgn.mem_uc Cert.KernelIdeal.main_arg0 (by decide))).trans (Cert.KernelIdeal.Gen.V6_main_arg0 m _ c),
      (h c _ (Cert.KernelIdeal.Rgn.mem_uc Cert.KernelIdeal.main_arg1 (by decide))).trans (Cert.KernelIdeal.Gen.V6_main_arg1 m _ c),
      (h c _ (Cert.KernelIdeal.Rgn.mem_uc Cert.KernelIdeal.main_arg2 (by decide))).trans (Cert.KernelIdeal.Gen.V6_main_arg2 m _ c),
      (h c _ (Cert.KernelIdeal.Rgn.mem_uc Cert.KernelIdeal.main_arg3 (by decide))).trans (Cert.KernelIdeal.Gen.V6_main_arg3 m _ c),
      (h c _ (Cert.KernelIdeal.Rgn.mem_uc Cert.KernelIdeal.main_arg4 (by decide))).trans (Cert.KernelIdeal.Gen.V6_main_arg4 m _ c),
      (h c _ (Cert.KernelIdeal.Rgn.mem_uc Cert.KernelIdeal.main_arg5 (by decide))).trans (Cert.KernelIdeal.Gen.V6_main_arg5 m _ c),
      (h c _ (Cert.KernelIdeal.Rgn.mem_uc Cert.KernelIdeal.main_arg6 (by decide))).trans (Cert.KernelIdeal.Gen.V6_main_arg6 m _ c),
      (h c _ (Cert.KernelIdeal.Rgn.mem_uc Cert.KernelIdeal.main_arg7 (by decide))).trans (Cert.KernelIdeal.Gen.V6_main_arg7 m _ c),
      (h c _ (Cert.KernelIdeal.Rgn.mem_uc Cert.KernelIdeal.main_arg8 (by decide))).trans (Cert.KernelIdeal.Gen.V6_main_arg8 m _ c),
      (h c _ (Cert.KernelIdeal.Rgn.mem_uc Cert.KernelIdeal.main_arg9 (by decide))).trans (Cert.KernelIdeal.Gen.V6_main_arg9 m _ c),
      (h c _ (Cert.KernelIdeal.Rgn.mem_uc Cert.KernelIdeal.main_arg10 (by decide))).trans (Cert.KernelIdeal.Gen.V6_main_arg10 m _ c),
      (h c _ (Cert.KernelIdeal.Rgn.mem_uc Cert.KernelIdeal.main_arg11 (by decide))).trans (Cert.KernelIdeal.Gen.V6_main_arg11 m _ c),
      (h c _ (Cert.KernelIdeal.Rgn.mem_uc Cert.KernelIdeal.main_arg12 (by decide))).trans (Cert.KernelIdeal.Gen.V6_main_arg12 m _ c),
      (h c _ (Cert.KernelIdeal.Rgn.mem_uc Cert.KernelIdeal.main_arg13 (by decide))).trans (Cert.KernelIdeal.Gen.V6_main_arg13 m _ c),
      (h c _ (Cert.KernelIdeal.Rgn.mem_uc Cert.KernelIdeal.main_arg14 (by decide))).trans (Cert.KernelIdeal.Gen.V6_main_arg14 m _ c),
      (h c _ (Cert.KernelIdeal.Rgn.mem_uc Cert.KernelIdeal.main_arg15 (by decide))).trans (Cert.KernelIdeal.Gen.V6_main_arg15 m _ c),
      (h c _ (Cert.KernelIdeal.Rgn.mem_uc Cert.KernelIdeal.main_arg16 (by decide))).trans (Cert.KernelIdeal.Gen.V6_main_arg16 m _ c),
      (h c _ (Cert.KernelIdeal.Rgn.mem_uc Cert.KernelIdeal.main_arg17 (by decide))).trans (Cert.KernelIdeal.Gen.V6_main_arg17 m _ c),
      (h c _ (Cert.KernelIdeal.Rgn.mem_uc Cert.KernelIdeal.main_arg18 (by decide))).trans (Cert.KernelIdeal.Gen.V6_main_arg18 m _ c),
      (h c _ (Cert.KernelIdeal.Rgn.mem_uc Cert.KernelIdeal.main_arg19 (by decide))).trans (Cert.KernelIdeal.Gen.V6_main_arg19 m _ c),
      (h c _ (Cert.KernelIdeal.Rgn.mem_uc Cert.KernelIdeal.main_arg20 (by decide))).trans (Cert.KernelIdeal.Gen.V6_main_arg20 m _ c),
      (h c _ (Cert.KernelIdeal.Rgn.mem_uc Cert.KernelIdeal.main_arg21 (by decide))).trans (Cert.KernelIdeal.Gen.V6_main_arg21 m _ c),
      (h c _ (Cert.KernelIdeal.Rgn.mem_uc Cert.KernelIdeal.main_arg22 (by decide))).trans (Cert.KernelIdeal.Gen.V6_main_arg22 m _ c)⟩)
      (Cert.KernelIdeal.Rgn.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22⟩ := hagree c
    obtain ⟨hA, hX, h0, h1a, h1b⟩ := inputs_ok m hpre c
    funext idx
    obtain ⟨i, j, rfl⟩ : ∃ (i : Fin 10000) (j : Fin 384), idx = ix2 i j := ⟨idx 0, idx 1, eq_ix2 idx⟩
    rw [Cert.ReferenceIdeal.Read.val_main_v70_eq, e0, e1, e2, e3, e4, e5, e6, e7, e8, e9, e10, e11, e12, e13, e14, e15, e16, e17, e18, e19, e20, e21, e22]
    refine (Cert.ReferenceIdeal.RefValue.ref_value _ _ _ _ _ _ _ _ _ _ _ _ _ _ _ _ _ _ _ _ _ _ _ i j).trans ?_
    refine Eq.trans ?_ (Cert.KernelIdeal.Rgn.kernel_value m c i j).symm
    exact (congrFun (congrFun (Cert.Spec.kerBlock_eq_refBlock eps_real hA hX h0 h1a h1b) i) j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
